-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_cst_3)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_cst_3) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_cst_7) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S1024x2048 : Shape := ⟨2, ![1024, 2048]⟩
abbrev S2048x4096 : Shape := ⟨2, ![2048, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : FVec F S1024x4096 .f32) (main_arg1 : FVec F S1024x2048 .f32) (main_arg2 : FVec F S2048x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  main_v13
-- ==== Kernel.lean ====
abbrev S1024x4096 : Shape := ⟨2, ![1024, 4096]⟩
abbrev S1024x2048 : Shape := ⟨2, ![1024, 2048]⟩
abbrev S2048x4096 : Shape := ⟨2, ![2048, 4096]⟩
abbrev S256x2048 : Shape := ⟨2, ![256, 2048]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S512x512 : Shape := ⟨2, ![512, 512]⟩
abbrev S512x1024 : Shape := ⟨2, ![512, 1024]⟩
abbrev S512x1 : Shape := ⟨2, ![512, 1]⟩

abbrev nBuf : Space → Nat
  | .hbm => 24
  | .vmem => 27
  | .smem => 0
  | _ => 0

abbrev bufTy : (tb : Table) → Fin (tcTables nBuf tb) → BufTy
  | .hbm, ⟨0, _⟩ => ⟨S1024x4096, .f32⟩
  | .hbm, ⟨1, _⟩ => ⟨S1024x2048, .f32⟩
  | .hbm, ⟨2, _⟩ => ⟨S2048x4096, .f32⟩
  | .hbm, ⟨3, _⟩ => ⟨S1024x4096, .bf16⟩
  | .hbm, ⟨4, _⟩ => ⟨S2048x4096, .bf16⟩
  | .hbm, ⟨5, _⟩ => ⟨S1024x2048, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S1024x2048, .bf16⟩
  | .hbm, ⟨13, _⟩ => ⟨S2048x4096, .f32⟩
  | .hbm, ⟨14, _⟩ => ⟨S2048x4096, .bf16⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S256x2048, .bf16⟩
  | .local _ .vmem, ⟨21, _⟩ => ⟨S256x2048, .bf16⟩
  | .local _ .vmem, ⟨22, _⟩ => ⟨S1024x2048, .bf16⟩
  | .local _ .vmem, ⟨23, _⟩ => ⟨S1024x2048, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 2, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reducesTo_S1024x2048_S2048_d0 : S1024x2048.ReducesTo [0] S2048
  h_S_ : 0 < S_.numel
  bcast_S_S2048 : S_.BroadcastsInDim S2048 (![] : Fin 0 → Fin S2048.rank)
  shapeCasts_S2048_S2048x1 : S2048.ShapeCasts S2048x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  reducesTo_S1024x2048_S_d0_1 : S1024x2048.ReducesTo [0, 1] S_
  dot_S256x2048_S1024x2048_S256x1024_1_1_0_0_n_n_wf : DotDims.WF S256x2048 S1024x2048 S256x1024 [1] [1] [0] [0] [] []
  dot_S512x512_S512x1024_S512x1024_0_0_1_1_n_n_wf : DotDims.WF S512x512 S512x1024 S512x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x4096.size a
  hwx0_0 : ∀ i : grid0.Coords, EltTy.bits .bf16 = 32 ∨ (Rect.block (s := S1024x4096) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x4096.size a
  hwx0_1 : ∀ i : grid0.Coords, EltTy.bits .bf16 = 32 ∨ (Rect.block (s := S2048x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x2048.size a
  hwx0_2 : ∀ i : grid0.Coords, EltTy.bits .f32 = 32 ∨ (Rect.block (s := S1024x2048) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x2048.size a
  hwx0_3 : ∀ i : grid0.Coords, EltTy.bits .f32 = 32 ∨ (Rect.block (s := S1024x2048) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S1024x2048.size a
  hwx1_0 : ∀ i : grid1.Coords, EltTy.bits .bf16 = 32 ∨ (Rect.block (s := S1024x2048) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S1024x4096.size a
  hwx1_1 : ∀ i : grid1.Coords, EltTy.bits .bf16 = 32 ∨ (Rect.block (s := S1024x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x4096.size a
  hwx1_2 : ∀ i : grid1.Coords, EltTy.bits .f32 = 32 ∨ (Rect.block (s := S2048x4096) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S2048x1.size a
  hwx1_3 : ∀ i : grid1.Coords, EltTy.bits .f32 = 32 ∨ (Rect.block (s := S2048x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S2048x4096.size a
  hwx1_4 : ∀ i : grid1.Coords, EltTy.bits .f32 = 32 ∨ (Rect.block (s := S2048x4096) S512x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S1024x4096.size a
  hwx2_0 : ∀ i : grid2.Coords, EltTy.bits .bf16 = 32 ∨ (Rect.block (s := S1024x4096) S256x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S2048x4096.size a
  hwx2_1 : ∀ i : grid2.Coords, EltTy.bits .bf16 = 32 ∨ (Rect.block (s := S2048x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S1024x2048.size a
  hwx2_2 : ∀ i : grid2.Coords, EltTy.bits .f32 = 32 ∨ (Rect.block (s := S1024x2048) S256x1024.size (cc2_transform_2 i) (hinb2_2 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S1024x4096 : Shape := ⟨2, ![1024, 4096]⟩
abbrev S1024x2048 : Shape := ⟨2, ![1024, 2048]⟩
abbrev S2048x4096 : Shape := ⟨2, ![2048, 4096]⟩
abbrev S4096x2048 : Shape := ⟨2, ![4096, 2048]⟩
abbrev S_ : Shape := ⟨0, ![]⟩
abbrev S2048 : Shape := ⟨1, ![2048]⟩
abbrev S2048x1 : Shape := ⟨2, ![2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x2048, .f32⟩
  | .hbm, ⟨2, _⟩ => ⟨S2048x4096, .f32⟩
  | .hbm, ⟨3, _⟩ => ⟨S4096x2048, .f32⟩
  | .hbm, ⟨4, _⟩ => ⟨S1024x2048, .f32⟩
  | .hbm, ⟨5, _⟩ => ⟨S1024x2048, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048x1, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S4096x2048, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩

abbrev nD : Nat := 1
abbrev τ : Topo := Topo.v7x

variable {F : FTy → Type} [FloatOps F]

class Facts₀ : Prop where
  transposes_S2048x4096_S4096x2048_1_0 : S2048x4096.Transposes [1, 0] S4096x2048
  bcast_S_S2048x4096 : S_.BroadcastsInDim S2048x4096 (![] : Fin 0 → Fin S2048x4096.rank)
  reducesTo_S1024x2048_S2048_d0 : S1024x2048.ReducesTo [0] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x4096_0_1 : S2048x1.BroadcastsInDim S2048x4096 (![0, 1] : Fin 2 → Fin S2048x4096.rank)
  reducesTo_S1024x2048_S_d0_1 : S1024x2048.ReducesTo [0, 1] S_
  dot_S1024x4096_S4096x2048_S1024x2048_1_0_0_1_n_n_wf : DotDims.WF S1024x4096 S4096x2048 S1024x2048 [1] [0] [0] [1] [] []
  dot_S1024x2048_S1024x4096_S2048x4096_0_0_1_1_n_n_wf : DotDims.WF S1024x2048 S1024x4096 S2048x4096 [0] [0] [1] [1] [] []

variable [Facts₀]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf
def dot_S1024x2048_S1024x4096_S2048x4096_0_0_1_1_n_n : DotDims S1024x2048 S1024x4096 S2048x4096 where
  lhsContracting := [0]
  rhsContracting := [0]
  lhsNonContracting := [1]
  rhsNonContracting := [1]
  lhsBatch := []
  rhsBatch := []
  wf := dot_S1024x2048_S1024x4096_S2048x4096_0_0_1_1_n_n_wf

class Facts : Prop extends Facts₀ where

variable [Facts]
-- ==== Proof.Kernel.R0Runs.lean ====
/-
  Region 0 of the program: the first tiled product, pre = ec · Wᵀ + dg, on the grid (4, 2, 2).

  A point (i, j, k) works on rows 256 i … of ec, rows 1024 j … of W and half k of the 4096-long contraction.
  At k = 0 the body zeroes its accumulator and adds the first half's product; the output block is not touched
  there.  At k = 1 it adds the second half's product and stores accumulator + dg block into the output block,
  which is then written back.  So the accumulator after a point depends only on that point's blocks and, at
  k = 1, on the blocks of the point before it (the same (i, j) at k = 0).

  Stated for any float instance: what each staging buffer and the accumulator hold after every point, the
  invariant that carries the accumulator between points, and the obligation that the body meets it.
-/
import proofs.«174496_j87144886436114_1_alg».proof.Proof.Gen.Kernel.Launch
import proofs.«174496_j87144886436114_1_alg».proof.Proof.Gen.Kernel.Skeleton
import proofs.«174496_j87144886436114_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which half of the contraction a point is on -/

/-- The body's first branch: the point is on the first half (k = 0). -/
abbrev cond0_0 (i : grid0.Coords) : Prop := (Scalar.cmpi .ne (Scalar.extui (Scalar.cmpi .eq (BitVec.ofNat 32 (i 2).val) 0#32)) 0#32) = 1#1
/-- The points on the first half are the even ones. -/
theorem hcond0_0 : ∀ t : Fin cfg0.N, cond0_0 (grid0.coords t) ↔ t.val % 2 = 0 :=
  (by decide +kernel : ∀ t : Fin grid0.N, cond0_0 (grid0.coords t) ↔ t.val % 2 = 0)
/-- The body's second branch: the point is on the last half (k = 1). -/
abbrev cond0_1 (i : grid0.Coords) : Prop := k0_cond2 i = 1#1
/-- The points on the last half are the odd ones. -/
theorem hcond0_1 : ∀ t : Fin cfg0.N, cond0_1 (grid0.coords t) ↔ t.val % 2 = 1 :=
  (by decide +kernel : ∀ t : Fin grid0.N, cond0_1 (grid0.coords t) ↔ t.val % 2 = 1)

/-- The three inputs are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- On the first half the output block is neither stored into nor written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- On the last half it is stored whole. -/
theorem liveAt0_3_B : ∀ t : Fin cfg0.N, ¬cond0_0 (grid0.coords t) → cond0_1 (grid0.coords t) → cfg0.idle 3 (grid0.coords t) = false := by decide +kernel

/-! ## The buffers the body is called with -/

abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S256x1024 .f32 := Memref.whole cc0_scratch0

/-- The offsets of every access of the body are zero. -/
theorem off00 : (![0, 0] : Fin 2 → ℕ) = fun _ => 0 := by funext a; fin_cases a <;> rfl

/-- The core's scoped buffers beside the staging buffers: the accumulator, and the rest unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant with the accumulator named: the accumulator at some contents, the other scoped buffers
    unopened, the generator register at some state. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## The body's two runs -/

/-- A list of stores whose LAST one fills the whole buffer reads back as that store's value. -/
theorem read_writes_head_whole {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

set_option maxHeartbeats 1000000 in
/-- On the first half: the inputs keep their contents, the output buffer is handed back as found, and the
    accumulator, whatever it held, ends with the stores listed (found by running the body). -/
noncomputable def run0_A (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) :
    { LS0 : List (View.Piece (Elt F) S256x1024 .f32) //
      ∀ (hc0 : cond0_0 i) (hc1 : ¬cond0_1 i) (xi3 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg3 harg3 arg4 harg4 arg5 harg5 arg6 harg6 arg7 harg7) K } := by
  refine ⟨?_, fun hc0 hc1 xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds, %fs, %hfs, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- On the last half: the inputs keep their contents, the accumulator found at `xs` and the output buffer, whatever
    it held, end with the stores listed. -/
noncomputable def run0_B (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) (xs : Vec F S256x1024 .f32) :
    Σ' (L3 : List (View.Piece (Elt F) S256x1024 .f32)), { LS0 : List (View.Piece (Elt F) S256x1024 .f32) //
      ∀ (hc0 : ¬cond0_0 i) (hc1 : cond0_1 i) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg3 harg3 arg4 harg4 arg5 harg5 arg6 harg6 arg7 harg7) K } := by
  refine ⟨?_, ?_, fun hc0 hc1 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

/-! ## What the runs leave, as values -/

/-- The accumulator after a first-half point: zero plus the half's product. -/
def accA0 (x0 : Vec F S256x2048 .bf16) (x1 : Vec F S1024x2048 .bf16) : Vec F S256x1024 .f32 := k0_pay2 (k0_pay1 (F := F)) x0 x1
/-- The accumulator after a last-half point that found it at `xs`. -/
def accB0 (xs : Vec F S256x1024 .f32) (x0 : Vec F S256x2048 .bf16) (x1 : Vec F S1024x2048 .bf16) : Vec F S256x1024 .f32 := k0_pay2 xs x0 x1
/-- The output block such a point stores: the accumulator plus the dg block. -/
def outB0 (xs : Vec F S256x1024 .f32) (x0 : Vec F S256x2048 .bf16) (x1 : Vec F S1024x2048 .bf16) (x2 : Vec F S256x1024 .f32) : Vec F S256x1024 .f32 := k0_pay3 (k0_pay2 xs x0 x1) x2

theorem sreadA0 (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) (f : arg7.view.ty.Contents (Elt F)) :
    arg7.view.read (Elt F) (arg7.view.writes (Elt F) f (run0_A (F := F) c i arg3 harg3 arg4 harg4 arg5 harg5 arg6 harg6 arg7 harg7 x0 x1 x2).1) = accA0 x0 x1 := by
  unfold run0_A; dsimp only; sl_unfold_words
  rw [read_writes_head_whole (S := S256x1024) _ _ off00]
  unfold accA0
  simp only [View.readCov_unit_zero (S := S256x1024) _ off00, View.readAt_eq_ld, harg3.read_unread, harg4.read_unread,
    View.ld_unit_zero (S := S256x2048) off00, View.ld_unit_zero (S := S1024x2048) off00]

theorem sreadB0 (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) (xs : Vec F S256x1024 .f32) (f : arg7.view.ty.Contents (Elt F)) :
    arg7.view.read (Elt F) (arg7.view.writes (Elt F) f (run0_B (F := F) c i arg3 harg3 arg4 harg4 arg5 harg5 arg6 harg6 arg7 harg7 x0 x1 x2 xs).2.1) = accB0 xs x0 x1 := by
  unfold run0_B; dsimp only; sl_unfold_words
  rw [read_writes_head_whole (S := S256x1024) _ _ off00]
  unfold accB0
  simp only [View.readAt_eq_ld, harg3.read_unread, harg4.read_unread, harg7.read_unread,
    View.ld_unit_zero (S := S256x2048) off00, View.ld_unit_zero (S := S1024x2048) off00, View.ld_unit_zero (S := S256x1024) off00]

theorem oreadB0 (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) (xs : Vec F S256x1024 .f32) (f : arg6.view.ty.Contents (Elt F)) :
    arg6.view.read (Elt F) (arg6.view.writes (Elt F) f (run0_B (F := F) c i arg3 harg3 arg4 harg4 arg5 harg5 arg6 harg6 arg7 harg7 x0 x1 x2 xs).1) = outB0 xs x0 x1 x2 := by
  unfold run0_B; dsimp only; sl_unfold_words
  rw [read_writes_head_whole (S := S256x1024) _ _ off00]
  unfold outB0
  simp only [View.readCov_unit_zero (S := S256x1024) _ off00, View.readAt_eq_ld, harg3.read_unread, harg4.read_unread, harg5.read_unread, harg7.read_unread,
    View.ld_unit_zero (S := S256x2048) off00, View.ld_unit_zero (S := S1024x2048) off00, View.ld_unit_zero (S := S256x1024) off00]

end Cert.Kernel.Frame

end
-- ==== Proof.Kernel.R0Dat.lean ====
/-
  Region 0, second half: the proof data of the first tiled product and the obligation its body meets.

  After the body at point t each input's staging buffer holds its block; the output's holds, at a last-half
  point, the accumulator plus the dg block; the accumulator holds the first half's product after an even
  point and both halves' after an odd one.  The invariant carries the accumulator from a point to the next.
-/
import proofs.«174496_j87144886436114_1_alg».proof.Proof.Kernel.R0Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types. -/
abbrev xb0 (c : Dev nD) (t : Fin cfg0.N) : Vec F S256x2048 .bf16 := iblk0 V c 0 t
abbrev yb0 (c : Dev nD) (t : Fin cfg0.N) : Vec F S1024x2048 .bf16 := iblk0 V c 1 t
abbrev db0 (c : Dev nD) (t : Fin cfg0.N) : Vec F S256x1024 .f32 := iblk0 V c 2 t

/-- An input's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator and the output block, point by point -/

/-- The point before `t` (the same block pair on the first half, when `t` is on the last). -/
def prev0 (t : Fin cfg0.N) : Fin cfg0.N := ⟨t.val - 1, Nat.lt_of_le_of_lt (Nat.sub_le _ _) t.isLt⟩

/-- The accumulator after point `t`. -/
def sAt0 (c : Dev nD) (t : Fin cfg0.N) : Vec F S256x1024 .f32 :=
  if t.val % 2 = 0 then accA0 (xb0 V c t) (yb0 V c t)
  else accB0 (accA0 (xb0 V c (prev0 t)) (yb0 V c (prev0 t))) (xb0 V c t) (yb0 V c t)

/-- The output block a last-half point `t` stores. -/
def oAt0 (c : Dev nD) (t : Fin cfg0.N) : Vec F S256x1024 .f32 :=
  outB0 (accA0 (xb0 V c (prev0 t)) (yb0 V c (prev0 t))) (xb0 V c t) (yb0 V c t) (db0 V c t)

theorem sAt0_even (c : Dev nD) (t : Fin cfg0.N) (h : t.val % 2 = 0) : sAt0 V c t = accA0 (xb0 V c t) (yb0 V c t) := by
  unfold sAt0; rw [if_pos h]
theorem sAt0_odd (c : Dev nD) (t : Fin cfg0.N) (h : ¬ t.val % 2 = 0) :
    sAt0 V c t = accB0 (accA0 (xb0 V c (prev0 t)) (yb0 V c (prev0 t))) (xb0 V c t) (yb0 V c t) := by
  unfold sAt0; rw [if_neg h]

/-! ## The invariant -/

/-- Before point `n`: at the region's entry the class invariant; afterwards the accumulator at what point `n - 1`
    left in it, the other scoped buffers unopened, the generator register at some state. -/
def PhiS0 (c : Dev nD) : (n : ℕ) → n ≤ cfg0.N → sProp 𝕄
  | 0, _ => Pipeline.ΦA spec0 c
  | n + 1, hn => iprop((owns (c : Thread nD τ) scM0 fullShare (sAt0 V c ⟨n, hn⟩)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (sAt0 V c ⟨n, hn⟩)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop((owns (c : Thread nD τ) scM0 fullShare (sAt0 V c ⟨n - 1, by omega⟩)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The proof data of the region on core `c`: the arrays as the region finds them; after the body at point `t` each
    input's buffer at its block and the output's at `oAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => oAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = oAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  An even point is on the first half: whatever the accumulator held, it ends at the half's
    product over zero, and the output buffer goes back as found.  An odd point is on the last half: the invariant
    hands over the accumulator at what the even point before left, and takes it back with the second product
    added; the output buffer ends at that plus the dg block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 16 := lt_of_lt_of_eq t.isLt (show cfg0.N = 16 from N_0)
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 3 t (idleAt0_3_A t hc0 hc1) (noFlush0_3_A t hc0 hc1)]
    rw [show sAt0 V c ⟨t.val, t.isLt⟩ = accA0 (xb0 V c t) (yb0 V c t) from sAt0_even V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply ((run0_A c (grid0.coords t) _ _ _ _ _ _ _ _ _ _ (xb0 V c t) (yb0 V c t) (db0 V c t)).2 hc0 hc1 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact sreadA0 c _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply ((run0_A c (grid0.coords t) _ _ _ _ _ _ _ _ _ _ (xb0 V c t) (yb0 V c t) (db0 V c t)).2 hc0 hc1 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact sreadA0 c _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hc1 : cond0_1 (grid0.coords t) := (hcond0_1 t).mpr (by omega)
    have hz : t.val ≠ 0 := fun h => h0 (by rw [h])
    rw [show (dat0 V c).leavesExact 3 t = owns (c : Thread nD τ) (ms0_3 t) fullShare ((dat0 V c).after 3 t) from by
      unfold Dat.leavesExact; rw [liveAt0_3_B t hc0 hc1], after0_3]
    rw [show sAt0 V c ⟨t.val, t.isLt⟩ = accB0 (accA0 (xb0 V c (prev0 t)) (yb0 V c (prev0 t))) (xb0 V c t) (yb0 V c t) from sAt0_odd V c t h0]
    rw [PhiS0_castSucc V c t, PhiS0_pos V c _ _ hz]
    rw [show sAt0 V c ⟨t.val - 1, by omega⟩ = accA0 (xb0 V c (prev0 t)) (yb0 V c (prev0 t)) from
      sAt0_even V c (prev0 t) (by show (t.val - 1) % 2 = 0; omega)]
    unfold oAt0
    iintro ⟨⟨⟨HS, HR⟩, Hg⟩, Ho, ⟨%d0, H0⟩, ⟨%d1, H1⟩, ⟨%d2, H2⟩, ⟨%d3, H3⟩⟩
    iapply ((run0_B c (grid0.coords t) _ _ _ _ _ _ _ _ _ _ (xb0 V c t) (yb0 V c t) (db0 V c t) (accA0 (xb0 V c (prev0 t)) (yb0 V c (prev0 t)))).2.2 hc0 hc1 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact sreadB0 c _ _ _ _ _ _ _ _ _ _ _ _ _ _ _ _
        iexact HR
      iexact Hg
    isplitl [Ho]; · iexact Ho
    isplitl [H0]; · iexact H0
    isplitl [H1]; · iexact H1
    isplitl [H2]; · iexact H2
    unfold owns; iexists _; isplitr
    swap; · iexact H3
    ipureintro; exact oreadB0 c _ _ _ _ _ _ _ _ _ _ _ _ _ _ _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, HR⟩, Hg⟩
  isplitl [HS HR]
  · isplitl [HS]
    · iexists _; iexact HS
    iexact HR
  iexact Hg

end Cert.Kernel.Frame

end
-- ==== Proof.Kernel.R1Runs.lean ====
/-
  Region 1 of the program: the weight update, on the grid (4, 4, 2).

  A point (i, j, k) works on columns 512 i … of the targets, columns 1024 j … of the inputs and half k of the
  1024-long batch axis.  At k = 0 the body zeroes its accumulator and adds the half's product targetsᵀ · inputs;
  the output block is not touched there.  At k = 1 it adds the second half's product and stores
  old + lr · (accumulator · 2⁻¹⁰ − mean ⊗ 1 · old) into the output block, which is then written back.  So the
  accumulator after a point depends only on that point's blocks and, at k = 1, on the blocks of the point
  before it (the same (i, j) at k = 0).

  Stated for any float instance: the body's two runs, and what they leave in the accumulator and in the output
  block, as values.
-/
import proofs.«174496_j87144886436114_1_alg».proof.Proof.Kernel.R0Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which half of the batch axis a point is on -/

/-- The body's first branch: the point is on the first half (k = 0). -/
abbrev cond1_0 (i : grid1.Coords) : Prop := (Scalar.cmpi .ne (Scalar.extui (Scalar.cmpi .eq (BitVec.ofNat 32 (i 2).val) 0#32)) 0#32) = 1#1
/-- The points on the first half are the even ones. -/
theorem hcond1_0 : ∀ t : Fin cfg1.N, cond1_0 (grid1.coords t) ↔ t.val % 2 = 0 :=
  (by decide +kernel : ∀ t : Fin grid1.N, cond1_0 (grid1.coords t) ↔ t.val % 2 = 0)
/-- The body's second branch: the point is on the last half (k = 1). -/
abbrev cond1_1 (i : grid1.Coords) : Prop := k1_cond2 i = 1#1
/-- The points on the last half are the odd ones. -/
theorem hcond1_1 : ∀ t : Fin cfg1.N, cond1_1 (grid1.coords t) ↔ t.val % 2 = 1 :=
  (by decide +kernel : ∀ t : Fin grid1.N, cond1_1 (grid1.coords t) ↔ t.val % 2 = 1)

/-- The four inputs are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- On the first half the output block is neither stored into nor written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- On the last half it is stored whole. -/
theorem liveAt1_4_B : ∀ t : Fin cfg1.N, ¬cond1_0 (grid1.coords t) → cond1_1 (grid1.coords t) → cfg1.idle 4 (grid1.coords t) = false := by decide +kernel

/-! ## The buffers the body is called with -/

abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S512x1024 .f32 := Memref.whole cc1_scratch0

/-- The core's scoped buffers beside the staging buffers: the accumulator, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the accumulator named: the accumulator at some contents, the other scoped buffers
    unopened, the generator register at some state. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's two runs -/

set_option maxHeartbeats 1000000 in
/-- On the first half: the inputs keep their contents, the output buffer is handed back as found, and the
    accumulator, whatever it held, ends with the stores listed (found by running the body). -/
noncomputable def run1_A (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) :
    { LS0 : List (View.Piece (Elt F) S512x1024 .f32) //
      ∀ (hc0 : cond1_0 i) (hc1 : ¬cond1_1 i) (xi4 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨?_, fun hc0 hc1 xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, %hfs, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 1000000 in
/-- On the last half: the inputs keep their contents, the accumulator found at xs and the output buffer, whatever
    it held, end with the stores listed. -/
noncomputable def run1_B (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) (xs : Vec F S512x1024 .f32) :
    Σ' (L4 : List (View.Piece (Elt F) S512x1024 .f32)), { LS0 : List (View.Piece (Elt F) S512x1024 .f32) //
      ∀ (hc0 : ¬cond1_0 i) (hc1 : cond1_1 i) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨?_, ?_, fun hc0 hc1 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS

/-! ## What the runs leave, as values -/

/-- The accumulator after a first-half point: zero plus the half's product. -/
def accA1 (x0 : Vec F S512x512 .bf16) (x1 : Vec F S512x1024 .bf16) : Vec F S512x1024 .f32 := k1_pay2 (k1_pay1 (F := F)) x0 x1
/-- The accumulator after a last-half point that found it at xs. -/
def accB1 (xs : Vec F S512x1024 .f32) (x0 : Vec F S512x512 .bf16) (x1 : Vec F S512x1024 .bf16) : Vec F S512x1024 .f32 := k1_pay2 xs x0 x1
/-- The output block such a point stores: the old weights plus the learning rate times (the accumulator scaled by
    2⁻¹⁰, minus the mean column spread along the rows times the old weights). -/
def outB1 (xs : Vec F S512x1024 .f32) (x0 : Vec F S512x512 .bf16) (x1 : Vec F S512x1024 .bf16) (x2 : Vec F S512x1024 .f32) (x3 : Vec F S512x1 .f32) : Vec F S512x1024 .f32 := k1_pay3 (k1_pay2 xs x0 x1) x3 x2 x2

theorem sreadA1 (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) (f : arg8.view.ty.Contents (Elt F)) :
    arg8.view.read (Elt F) (arg8.view.writes (Elt F) f (run1_A (F := F) c i arg3 harg3 arg4 harg4 arg5 harg5 arg6 harg6 arg7 harg7 arg8 harg8 x0 x1 x2 x3).1) = accA1 x0 x1 := by
  unfold run1_A; dsimp only; sl_unfold_words
  rw [read_writes_head_whole (S := S512x1024) _ _ off00]
  unfold accA1
  simp only [View.readCov_unit_zero (S := S512x1024) _ off00, View.readAt_eq_ld, harg3.read_unread, harg4.read_unread,
    View.ld_unit_zero (S := S512x512) off00, View.ld_unit_zero (S := S512x1024) off00]

theorem sreadB1 (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) (xs : Vec F S512x1024 .f32) (f : arg8.view.ty.Contents (Elt F)) :
    arg8.view.read (Elt F) (arg8.view.writes (Elt F) f (run1_B (F := F) c i arg3 harg3 arg4 harg4 arg5 harg5 arg6 harg6 arg7 harg7 arg8 harg8 x0 x1 x2 x3 xs).2.1) = accB1 xs x0 x1 := by
  unfold run1_B; dsimp only; sl_unfold_words
  rw [read_writes_head_whole (S := S512x1024) _ _ off00]
  unfold accB1
  simp only [View.readAt_eq_ld, harg3.read_unread, harg4.read_unread, harg8.read_unread,
    View.ld_unit_zero (S := S512x512) off00, View.ld_unit_zero (S := S512x1024) off00]

theorem oreadB1 (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) (xs : Vec F S512x1024 .f32) (f : arg7.view.ty.Contents (Elt F)) :
    arg7.view.read (Elt F) (arg7.view.writes (Elt F) f (run1_B (F := F) c i arg3 harg3 arg4 harg4 arg5 harg5 arg6 harg6 arg7 harg7 arg8 harg8 x0 x1 x2 x3 xs).1) = outB1 xs x0 x1 x2 x3 := by
  unfold run1_B; dsimp only; sl_unfold_words
  rw [read_writes_head_whole (S := S512x1024) _ _ off00]
  unfold outB1
  simp only [View.readCov_unit_zero (S := S512x1024) _ off00, View.readAt_eq_ld, harg3.read_unread, harg4.read_unread, harg5.read_unread, harg6.read_unread, harg8.read_unread,
    View.ld_unit_zero (S := S512x512) off00, View.ld_unit_zero (S := S512x1024) off00, View.ld_unit_zero (S := S512x1) off00]

end Cert.Kernel.Frame

end
-- ==== Proof.Kernel.R1Dat.lean ====
/-
  Region 1, second half: the proof data of the weight update and the obligation its body meets.

  After the body at point t each input's staging buffer holds its block; the output's holds, at a last-half
  point, the updated weights block; the accumulator holds the first half's product after an even point and both
  halves' after an odd one.  The invariant carries the accumulator from a point to the next.
-/
import proofs.«174496_j87144886436114_1_alg».proof.Proof.Kernel.R1Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at their literal types: targets, inputs, old weights, mean column. -/
abbrev tb1 (c : Dev nD) (t : Fin cfg1.N) : Vec F S512x512 .bf16 := iblk1 V c 0 t
abbrev eb1 (c : Dev nD) (t : Fin cfg1.N) : Vec F S512x1024 .bf16 := iblk1 V c 1 t
abbrev wb1 (c : Dev nD) (t : Fin cfg1.N) : Vec F S512x1024 .f32 := iblk1 V c 2 t
abbrev mb1 (c : Dev nD) (t : Fin cfg1.N) : Vec F S512x1 .f32 := iblk1 V c 3 t

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output block, point by point -/

/-- The point before t (the same block pair on the first half, when t is on the last). -/
def prev1 (t : Fin cfg1.N) : Fin cfg1.N := ⟨t.val - 1, Nat.lt_of_le_of_lt (Nat.sub_le _ _) t.isLt⟩

/-- The accumulator after point t. -/
def sAt1 (c : Dev nD) (t : Fin cfg1.N) : Vec F S512x1024 .f32 :=
  if t.val % 2 = 0 then accA1 (tb1 V c t) (eb1 V c t)
  else accB1 (accA1 (tb1 V c (prev1 t)) (eb1 V c (prev1 t))) (tb1 V c t) (eb1 V c t)

/-- The output block a last-half point t stores. -/
def oAt1 (c : Dev nD) (t : Fin cfg1.N) : Vec F S512x1024 .f32 :=
  outB1 (accA1 (tb1 V c (prev1 t)) (eb1 V c (prev1 t))) (tb1 V c t) (eb1 V c t) (wb1 V c t) (mb1 V c t)

theorem sAt1_even (c : Dev nD) (t : Fin cfg1.N) (h : t.val % 2 = 0) : sAt1 V c t = accA1 (tb1 V c t) (eb1 V c t) := by
  unfold sAt1; rw [if_pos h]
theorem sAt1_odd (c : Dev nD) (t : Fin cfg1.N) (h : ¬ t.val % 2 = 0) :
    sAt1 V c t = accB1 (accA1 (tb1 V c (prev1 t)) (eb1 V c (prev1 t))) (tb1 V c t) (eb1 V c t) := by
  unfold sAt1; rw [if_neg h]

/-! ## The invariant -/

/-- Before point n: at the region's entry the class invariant; afterwards the accumulator at what point n - 1
    left in it, the other scoped buffers unopened, the generator register at some state. -/
def PhiS1 (c : Dev nD) : (n : ℕ) → n ≤ cfg1.N → sProp 𝕄
  | 0, _ => Pipeline.ΦA spec1 c
  | n + 1, hn => iprop((owns (c : Thread nD τ) scM1 fullShare (sAt1 V c ⟨n, hn⟩)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (sAt1 V c ⟨n, hn⟩)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop((owns (c : Thread nD τ) scM1 fullShare (sAt1 V c ⟨n - 1, by omega⟩)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of the region on core c: the arrays as the region finds them; after the body at point t each
    input's buffer at its block and the output's at oAt1; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = oAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  An even point is on the first half: whatever the accumulator held, it ends at the half's
    product over zero, and the output buffer goes back as found.  An odd point is on the last half: the invariant
    hands over the accumulator at what the even point before left, and takes it back with the second product
    added; the output buffer ends at the updated weights block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 32 := lt_of_lt_of_eq t.isLt (show cfg1.N = 32 from N_1)
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4_A t hc0 hc1) (noFlush1_4_A t hc0 hc1)]
    rw [show sAt1 V c ⟨t.val, t.isLt⟩ = accA1 (tb1 V c t) (eb1 V c t) from sAt1_even V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply ((run1_A c (grid1.coords t) _ _ _ _ _ _ _ _ _ _ _ _ (tb1 V c t) (eb1 V c t) (wb1 V c t) (mb1 V c t)).2 hc0 hc1 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact sreadA1 c _ _ _ _ _ _ _ _ _ _ _ _ _ _ _ _ _ _
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((run1_A c (grid1.coords t) _ _ _ _ _ _ _ _ _ _ _ _ (tb1 V c t) (eb1 V c t) (wb1 V c t) (mb1 V c t)).2 hc0 hc1 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact sreadA1 c _ _ _ _ _ _ _ _ _ _ _ _ _ _ _ _ _ _
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hc1 : cond1_1 (grid1.coords t) := (hcond1_1 t).mpr (by omega)
    have hz : t.val ≠ 0 := fun h => h0 (by rw [h])
    rw [show (dat1 V c).leavesExact 4 t = owns (c : Thread nD τ) (ms1_4 t) fullShare ((dat1 V c).after 4 t) from by
      unfold Dat.leavesExact; rw [liveAt1_4_B t hc0 hc1], after1_4]
    rw [show sAt1 V c ⟨t.val, t.isLt⟩ = accB1 (accA1 (tb1 V c (prev1 t)) (eb1 V c (prev1 t))) (tb1 V c t) (eb1 V c t) from sAt1_odd V c t h0]
    rw [PhiS1_castSucc V c t, PhiS1_pos V c _ _ hz]
    rw [show sAt1 V c ⟨t.val - 1, by omega⟩ = accA1 (tb1 V c (prev1 t)) (eb1 V c (prev1 t)) from
      sAt1_even V c (prev1 t) (by show (t.val - 1) % 2 = 0; omega)]
    unfold oAt1
    iintro ⟨⟨⟨HS, HR⟩, Hg⟩, Ho, ⟨%d0, H0⟩, ⟨%d1, H1⟩, ⟨%d2, H2⟩, ⟨%d3, H3⟩, ⟨%d4, H4⟩⟩
    iapply ((run1_B c (grid1.coords t) _ _ _ _ _ _ _ _ _ _ _ _ (tb1 V c t) (eb1 V c t) (wb1 V c t) (mb1 V c t) (accA1 (tb1 V c (prev1 t)) (eb1 V c (prev1 t)))).2.2 hc0 hc1 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact sreadB1 c _ _ _ _ _ _ _ _ _ _ _ _ _ _ _ _ _ _ _
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact oreadB1 c _ _ _ _ _ _ _ _ _ _ _ _ _ _ _ _ _ _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]
    · iexists _; iexact HS
    iexact HR
  iexact Hg

end Cert.Kernel.Frame

end
-- ==== Proof.Kernel.R2Runs.lean ====
/-
  Region 2 of the program: the last tiled product, post = ec · Wnewᵀ, on the grid (4, 2, 2).

  A point (i, j, k) works on rows 256 i … of ec, rows 1024 j … of the updated weight and half k of the
  4096-long contraction.  At k = 0 the body zeroes its accumulator and adds the first half's product; the
  output block is not touched there.  At k = 1 it adds the second half's product and stores the accumulator
  itself into the output block, which is then written back.  So the accumulator after a point depends only on
  that point's blocks and, at k = 1, on the blocks of the point before it (the same (i, j) at k = 0).

  Stated for any float instance: the body's two runs and what they leave in the accumulator and in the
  output block, as values of the blocks.
-/
import proofs.«174496_j87144886436114_1_alg».proof.Proof.Kernel.R0Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which half of the contraction a point is on -/

/-- The body's first branch: the point is on the first half (k = 0). -/
abbrev cond2_0 (i : grid2.Coords) : Prop := (Scalar.cmpi .ne (Scalar.extui (Scalar.cmpi .eq (BitVec.ofNat 32 (i 2).val) 0#32)) 0#32) = 1#1
/-- The points on the first half are the even ones. -/
theorem hcond2_0 : ∀ t : Fin cfg2.N, cond2_0 (grid2.coords t) ↔ t.val % 2 = 0 :=
  (by decide +kernel : ∀ t : Fin grid2.N, cond2_0 (grid2.coords t) ↔ t.val % 2 = 0)
/-- The body's second branch: the point is on the last half (k = 1). -/
abbrev cond2_1 (i : grid2.Coords) : Prop := k2_cond2 i = 1#1
/-- The points on the last half are the odd ones. -/
theorem hcond2_1 : ∀ t : Fin cfg2.N, cond2_1 (grid2.coords t) ↔ t.val % 2 = 1 :=
  (by decide +kernel : ∀ t : Fin grid2.N, cond2_1 (grid2.coords t) ↔ t.val % 2 = 1)

/-- The two inputs are live at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- On the first half the output block is neither stored into nor written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- On the last half it is stored whole. -/
theorem liveAt2_2_B : ∀ t : Fin cfg2.N, ¬cond2_0 (grid2.coords t) → cond2_1 (grid2.coords t) → cfg2.idle 2 (grid2.coords t) = false := by decide +kernel

/-! ## The buffers the body is called with -/

abbrev ms2_0 (t : Fin cfg2.N) : Memref sig .tc .vmem S256x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S256x1024 .f32 := Memref.whole cc2_scratch0

/-- The core's scoped buffers beside the staging buffers: the accumulator, and the rest unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant with the accumulator named: the accumulator at some contents, the other scoped buffers
    unopened, the generator register at some state. -/
theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's two runs -/

set_option maxHeartbeats 1000000 in
/-- On the first half: the inputs keep their contents, the output buffer is handed back as found, and the
    accumulator, whatever it held, ends with the stores listed (found by running the body). -/
noncomputable def run2_A (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) :
    { LS2 : List (View.Piece (Elt F) S256x1024 .f32) //
      ∀ (hc0 : cond2_0 i) (hc1 : ¬cond2_1 i) (xi2 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS2)) -∗ K ⟨⟩))
          ⊢ wp frame (wpE (defs₀ (F := F)) Variants.none c none) E (cc2_kernel i arg3 harg3 arg4 harg4 arg5 harg5 arg6 harg6) K } := by
  refine ⟨?_, fun hc0 hc1 xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds, %fs, %hfs, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- On the last half: the inputs keep their contents, the accumulator found at `xs` and the output buffer, whatever
    it held, end with the stores listed. -/
noncomputable def run2_B (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) (xs : Vec F S256x1024 .f32) :
    Σ' (L2 : List (View.Piece (Elt F) S256x1024 .f32)), { LS2 : List (View.Piece (Elt F) S256x1024 .f32) //
      ∀ (hc0 : ¬cond2_0 i) (hc1 : cond2_1 i) (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS2)) -∗ K ⟨⟩))
          ⊢ wp frame (wpE (defs₀ (F := F)) Variants.none c none) E (cc2_kernel i arg3 harg3 arg4 harg4 arg5 harg5 arg6 harg6) K } := by
  refine ⟨?_, ?_, fun hc0 hc1 E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

/-! ## What the runs leave, as values -/

/-- The accumulator after a first-half point: zero plus the half's product. -/
def accA2 (x0 : Vec F S256x2048 .bf16) (x1 : Vec F S1024x2048 .bf16) : Vec F S256x1024 .f32 := k2_pay2 (k2_pay1 (F := F)) x0 x1
/-- The accumulator after a last-half point that found it at `xs`. -/
def accB2 (xs : Vec F S256x1024 .f32) (x0 : Vec F S256x2048 .bf16) (x1 : Vec F S1024x2048 .bf16) : Vec F S256x1024 .f32 := k2_pay2 xs x0 x1
/-- The output block such a point stores: the accumulator itself. -/
def outB2 (xs : Vec F S256x1024 .f32) (x0 : Vec F S256x2048 .bf16) (x1 : Vec F S1024x2048 .bf16) : Vec F S256x1024 .f32 := k2_pay2 xs x0 x1

theorem sreadA2 (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) (f : arg6.view.ty.Contents (Elt F)) :
    arg6.view.read (Elt F) (arg6.view.writes (Elt F) f (run2_A (F := F) c i arg3 harg3 arg4 harg4 arg5 harg5 arg6 harg6 x0 x1).1) = accA2 x0 x1 := by
  unfold run2_A; dsimp only; sl_unfold_words
  rw [read_writes_head_whole (S := S256x1024) _ _ off00]
  unfold accA2
  simp only [View.readCov_unit_zero (S := S256x1024) _ off00, View.readAt_eq_ld, harg3.read_unread, harg4.read_unread,
    View.ld_unit_zero (S := S256x2048) off00, View.ld_unit_zero (S := S1024x2048) off00]

theorem sreadB2 (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) (xs : Vec F S256x1024 .f32) (f : arg6.view.ty.Contents (Elt F)) :
    arg6.view.read (Elt F) (arg6.view.writes (Elt F) f (run2_B (F := F) c i arg3 harg3 arg4 harg4 arg5 harg5 arg6 harg6 x0 x1 xs).2.1) = accB2 xs x0 x1 := by
  unfold run2_B; dsimp only; sl_unfold_words
  rw [read_writes_head_whole (S := S256x1024) _ _ off00]
  unfold accB2
  simp only [View.readAt_eq_ld, harg3.read_unread, harg4.read_unread, harg6.read_unread,
    View.ld_unit_zero (S := S256x2048) off00, View.ld_unit_zero (S := S1024x2048) off00, View.ld_unit_zero (S := S256x1024) off00]

theorem oreadB2 (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) (xs : Vec F S256x1024 .f32) (f : arg5.view.ty.Contents (Elt F)) :
    arg5.view.read (Elt F) (arg5.view.writes (Elt F) f (run2_B (F := F) c i arg3 harg3 arg4 harg4 arg5 harg5 arg6 harg6 x0 x1 xs).1) = outB2 xs x0 x1 := by
  unfold run2_B; dsimp only; sl_unfold_words
  rw [read_writes_head_whole (S := S256x1024) _ _ off00]
  unfold outB2
  simp only [View.readCov_unit_zero (S := S256x1024) _ off00, View.readAt_eq_ld, harg3.read_unread, harg4.read_unread, harg6.read_unread,
    View.ld_unit_zero (S := S256x2048) off00, View.ld_unit_zero (S := S1024x2048) off00, View.ld_unit_zero (S := S256x1024) off00]

end Cert.Kernel.Frame

end
-- ==== Proof.Kernel.R2Dat.lean ====
/-
  Region 2, second half: the proof data of the last tiled product and the obligation its body meets.

  After the body at point t each input's staging buffer holds its block; the output's holds, at a last-half
  point, the accumulator itself; the accumulator holds the first half's product after an even point and both
  halves' after an odd one.  The invariant carries the accumulator from a point to the next.
-/
import proofs.«174496_j87144886436114_1_alg».proof.Proof.Kernel.R2Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two input blocks at their literal types. -/
abbrev xb2 (c : Dev nD) (t : Fin cfg2.N) : Vec F S256x2048 .bf16 := iblk2 V c 0 t
abbrev yb2 (c : Dev nD) (t : Fin cfg2.N) : Vec F S1024x2048 .bf16 := iblk2 V c 1 t

/-- An input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator and the output block, point by point -/

/-- The point before `t` (the same block pair on the first half, when `t` is on the last). -/
def prev2 (t : Fin cfg2.N) : Fin cfg2.N := ⟨t.val - 1, Nat.lt_of_le_of_lt (Nat.sub_le _ _) t.isLt⟩

/-- The accumulator after point `t`. -/
def sAt2 (c : Dev nD) (t : Fin cfg2.N) : Vec F S256x1024 .f32 :=
  if t.val % 2 = 0 then accA2 (xb2 V c t) (yb2 V c t)
  else accB2 (accA2 (xb2 V c (prev2 t)) (yb2 V c (prev2 t))) (xb2 V c t) (yb2 V c t)

/-- The output block a last-half point `t` stores. -/
def oAt2 (c : Dev nD) (t : Fin cfg2.N) : Vec F S256x1024 .f32 :=
  outB2 (accA2 (xb2 V c (prev2 t)) (yb2 V c (prev2 t))) (xb2 V c t) (yb2 V c t)

theorem sAt2_even (c : Dev nD) (t : Fin cfg2.N) (h : t.val % 2 = 0) : sAt2 V c t = accA2 (xb2 V c t) (yb2 V c t) := by
  unfold sAt2; rw [if_pos h]
theorem sAt2_odd (c : Dev nD) (t : Fin cfg2.N) (h : ¬ t.val % 2 = 0) :
    sAt2 V c t = accB2 (accA2 (xb2 V c (prev2 t)) (yb2 V c (prev2 t))) (xb2 V c t) (yb2 V c t) := by
  unfold sAt2; rw [if_neg h]

/-! ## The invariant -/

/-- Before point `n`: at the region's entry the class invariant; afterwards the accumulator at what point `n - 1`
    left in it, the other scoped buffers unopened, the generator register at some state. -/
def PhiS2 (c : Dev nD) : (n : ℕ) → n ≤ cfg2.N → sProp 𝕄
  | 0, _ => Pipeline.ΦA spec2 c
  | n + 1, hn => iprop((owns (c : Thread nD τ) scM2 fullShare (sAt2 V c ⟨n, hn⟩)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare (sAt2 V c ⟨n, hn⟩)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop((owns (c : Thread nD τ) scM2 fullShare (sAt2 V c ⟨n - 1, by omega⟩)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of the region on core `c`: the arrays as the region finds them; after the body at point `t` each
    input's buffer at its block and the output's at `oAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => oAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = oAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point.  An even point is on the first half: whatever the accumulator held, it ends at the half's
    product over zero, and the output buffer goes back as found.  An odd point is on the last half: the invariant
    hands over the accumulator at what the even point before left, and takes it back with the second product
    added; the output buffer ends at that same sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 16 := lt_of_lt_of_eq t.isLt (show cfg2.N = 16 from N_2)
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2_A t hc0 hc1) (noFlush2_2_A t hc0 hc1)]
    rw [show sAt2 V c ⟨t.val, t.isLt⟩ = accA2 (xb2 V c t) (yb2 V c t) from sAt2_even V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩⟩
      iapply ((run2_A c (grid2.coords t) _ _ _ _ _ _ _ _ (xb2 V c t) (yb2 V c t)).2 hc0 hc1 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact sreadA2 c _ _ _ _ _ _ _ _ _ _ _ _
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, HR⟩, Hg⟩, Ho, ⟨%d0, H0⟩, ⟨%d1, H1⟩, ⟨%d2, H2⟩⟩
      iapply ((run2_A c (grid2.coords t) _ _ _ _ _ _ _ _ (xb2 V c t) (yb2 V c t)).2 hc0 hc1 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact sreadA2 c _ _ _ _ _ _ _ _ _ _ _ _
          iexact HR
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hc1 : cond2_1 (grid2.coords t) := (hcond2_1 t).mpr (by omega)
    have hz : t.val ≠ 0 := fun h => h0 (by rw [h])
    rw [show (dat2 V c).leavesExact 2 t = owns (c : Thread nD τ) (ms2_2 t) fullShare ((dat2 V c).after 2 t) from by
      unfold Dat.leavesExact; rw [liveAt2_2_B t hc0 hc1], after2_2]
    rw [show sAt2 V c ⟨t.val, t.isLt⟩ = accB2 (accA2 (xb2 V c (prev2 t)) (yb2 V c (prev2 t))) (xb2 V c t) (yb2 V c t) from sAt2_odd V c t h0]
    rw [PhiS2_castSucc V c t, PhiS2_pos V c _ _ hz]
    rw [show sAt2 V c ⟨t.val - 1, by omega⟩ = accA2 (xb2 V c (prev2 t)) (yb2 V c (prev2 t)) from
      sAt2_even V c (prev2 t) (by show (t.val - 1) % 2 = 0; omega)]
    unfold oAt2
    iintro ⟨⟨⟨HS, HR⟩, Hg⟩, Ho, ⟨%d0, H0⟩, ⟨%d1, H1⟩, ⟨%d2, H2⟩⟩
    iapply ((run2_B c (grid2.coords t) _ _ _ _ _ _ _ _ (xb2 V c t) (yb2 V c t) (accA2 (xb2 V c (prev2 t)) (yb2 V c (prev2 t)))).2.2 hc0 hc1 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact sreadB2 c _ _ _ _ _ _ _ _ _ _ _ _ _
        iexact HR
      iexact Hg
    isplitl [Ho]; · iexact Ho
    isplitl [H0]; · iexact H0
    isplitl [H1]; · iexact H1
    unfold owns; iexists _; isplitr
    swap; · iexact H2
    ipureintro; exact oreadB2 c _ _ _ _ _ _ _ _ _ _ _ _ _

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS, HR⟩, Hg⟩
  isplitl [HS HR]
  · isplitl [HS]
    · iexists _; iexact HS
    iexact HR
  iexact Hg

end Cert.Kernel.Frame

end
-- ==== Proof.Kernel.Run.lean ====
/-
  The run of the whole program: the host stretches and the three tiled products in order, from the launch to the
  return, with every unscoped buffer's final contents named.

  Between two items the core holds every unscoped buffer at a known valuation: the launch memory, then each host
  stretch's operations applied, then each region's arrays replaced by what its write-backs leave.  The last
  valuation is read against the final memory, so both the argument arrays (which nothing writes) and the result
  buffers can be read off it.
-/
import proofs.«174496_j87144886436114_1_alg».proof.Proof.Kernel.R0Dat
import proofs.«174496_j87144886436114_1_alg».proof.Proof.Kernel.R1Dat
import proofs.«174496_j87144886436114_1_alg».proof.Proof.Kernel.R2Dat
import proofs.«174496_j87144886436114_1_alg».proof.Proof.Gen.Kernel.Regions
import Idealize.ShloMosaic.Lib.Pipeline.RegionsLoop
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the two conversions before the first product. -/
abbrev W1 : Dev nD → Valuation τ sig (Elt F) := fun c => StableHlo.after hostOps0 (W0 m c)
/-- The same read at the TensorCore's references: what region 0 is entered with. -/
abbrev En1 : (c : Dev nD) → (b : Ref sig .tc) → Buf (Elt F) ((c : Thread nD τ).loc b) := fun c b => W1 m c b

/-- At region 0's exit: its arrays at what the pipeline leaves (the inputs as entered, the output's write-backs folded
    in), every other buffer as entered. -/
def W2 (c : Dev nD) : Valuation τ sig (Elt F) :=
  Pipeline.withArrays spec0 c (W1 m c) fun w => (dat0 (En1 m) c).arrAt w cfg0.N
theorem W2_arr (c : Dev nD) (w : Fin cfg0.W) :
    W2 m c (Proc.devRef .tc (Pipeline.arrRef spec0 w)) = (dat0 (En1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (En1 m) c).arrAt w cfg0.N = W2 m c (Pipeline.arrRef spec0 w) :=
  (W2_arr m c w).symm
theorem hrest0 (c : Dev nD) : ∀ b, b ∉ Finset.univ.image (Pipeline.arrRef spec0) → W2 m c b = En1 m c b :=
  fun b hb => W2_of_ne m c b fun w e => hb (Finset.mem_image.mpr ⟨w, Finset.mem_univ _, e⟩)

/-- After the column mean and the conversion before the second product. -/
abbrev W3 : Dev nD → Valuation τ sig (Elt F) := fun c => StableHlo.after hostOps1 (W2 m c)
abbrev En3 : (c : Dev nD) → (b : Ref sig .tc) → Buf (Elt F) ((c : Thread nD τ).loc b) := fun c b => W3 m c b

/-- At region 1's exit: its arrays at what the pipeline leaves (the inputs as entered, the output's write-backs folded
    in), every other buffer as entered. -/
def W4 (c : Dev nD) : Valuation τ sig (Elt F) :=
  Pipeline.withArrays spec1 c (W3 m c) fun w => (dat1 (En3 m) c).arrAt w cfg1.N
theorem W4_arr (c : Dev nD) (w : Fin cfg1.W) :
    W4 m c (Proc.devRef .tc (Pipeline.arrRef spec1 w)) = (dat1 (En3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (En3 m) c).arrAt w cfg1.N = W4 m c (Pipeline.arrRef spec1 w) :=
  (W4_arr m c w).symm
theorem hrest1 (c : Dev nD) : ∀ b, b ∉ Finset.univ.image (Pipeline.arrRef spec1) → W4 m c b = En3 m c b :=
  fun b hb => W4_of_ne m c b fun w e => hb (Finset.mem_image.mpr ⟨w, Finset.mem_univ _, e⟩)

/-- After the conversion before the third product. -/
abbrev W5 : Dev nD → Valuation τ sig (Elt F) := fun c => StableHlo.after hostOps2 (W4 m c)
abbrev En5 : (c : Dev nD) → (b : Ref sig .tc) → Buf (Elt F) ((c : Thread nD τ).loc b) := fun c b => W5 m c b

/-- At region 2's exit: its arrays at what the pipeline leaves (the inputs as entered, the output's write-backs folded
    in), every other buffer as entered. -/
def W6 (c : Dev nD) : Valuation τ sig (Elt F) :=
  Pipeline.withArrays spec2 c (W5 m c) fun w => (dat2 (En5 m) c).arrAt w cfg2.N
theorem W6_arr (c : Dev nD) (w : Fin cfg2.W) :
    W6 m c (Proc.devRef .tc (Pipeline.arrRef spec2 w)) = (dat2 (En5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (En5 m) c).arrAt w cfg2.N = W6 m c (Pipeline.arrRef spec2 w) :=
  (W6_arr m c w).symm
theorem hrest2 (c : Dev nD) : ∀ b, b ∉ Finset.univ.image (Pipeline.arrRef spec2) → W6 m c b = En5 m c b :=
  fun b hb => W6_of_ne m c b fun w e => hb (Finset.mem_image.mpr ⟨w, Finset.mem_univ _, e⟩)

/-- After the loss: the last valuation. -/
abbrev W7 : Dev nD → Valuation τ sig (Elt F) := fun c => StableHlo.after hostOps3 (W6 m c)

/-! ## The proof data family and the thread state -/

/-- Every region's proof data, each at its entry contents: a literal match on the region. -/
def pdats : (p : Fin 3) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En3 m) c
  | ⟨2, _⟩ => fun c => dat2 (En5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`.  Its arrays are
    split out of the unscoped buffers and put back at their final contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (En1 m) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (En1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are
    split out of the unscoped buffers and put back at their final contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (En3 m) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (En3 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`.  Its arrays are
    split out of the unscoped buffers and put back at their final contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h1.trans (hin2 (En5 m) c)
  hout c := by
    rw [Pipeline.ownSems0_none]
    have h2 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (En5 m) c).trans h2
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Frame

end
-- ==== Proof.Kernel.FrameThm.lean ====
/-
  The frame, and the result buffers read off the last valuation.

  Nothing writes an argument array: no host operation names one as its result, and a region only reads it
  through an input window (dg in the first product, W in the second) or not at all, so the last valuation at
  an argument walks back to the launch memory.  The first result is the first product's output array; the
  loss is the host tail applied to that array, dg and the third product's output array.
-/
import proofs.«174496_j87144886436114_1_alg».proof.Proof.Kernel.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## A host stretch changes only the buffers its operations write -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-! ## The arguments end as launched -/

/-- ec is no window's array in any region's write set and no host result. -/
theorem W7_main_arg0 (c : Dev nD) : W7 m c main_arg0 = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| (W3_of m c main_arg0 (by decide)).trans <| (W2_of_ne m c main_arg0 (by decide)).trans <|
    (W1_of m c main_arg0 (by decide)).trans rfl

/-- dg is an INPUT window's array of the first product: its array is never written. -/
theorem W7_main_arg1 (c : Dev nD) : W7 m c main_arg1 = m ((c : Thread nD τ).loc main_arg1) :=
  (W7_of m c main_arg1 (by decide)).trans <| (W6_of_ne m c main_arg1 (by decide)).trans <| (W5_of m c main_arg1 (by decide)).trans <|
    (W4_of_ne m c main_arg1 (by decide)).trans <| (W3_of m c main_arg1 (by decide)).trans <|
    (W2_arr m c 2).trans <| ((dat0 (En1 m) c).arrAt_in 2 rfl _).trans <| (A_eq0 (En1 m) c 2).trans <|
    (W1_of m c main_arg1 (by decide)).trans rfl

/-- W is an INPUT window's array of the second product. -/
theorem W7_main_arg2 (c : Dev nD) : W7 m c main_arg2 = m ((c : Thread nD τ).loc main_arg2) :=
  (W7_of m c main_arg2 (by decide)).trans <| (W6_of_ne m c main_arg2 (by decide)).trans <| (W5_of m c main_arg2 (by decide)).trans <|
    (W4_arr m c 2).trans <| ((dat1 (En3 m) c).arrAt_in 2 rfl _).trans <| (A_eq1 (En3 m) c 2).trans <|
    (W3_of m c main_arg2 (by decide)).trans <| (W2_of_ne m c main_arg2 (by decide)).trans <|
    (W1_of m c main_arg2 (by decide)).trans rfl

/-- THE FRAME at any float instance: every weakly fair execution terminates, nothing faulting, and the three
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_main m ρ)

/-! ## The three regions' output arrays, and what each region is entered with -/

/-- The first product's output array after the run of region 0. -/
abbrev outP (c : Dev nD) := (dat0 (En1 m) c).arrAt 3 cfg0.N
/-- The second region's output array: the updated weights. -/
abbrev outW (c : Dev nD) := (dat1 (En3 m) c).arrAt 4 cfg1.N
/-- The third region's output array. -/
abbrev outQ (c : Dev nD) := (dat2 (En5 m) c).arrAt 2 cfg2.N

theorem W2_main_v2 (c : Dev nD) : W2 m c main_v2 = outP m c := W2_arr m c 3
theorem W4_main_v8 (c : Dev nD) : W4 m c main_v8 = outW m c := W4_arr m c 4
theorem W6_main_v10 (c : Dev nD) : W6 m c main_v10 = outQ m c := W6_arr m c 2

/-- The first product's array is still there at the end of the third region. -/
theorem W6_main_v2 (c : Dev nD) : W6 m c main_v2 = outP m c :=
  (W6_of_ne m c main_v2 (by decide)).trans <| (W5_of m c main_v2 (by decide)).trans <| (W4_of_ne m c main_v2 (by decide)).trans <|
    (W3_of m c main_v2 (by decide)).trans (W2_main_v2 m c)
theorem W6_main_arg1 (c : Dev nD) : W6 m c main_arg1 = m ((c : Thread nD τ).loc main_arg1) :=
  (W6_of_ne m c main_arg1 (by decide)).trans <| (W5_of m c main_arg1 (by decide)).trans <|
    (W4_of_ne m c main_arg1 (by decide)).trans <| (W3_of m c main_arg1 (by decide)).trans <|
    (W2_arr m c 2).trans <| ((dat0 (En1 m) c).arrAt_in 2 rfl _).trans <| (A_eq0 (En1 m) c 2).trans <|
    (W1_of m c main_arg1 (by decide)).trans rfl

/-- The first result is the first product's output array. -/
theorem W7_main_v2 (c : Dev nD) : W7 m c main_v2 = outP m c :=
  (W7_of m c main_v2 (by decide)).trans (W6_main_v2 m c)

end Cert.Kernel.Frame

end
-- ==== Proof.KernelIdeal.R0Runs.lean ====
/-
  Region 0 of the program: the first tiled product, pre = ec · Wᵀ + dg, on the grid (4, 2, 2).

  A point (i, j, k) works on rows 256 i … of ec, rows 1024 j … of W and half k of the 4096-long contraction.
  At k = 0 the body zeroes its accumulator and adds the first half's product; the output block is not touched
  there.  At k = 1 it adds the second half's product and stores accumulator + dg block into the output block,
  which is then written back.  So the accumulator after a point depends only on that point's blocks and, at
  k = 1, on the blocks of the point before it (the same (i, j) at k = 0).

  Stated for any float instance: what each staging buffer and the accumulator hold after every point, the
  invariant that carries the accumulator between points, and the obligation that the body meets it.
-/
import proofs.«174496_j87144886436114_1_alg».proof.Proof.Gen.KernelIdeal.Launch
import proofs.«174496_j87144886436114_1_alg».proof.Proof.Gen.KernelIdeal.Skeleton
import proofs.«174496_j87144886436114_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which half of the contraction a point is on -/

/-- The body's first branch: the point is on the first half (k = 0). -/
abbrev cond0_0 (i : grid0.Coords) : Prop := (Scalar.cmpi .ne (Scalar.extui (Scalar.cmpi .eq (BitVec.ofNat 32 (i 2).val) 0#32)) 0#32) = 1#1
/-- The points on the first half are the even ones. -/
theorem hcond0_0 : ∀ t : Fin cfg0.N, cond0_0 (grid0.coords t) ↔ t.val % 2 = 0 :=
  (by decide +kernel : ∀ t : Fin grid0.N, cond0_0 (grid0.coords t) ↔ t.val % 2 = 0)
/-- The body's second branch: the point is on the last half (k = 1). -/
abbrev cond0_1 (i : grid0.Coords) : Prop := k0_cond2 i = 1#1
/-- The points on the last half are the odd ones. -/
theorem hcond0_1 : ∀ t : Fin cfg0.N, cond0_1 (grid0.coords t) ↔ t.val % 2 = 1 :=
  (by decide +kernel : ∀ t : Fin grid0.N, cond0_1 (grid0.coords t) ↔ t.val % 2 = 1)

/-- The three inputs are live at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- On the first half the output block is neither stored into nor written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- On the last half it is stored whole. -/
theorem liveAt0_3_B : ∀ t : Fin cfg0.N, ¬cond0_0 (grid0.coords t) → cond0_1 (grid0.coords t) → cfg0.idle 3 (grid0.coords t) = false := by decide +kernel

/-! ## The buffers the body is called with -/

abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S256x1024 .f32 := Memref.whole cc0_scratch0

/-- The offsets of every access of the body are zero. -/
theorem off00 : (![0, 0] : Fin 2 → ℕ) = fun _ => 0 := by funext a; fin_cases a <;> rfl

/-- The core's scoped buffers beside the staging buffers: the accumulator, and the rest unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant with the accumulator named: the accumulator at some contents, the other scoped buffers
    unopened, the generator register at some state. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## The body's two runs -/

/-- A list of stores whose LAST one fills the whole buffer reads back as that store's value. -/
theorem read_writes_head_whole {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

set_option maxHeartbeats 1000000 in
/-- On the first half: the inputs keep their contents, the output buffer is handed back as found, and the
    accumulator, whatever it held, ends with the stores listed (found by running the body). -/
noncomputable def run0_A (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) :
    { LS0 : List (View.Piece (Elt F) S256x1024 .f32) //
      ∀ (hc0 : cond0_0 i) (hc1 : ¬cond0_1 i) (xi3 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg3 harg3 arg4 harg4 arg5 harg5 arg6 harg6 arg7 harg7) K } := by
  refine ⟨?_, fun hc0 hc1 xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds, %fs, %hfs, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- On the last half: the inputs keep their contents, the accumulator found at `xs` and the output buffer, whatever
    it held, end with the stores listed. -/
noncomputable def run0_B (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) (xs : Vec F S256x1024 .f32) :
    Σ' (L3 : List (View.Piece (Elt F) S256x1024 .f32)), { LS0 : List (View.Piece (Elt F) S256x1024 .f32) //
      ∀ (hc0 : ¬cond0_0 i) (hc1 : cond0_1 i) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg3 harg3 arg4 harg4 arg5 harg5 arg6 harg6 arg7 harg7) K } := by
  refine ⟨?_, ?_, fun hc0 hc1 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS

/-! ## What the runs leave, as values -/

/-- The accumulator after a first-half point: zero plus the half's product. -/
def accA0 (x0 : Vec F S256x2048 .bf16) (x1 : Vec F S1024x2048 .bf16) : Vec F S256x1024 .f32 := k0_pay2 (k0_pay1 (F := F)) x0 x1
/-- The accumulator after a last-half point that found it at `xs`. -/
def accB0 (xs : Vec F S256x1024 .f32) (x0 : Vec F S256x2048 .bf16) (x1 : Vec F S1024x2048 .bf16) : Vec F S256x1024 .f32 := k0_pay2 xs x0 x1
/-- The output block such a point stores: the accumulator plus the dg block. -/
def outB0 (xs : Vec F S256x1024 .f32) (x0 : Vec F S256x2048 .bf16) (x1 : Vec F S1024x2048 .bf16) (x2 : Vec F S256x1024 .f32) : Vec F S256x1024 .f32 := k0_pay3 (k0_pay2 xs x0 x1) x2

theorem sreadA0 (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) (f : arg7.view.ty.Contents (Elt F)) :
    arg7.view.read (Elt F) (arg7.view.writes (Elt F) f (run0_A (F := F) c i arg3 harg3 arg4 harg4 arg5 harg5 arg6 harg6 arg7 harg7 x0 x1 x2).1) = accA0 x0 x1 := by
  unfold run0_A; dsimp only; sl_unfold_words
  rw [read_writes_head_whole (S := S256x1024) _ _ off00]
  unfold accA0
  simp only [View.readCov_unit_zero (S := S256x1024) _ off00, View.readAt_eq_ld, harg3.read_unread, harg4.read_unread,
    View.ld_unit_zero (S := S256x2048) off00, View.ld_unit_zero (S := S1024x2048) off00]

theorem sreadB0 (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) (xs : Vec F S256x1024 .f32) (f : arg7.view.ty.Contents (Elt F)) :
    arg7.view.read (Elt F) (arg7.view.writes (Elt F) f (run0_B (F := F) c i arg3 harg3 arg4 harg4 arg5 harg5 arg6 harg6 arg7 harg7 x0 x1 x2 xs).2.1) = accB0 xs x0 x1 := by
  unfold run0_B; dsimp only; sl_unfold_words
  rw [read_writes_head_whole (S := S256x1024) _ _ off00]
  unfold accB0
  simp only [View.readAt_eq_ld, harg3.read_unread, harg4.read_unread, harg7.read_unread,
    View.ld_unit_zero (S := S256x2048) off00, View.ld_unit_zero (S := S1024x2048) off00, View.ld_unit_zero (S := S256x1024) off00]

theorem oreadB0 (c : Dev nD) (i : grid0.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x2048 .bf16) (x1 : Vec F S1024x2048 .bf16) (x2 : Vec F S256x1024 .f32) (xs : Vec F S256x1024 .f32) (f : arg6.view.ty.Contents (Elt F)) :
    arg6.view.read (Elt F) (arg6.view.writes (Elt F) f (run0_B (F := F) c i arg3 harg3 arg4 harg4 arg5 harg5 arg6 harg6 arg7 harg7 x0 x1 x2 xs).1) = outB0 xs x0 x1 x2 := by
  unfold run0_B; dsimp only; sl_unfold_words
  rw [read_writes_head_whole (S := S256x1024) _ _ off00]
  unfold outB0
  simp only [View.readCov_unit_zero (S := S256x1024) _ off00, View.readAt_eq_ld, harg3.read_unread, harg4.read_unread, harg5.read_unread, harg7.read_unread,
    View.ld_unit_zero (S := S256x2048) off00, View.ld_unit_zero (S := S1024x2048) off00, View.ld_unit_zero (S := S256x1024) off00]

end Cert.KernelIdeal.Frame

end
-- ==== Proof.KernelIdeal.R0Dat.lean ====
/-
  Region 0, second half: the proof data of the first tiled product and the obligation its body meets.

  After the body at point t each input's staging buffer holds its block; the output's holds, at a last-half
  point, the accumulator plus the dg block; the accumulator holds the first half's product after an even
  point and both halves' after an odd one.  The invariant carries the accumulator from a point to the next.
-/
import proofs.«174496_j87144886436114_1_alg».proof.Proof.KernelIdeal.R0Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at their literal types. -/
abbrev xb0 (c : Dev nD) (t : Fin cfg0.N) : Vec F S256x2048 .bf16 := iblk0 V c 0 t
abbrev yb0 (c : Dev nD) (t : Fin cfg0.N) : Vec F S1024x2048 .bf16 := iblk0 V c 1 t
abbrev db0 (c : Dev nD) (t : Fin cfg0.N) : Vec F S256x1024 .f32 := iblk0 V c 2 t

/-- An input's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator and the output block, point by point -/

/-- The point before `t` (the same block pair on the first half, when `t` is on the last). -/
def prev0 (t : Fin cfg0.N) : Fin cfg0.N := ⟨t.val - 1, Nat.lt_of_le_of_lt (Nat.sub_le _ _) t.isLt⟩

/-- The accumulator after point `t`. -/
def sAt0 (c : Dev nD) (t : Fin cfg0.N) : Vec F S256x1024 .f32 :=
  if t.val % 2 = 0 then accA0 (xb0 V c t) (yb0 V c t)
  else accB0 (accA0 (xb0 V c (prev0 t)) (yb0 V c (prev0 t))) (xb0 V c t) (yb0 V c t)

/-- The output block a last-half point `t` stores. -/
def oAt0 (c : Dev nD) (t : Fin cfg0.N) : Vec F S256x1024 .f32 :=
  outB0 (accA0 (xb0 V c (prev0 t)) (yb0 V c (prev0 t))) (xb0 V c t) (yb0 V c t) (db0 V c t)

theorem sAt0_even (c : Dev nD) (t : Fin cfg0.N) (h : t.val % 2 = 0) : sAt0 V c t = accA0 (xb0 V c t) (yb0 V c t) := by
  unfold sAt0; rw [if_pos h]
theorem sAt0_odd (c : Dev nD) (t : Fin cfg0.N) (h : ¬ t.val % 2 = 0) :
    sAt0 V c t = accB0 (accA0 (xb0 V c (prev0 t)) (yb0 V c (prev0 t))) (xb0 V c t) (yb0 V c t) := by
  unfold sAt0; rw [if_neg h]

/-! ## The invariant -/

/-- Before point `n`: at the region's entry the class invariant; afterwards the accumulator at what point `n - 1`
    left in it, the other scoped buffers unopened, the generator register at some state. -/
def PhiS0 (c : Dev nD) : (n : ℕ) → n ≤ cfg0.N → sProp 𝕄
  | 0, _ => Pipeline.ΦA spec0 c
  | n + 1, hn => iprop((owns (c : Thread nD τ) scM0 fullShare (sAt0 V c ⟨n, hn⟩)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (sAt0 V c ⟨n, hn⟩)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop((owns (c : Thread nD τ) scM0 fullShare (sAt0 V c ⟨n - 1, by omega⟩)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The proof data of the region on core `c`: the arrays as the region finds them; after the body at point `t` each
    input's buffer at its block and the output's at `oAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => oAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = oAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point.  An even point is on the first half: whatever the accumulator held, it ends at the half's
    product over zero, and the output buffer goes back as found.  An odd point is on the last half: the invariant
    hands over the accumulator at what the even point before left, and takes it back with the second product
    added; the output buffer ends at that plus the dg block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 16 := lt_of_lt_of_eq t.isLt (show cfg0.N = 16 from N_0)
  by_cases h0 : t.val % 2 = 0
  · have hc0 : cond0_0 (grid0.coords t) := (hcond0_0 t).mpr h0
    have hc1 : ¬cond0_1 (grid0.coords t) := fun h => by have := (hcond0_1 t).mp h; omega
    rw [Dat.leavesExact_idle (dat0 V c) 3 t (idleAt0_3_A t hc0 hc1) (noFlush0_3_A t hc0 hc1)]
    rw [show sAt0 V c ⟨t.val, t.isLt⟩ = accA0 (xb0 V c t) (yb0 V c t) from sAt0_even V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply ((run0_A c (grid0.coords t) _ _ _ _ _ _ _ _ _ _ (xb0 V c t) (yb0 V c t) (db0 V c t)).2 hc0 hc1 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact sreadA0 c _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply ((run0_A c (grid0.coords t) _ _ _ _ _ _ _ _ _ _ (xb0 V c t) (yb0 V c t) (db0 V c t)).2 hc0 hc1 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS HR Hg]
      · isplitl [HS HR]
        · isplitl [HS]
          · unfold owns; iexists _; isplitr
            swap; · iexact HS
            ipureintro; exact sreadA0 c _ _ _ _ _ _ _ _ _ _ _ _ _ _ _
          iexact HR
        iexact Hg
      isplitl [Ho]; · iexact Ho
      isplitl [H0]; · iexact H0
      isplitl [H1]; · iexact H1
      isplitl [H2]; · iexact H2
      iexists _; iexact H3
  · have hc0 : ¬cond0_0 (grid0.coords t) := fun h => h0 ((hcond0_0 t).mp h)
    have hc1 : cond0_1 (grid0.coords t) := (hcond0_1 t).mpr (by omega)
    have hz : t.val ≠ 0 := fun h => h0 (by rw [h])
    rw [show (dat0 V c).leavesExact 3 t = owns (c : Thread nD τ) (ms0_3 t) fullShare ((dat0 V c).after 3 t) from by
      unfold Dat.leavesExact; rw [liveAt0_3_B t hc0 hc1], after0_3]
    rw [show sAt0 V c ⟨t.val, t.isLt⟩ = accB0 (accA0 (xb0 V c (prev0 t)) (yb0 V c (prev0 t))) (xb0 V c t) (yb0 V c t) from sAt0_odd V c t h0]
    rw [PhiS0_castSucc V c t, PhiS0_pos V c _ _ hz]
    rw [show sAt0 V c ⟨t.val - 1, by omega⟩ = accA0 (xb0 V c (prev0 t)) (yb0 V c (prev0 t)) from
      sAt0_even V c (prev0 t) (by show (t.val - 1) % 2 = 0; omega)]
    unfold oAt0
    iintro ⟨⟨⟨HS, HR⟩, Hg⟩, Ho, ⟨%d0, H0⟩, ⟨%d1, H1⟩, ⟨%d2, H2⟩, ⟨%d3, H3⟩⟩
    iapply ((run0_B c (grid0.coords t) _ _ _ _ _ _ _ _ _ _ (xb0 V c t) (yb0 V c t) (db0 V c t) (accA0 (xb0 V c (prev0 t)) (yb0 V c (prev0 t)))).2.2 hc0 hc1 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS HR Hg]
    · isplitl [HS HR]
      · isplitl [HS]
        · unfold owns; iexists _; isplitr
          swap; · iexact HS
          ipureintro; exact sreadB0 c _ _ _ _ _ _ _ _ _ _ _ _ _ _ _ _
        iexact HR
      iexact Hg
    isplitl [Ho]; · iexact Ho
    isplitl [H0]; · iexact H0
    isplitl [H1]; · iexact H1
    isplitl [H2]; · iexact H2
    unfold owns; iexists _; isplitr
    swap; · iexact H3
    ipureintro; exact oreadB0 c _ _ _ _ _ _ _ _ _ _ _ _ _ _ _ _

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, HR⟩, Hg⟩
  isplitl [HS HR]
  · isplitl [HS]
    · iexists _; iexact HS
    iexact HR
  iexact Hg

end Cert.KernelIdeal.Frame

end
-- ==== Proof.KernelIdeal.R1Runs.lean ====
/-
  Region 1 of the program: the weight update, on the grid (4, 4, 2).

  A point (i, j, k) works on columns 512 i … of the targets, columns 1024 j … of the inputs and half k of the
  1024-long batch axis.  At k = 0 the body zeroes its accumulator and adds the half's product targetsᵀ · inputs;
  the output block is not touched there.  At k = 1 it adds the second half's product and stores
  old + lr · (accumulator · 2⁻¹⁰ − mean ⊗ 1 · old) into the output block, which is then written back.  So the
  accumulator after a point depends only on that point's blocks and, at k = 1, on the blocks of the point
  before it (the same (i, j) at k = 0).

  Stated for any float instance: the body's two runs, and what they leave in the accumulator and in the output
  block, as values.
-/
import proofs.«174496_j87144886436114_1_alg».proof.Proof.KernelIdeal.R0Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which half of the batch axis a point is on -/

/-- The body's first branch: the point is on the first half (k = 0). -/
abbrev cond1_0 (i : grid1.Coords) : Prop := (Scalar.cmpi .ne (Scalar.extui (Scalar.cmpi .eq (BitVec.ofNat 32 (i 2).val) 0#32)) 0#32) = 1#1
/-- The points on the first half are the even ones. -/
theorem hcond1_0 : ∀ t : Fin cfg1.N, cond1_0 (grid1.coords t) ↔ t.val % 2 = 0 :=
  (by decide +kernel : ∀ t : Fin grid1.N, cond1_0 (grid1.coords t) ↔ t.val % 2 = 0)
/-- The body's second branch: the point is on the last half (k = 1). -/
abbrev cond1_1 (i : grid1.Coords) : Prop := k1_cond2 i = 1#1
/-- The points on the last half are the odd ones. -/
theorem hcond1_1 : ∀ t : Fin cfg1.N, cond1_1 (grid1.coords t) ↔ t.val % 2 = 1 :=
  (by decide +kernel : ∀ t : Fin grid1.N, cond1_1 (grid1.coords t) ↔ t.val % 2 = 1)

/-- The four inputs are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- On the first half the output block is neither stored into nor written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- On the last half it is stored whole. -/
theorem liveAt1_4_B : ∀ t : Fin cfg1.N, ¬cond1_0 (grid1.coords t) → cond1_1 (grid1.coords t) → cfg1.idle 4 (grid1.coords t) = false := by decide +kernel

/-! ## The buffers the body is called with -/

abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S512x1024 .f32 := Memref.whole cc1_scratch0

/-- The core's scoped buffers beside the staging buffers: the accumulator, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the accumulator named: the accumulator at some contents, the other scoped buffers
    unopened, the generator register at some state. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The body's two runs -/

set_option maxHeartbeats 1000000 in
/-- On the first half: the inputs keep their contents, the output buffer is handed back as found, and the
    accumulator, whatever it held, ends with the stores listed (found by running the body). -/
noncomputable def run1_A (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) :
    { LS0 : List (View.Piece (Elt F) S512x1024 .f32) //
      ∀ (hc0 : cond1_0 i) (hc1 : ¬cond1_1 i) (xi4 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨?_, fun hc0 hc1 xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, %hfs, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 1000000 in
/-- On the last half: the inputs keep their contents, the accumulator found at xs and the output buffer, whatever
    it held, end with the stores listed. -/
noncomputable def run1_B (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) (xs : Vec F S512x1024 .f32) :
    Σ' (L4 : List (View.Piece (Elt F) S512x1024 .f32)), { LS0 : List (View.Piece (Elt F) S512x1024 .f32) //
      ∀ (hc0 : ¬cond1_0 i) (hc1 : cond1_1 i) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg3 harg3 arg4 harg4 arg5 harg5 arg6 harg6 arg7 harg7 arg8 harg8) K } := by
  refine ⟨?_, ?_, fun hc0 hc1 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS

/-! ## What the runs leave, as values -/

/-- The accumulator after a first-half point: zero plus the half's product. -/
def accA1 (x0 : Vec F S512x512 .bf16) (x1 : Vec F S512x1024 .bf16) : Vec F S512x1024 .f32 := k1_pay2 (k1_pay1 (F := F)) x0 x1
/-- The accumulator after a last-half point that found it at xs. -/
def accB1 (xs : Vec F S512x1024 .f32) (x0 : Vec F S512x512 .bf16) (x1 : Vec F S512x1024 .bf16) : Vec F S512x1024 .f32 := k1_pay2 xs x0 x1
/-- The output block such a point stores: the old weights plus the learning rate times (the accumulator scaled by
    2⁻¹⁰, minus the mean column spread along the rows times the old weights). -/
def outB1 (xs : Vec F S512x1024 .f32) (x0 : Vec F S512x512 .bf16) (x1 : Vec F S512x1024 .bf16) (x2 : Vec F S512x1024 .f32) (x3 : Vec F S512x1 .f32) : Vec F S512x1024 .f32 := k1_pay3 (k1_pay2 xs x0 x1) x3 x2 x2

theorem sreadA1 (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) (f : arg8.view.ty.Contents (Elt F)) :
    arg8.view.read (Elt F) (arg8.view.writes (Elt F) f (run1_A (F := F) c i arg3 harg3 arg4 harg4 arg5 harg5 arg6 harg6 arg7 harg7 arg8 harg8 x0 x1 x2 x3).1) = accA1 x0 x1 := by
  unfold run1_A; dsimp only; sl_unfold_words
  rw [read_writes_head_whole (S := S512x1024) _ _ off00]
  unfold accA1
  simp only [View.readCov_unit_zero (S := S512x1024) _ off00, View.readAt_eq_ld, harg3.read_unread, harg4.read_unread,
    View.ld_unit_zero (S := S512x512) off00, View.ld_unit_zero (S := S512x1024) off00]

theorem sreadB1 (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) (xs : Vec F S512x1024 .f32) (f : arg8.view.ty.Contents (Elt F)) :
    arg8.view.read (Elt F) (arg8.view.writes (Elt F) f (run1_B (F := F) c i arg3 harg3 arg4 harg4 arg5 harg5 arg6 harg6 arg7 harg7 arg8 harg8 x0 x1 x2 x3 xs).2.1) = accB1 xs x0 x1 := by
  unfold run1_B; dsimp only; sl_unfold_words
  rw [read_writes_head_whole (S := S512x1024) _ _ off00]
  unfold accB1
  simp only [View.readAt_eq_ld, harg3.read_unread, harg4.read_unread, harg8.read_unread,
    View.ld_unit_zero (S := S512x512) off00, View.ld_unit_zero (S := S512x1024) off00]

theorem oreadB1 (c : Dev nD) (i : grid1.Coords) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1024 .f32) (harg7 : arg7.IsWhole) (arg8 : Memref sig .tc .vmem S512x1024 .f32) (harg8 : arg8.IsWhole)
    (x0 : Vec F S512x512 .bf16) (x1 : Vec F S512x1024 .bf16) (x2 : Vec F S512x1024 .f32) (x3 : Vec F S512x1 .f32) (xs : Vec F S512x1024 .f32) (f : arg7.view.ty.Contents (Elt F)) :
    arg7.view.read (Elt F) (arg7.view.writes (Elt F) f (run1_B (F := F) c i arg3 harg3 arg4 harg4 arg5 harg5 arg6 harg6 arg7 harg7 arg8 harg8 x0 x1 x2 x3 xs).1) = outB1 xs x0 x1 x2 x3 := by
  unfold run1_B; dsimp only; sl_unfold_words
  rw [read_writes_head_whole (S := S512x1024) _ _ off00]
  unfold outB1
  simp only [View.readCov_unit_zero (S := S512x1024) _ off00, View.readAt_eq_ld, harg3.read_unread, harg4.read_unread, harg5.read_unread, harg6.read_unread, harg8.read_unread,
    View.ld_unit_zero (S := S512x512) off00, View.ld_unit_zero (S := S512x1024) off00, View.ld_unit_zero (S := S512x1) off00]

end Cert.KernelIdeal.Frame

end
-- ==== Proof.KernelIdeal.R1Dat.lean ====
/-
  Region 1, second half: the proof data of the weight update and the obligation its body meets.

  After the body at point t each input's staging buffer holds its block; the output's holds, at a last-half
  point, the updated weights block; the accumulator holds the first half's product after an even point and both
  halves' after an odd one.  The invariant carries the accumulator from a point to the next.
-/
import proofs.«174496_j87144886436114_1_alg».proof.Proof.KernelIdeal.R1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at their literal types: targets, inputs, old weights, mean column. -/
abbrev tb1 (c : Dev nD) (t : Fin cfg1.N) : Vec F S512x512 .bf16 := iblk1 V c 0 t
abbrev eb1 (c : Dev nD) (t : Fin cfg1.N) : Vec F S512x1024 .bf16 := iblk1 V c 1 t
abbrev wb1 (c : Dev nD) (t : Fin cfg1.N) : Vec F S512x1024 .f32 := iblk1 V c 2 t
abbrev mb1 (c : Dev nD) (t : Fin cfg1.N) : Vec F S512x1 .f32 := iblk1 V c 3 t

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the output block, point by point -/

/-- The point before t (the same block pair on the first half, when t is on the last). -/
def prev1 (t : Fin cfg1.N) : Fin cfg1.N := ⟨t.val - 1, Nat.lt_of_le_of_lt (Nat.sub_le _ _) t.isLt⟩

/-- The accumulator after point t. -/
def sAt1 (c : Dev nD) (t : Fin cfg1.N) : Vec F S512x1024 .f32 :=
  if t.val % 2 = 0 then accA1 (tb1 V c t) (eb1 V c t)
  else accB1 (accA1 (tb1 V c (prev1 t)) (eb1 V c (prev1 t))) (tb1 V c t) (eb1 V c t)

/-- The output block a last-half point t stores. -/
def oAt1 (c : Dev nD) (t : Fin cfg1.N) : Vec F S512x1024 .f32 :=
  outB1 (accA1 (tb1 V c (prev1 t)) (eb1 V c (prev1 t))) (tb1 V c t) (eb1 V c t) (wb1 V c t) (mb1 V c t)

theorem sAt1_even (c : Dev nD) (t : Fin cfg1.N) (h : t.val % 2 = 0) : sAt1 V c t = accA1 (tb1 V c t) (eb1 V c t) := by
  unfold sAt1; rw [if_pos h]
theorem sAt1_odd (c : Dev nD) (t : Fin cfg1.N) (h : ¬ t.val % 2 = 0) :
    sAt1 V c t = accB1 (accA1 (tb1 V c (prev1 t)) (eb1 V c (prev1 t))) (tb1 V c t) (eb1 V c t) := by
  unfold sAt1; rw [if_neg h]

/-! ## The invariant -/

/-- Before point n: at the region's entry the class invariant; afterwards the accumulator at what point n - 1
    left in it, the other scoped buffers unopened, the generator register at some state. -/
def PhiS1 (c : Dev nD) : (n : ℕ) → n ≤ cfg1.N → sProp 𝕄
  | 0, _ => Pipeline.ΦA spec1 c
  | n + 1, hn => iprop((owns (c : Thread nD τ) scM1 fullShare (sAt1 V c ⟨n, hn⟩)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (sAt1 V c ⟨n, hn⟩)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop((owns (c : Thread nD τ) scM1 fullShare (sAt1 V c ⟨n - 1, by omega⟩)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of the region on core c: the arrays as the region finds them; after the body at point t each
    input's buffer at its block and the output's at oAt1; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = oAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  An even point is on the first half: whatever the accumulator held, it ends at the half's
    product over zero, and the output buffer goes back as found.  An odd point is on the last half: the invariant
    hands over the accumulator at what the even point before left, and takes it back with the second product
    added; the output buffer ends at the updated weights block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 32 := lt_of_lt_of_eq t.isLt (show cfg1.N = 32 from N_1)
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4_A t hc0 hc1) (noFlush1_4_A t hc0 hc1)]
    rw [show sAt1 V c ⟨t.val, t.isLt⟩ = accA1 (tb1 V c t) (eb1 V c t) from sAt1_even V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply ((run1_A c (grid1.coords t) _ _ _ _ _ _ _ _ _ _ _ _ (tb1 V c t) (eb1 V c t) (wb1 V c t) (mb1 V c t)).2 hc0 hc1 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact sreadA1 c _ _ _ _ _ _ _ _ _ _ _ _ _ _ _ _ _ _
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((run1_A c (grid1.coords t) _ _ _ _ _ _ _ _ _ _ _ _ (tb1 V c t) (eb1 V c t) (wb1 V c t) (mb1 V c t)).2 hc0 hc1 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact sreadA1 c _ _ _ _ _ _ _ _ _ _ _ _ _ _ _ _ _ _
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hc1 : cond1_1 (grid1.coords t) := (hcond1_1 t).mpr (by omega)
    have hz : t.val ≠ 0 := fun h => h0 (by rw [h])
    rw [show (dat1 V c).leavesExact 4 t = owns (c : Thread nD τ) (ms1_4 t) fullShare ((dat1 V c).after 4 t) from by
      unfold Dat.leavesExact; rw [liveAt1_4_B t hc0 hc1], after1_4]
    rw [show sAt1 V c ⟨t.val, t.isLt⟩ = accB1 (accA1 (tb1 V c (prev1 t)) (eb1 V c (prev1 t))) (tb1 V c t) (eb1 V c t) from sAt1_odd V c t h0]
    rw [PhiS1_castSucc V c t, PhiS1_pos V c _ _ hz]
    rw [show sAt1 V c ⟨t.val - 1, by omega⟩ = accA1 (tb1 V c (prev1 t)) (eb1 V c (prev1 t)) from
      sAt1_even V c (prev1 t) (by show (t.val - 1) % 2 = 0; omega)]
    unfold oAt1
    iintro ⟨⟨⟨HS, HR⟩, Hg⟩, Ho, ⟨%d0, H0⟩, ⟨%d1, H1⟩, ⟨%d2, H2⟩, ⟨%d3, H3⟩, ⟨%d4, H4⟩⟩
    iapply ((run1_B c (grid1.coords t) _ _ _ _ _ _ _ _ _ _ _ _ (tb1 V c t) (eb1 V c t) (wb1 V c t) (mb1 V c t) (accA1 (tb1 V c (prev1 t)) (eb1 V c (prev1 t)))).2.2 hc0 hc1 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS HR Hg]
    · isplitl [HS HR]
      · isplitl [HS]
        · unfold owns; iexists _; isplitr
          swap; · iexact HS
          ipureintro; exact sreadB1 c _ _ _ _ _ _ _ _ _ _ _ _ _ _ _ _ _ _ _
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact oreadB1 c _ _ _ _ _ _ _ _ _ _ _ _ _ _ _ _ _ _ _

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]
    · iexists _; iexact HS
    iexact HR
  iexact Hg

end Cert.KernelIdeal.Frame

end
-- ==== Proof.KernelIdeal.R2Runs.lean ====
/-
  Region 2 of the program: the last tiled product, post = ec · Wnewᵀ, on the grid (4, 2, 2).

  A point (i, j, k) works on rows 256 i … of ec, rows 1024 j … of the updated weight and half k of the
  4096-long contraction.  At k = 0 the body zeroes its accumulator and adds the first half's product; the
  output block is not touched there.  At k = 1 it adds the second half's product and stores the accumulator
  itself into the output block, which is then written back.  So the accumulator after a point depends only on
  that point's blocks and, at k = 1, on the blocks of the point before it (the same (i, j) at k = 0).

  Stated for any float instance: the body's two runs and what they leave in the accumulator and in the
  output block, as values of the blocks.
-/
import proofs.«174496_j87144886436114_1_alg».proof.Proof.KernelIdeal.R0Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which half of the contraction a point is on -/

/-- The body's first branch: the point is on the first half (k = 0). -/
abbrev cond2_0 (i : grid2.Coords) : Prop := (Scalar.cmpi .ne (Scalar.extui (Scalar.cmpi .eq (BitVec.ofNat 32 (i 2).val) 0#32)) 0#32) = 1#1
/-- The points on the first half are the even ones. -/
theorem hcond2_0 : ∀ t : Fin cfg2.N, cond2_0 (grid2.coords t) ↔ t.val % 2 = 0 :=
  (by decide +kernel : ∀ t : Fin grid2.N, cond2_0 (grid2.coords t) ↔ t.val % 2 = 0)
/-- The body's second branch: the point is on the last half (k = 1). -/
abbrev cond2_1 (i : grid2.Coords) : Prop := k2_cond2 i = 1#1
/-- The points on the last half are the odd ones. -/
theorem hcond2_1 : ∀ t : Fin cfg2.N, cond2_1 (grid2.coords t) ↔ t.val % 2 = 1 :=
  (by decide +kernel : ∀ t : Fin grid2.N, cond2_1 (grid2.coords t) ↔ t.val % 2 = 1)

/-- The two inputs are live at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- On the first half the output block is neither stored into nor written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- On the last half it is stored whole. -/
theorem liveAt2_2_B : ∀ t : Fin cfg2.N, ¬cond2_0 (grid2.coords t) → cond2_1 (grid2.coords t) → cfg2.idle 2 (grid2.coords t) = false := by decide +kernel

/-! ## The buffers the body is called with -/

abbrev ms2_0 (t : Fin cfg2.N) : Memref sig .tc .vmem S256x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S256x1024 .f32 := Memref.whole cc2_scratch0

/-- The core's scoped buffers beside the staging buffers: the accumulator, and the rest unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant with the accumulator named: the accumulator at some contents, the other scoped buffers
    unopened, the generator register at some state. -/
theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## The body's two runs -/

set_option maxHeartbeats 1000000 in
/-- On the first half: the inputs keep their contents, the output buffer is handed back as found, and the
    accumulator, whatever it held, ends with the stores listed (found by running the body). -/
noncomputable def run2_A (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) :
    { LS2 : List (View.Piece (Elt F) S256x1024 .f32) //
      ∀ (hc0 : cond2_0 i) (hc1 : ¬cond2_1 i) (xi2 : Vec F S256x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS2)) -∗ K ⟨⟩))
          ⊢ wp frame (wpE (defs₀ (F := F)) Variants.none c none) E (cc2_kernel i arg3 harg3 arg4 harg4 arg5 harg5 arg6 harg6) K } := by
  refine ⟨?_, fun hc0 hc1 xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds, %fs, %hfs, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- On the last half: the inputs keep their contents, the accumulator found at `xs` and the output buffer, whatever
    it held, end with the stores listed. -/
noncomputable def run2_B (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) (xs : Vec F S256x1024 .f32) :
    Σ' (L2 : List (View.Piece (Elt F) S256x1024 .f32)), { LS2 : List (View.Piece (Elt F) S256x1024 .f32) //
      ∀ (hc0 : ¬cond2_0 i) (hc1 : cond2_1 i) (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS2)) -∗ K ⟨⟩))
          ⊢ wp frame (wpE (defs₀ (F := F)) Variants.none c none) E (cc2_kernel i arg3 harg3 arg4 harg4 arg5 harg5 arg6 harg6) K } := by
  refine ⟨?_, ?_, fun hc0 hc1 E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

/-! ## What the runs leave, as values -/

/-- The accumulator after a first-half point: zero plus the half's product. -/
def accA2 (x0 : Vec F S256x2048 .bf16) (x1 : Vec F S1024x2048 .bf16) : Vec F S256x1024 .f32 := k2_pay2 (k2_pay1 (F := F)) x0 x1
/-- The accumulator after a last-half point that found it at `xs`. -/
def accB2 (xs : Vec F S256x1024 .f32) (x0 : Vec F S256x2048 .bf16) (x1 : Vec F S1024x2048 .bf16) : Vec F S256x1024 .f32 := k2_pay2 xs x0 x1
/-- The output block such a point stores: the accumulator itself. -/
def outB2 (xs : Vec F S256x1024 .f32) (x0 : Vec F S256x2048 .bf16) (x1 : Vec F S1024x2048 .bf16) : Vec F S256x1024 .f32 := k2_pay2 xs x0 x1

theorem sreadA2 (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) (f : arg6.view.ty.Contents (Elt F)) :
    arg6.view.read (Elt F) (arg6.view.writes (Elt F) f (run2_A (F := F) c i arg3 harg3 arg4 harg4 arg5 harg5 arg6 harg6 x0 x1).1) = accA2 x0 x1 := by
  unfold run2_A; dsimp only; sl_unfold_words
  rw [read_writes_head_whole (S := S256x1024) _ _ off00]
  unfold accA2
  simp only [View.readCov_unit_zero (S := S256x1024) _ off00, View.readAt_eq_ld, harg3.read_unread, harg4.read_unread,
    View.ld_unit_zero (S := S256x2048) off00, View.ld_unit_zero (S := S1024x2048) off00]

theorem sreadB2 (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) (xs : Vec F S256x1024 .f32) (f : arg6.view.ty.Contents (Elt F)) :
    arg6.view.read (Elt F) (arg6.view.writes (Elt F) f (run2_B (F := F) c i arg3 harg3 arg4 harg4 arg5 harg5 arg6 harg6 x0 x1 xs).2.1) = accB2 xs x0 x1 := by
  unfold run2_B; dsimp only; sl_unfold_words
  rw [read_writes_head_whole (S := S256x1024) _ _ off00]
  unfold accB2
  simp only [View.readAt_eq_ld, harg3.read_unread, harg4.read_unread, harg6.read_unread,
    View.ld_unit_zero (S := S256x2048) off00, View.ld_unit_zero (S := S1024x2048) off00, View.ld_unit_zero (S := S256x1024) off00]

theorem oreadB2 (c : Dev nD) (i : grid2.Coords) (arg3 : Memref sig .tc .vmem S256x2048 .bf16) (harg3 : arg3.IsWhole) (arg4 : Memref sig .tc .vmem S1024x2048 .bf16) (harg4 : arg4.IsWhole) (arg5 : Memref sig .tc .vmem S256x1024 .f32) (harg5 : arg5.IsWhole) (arg6 : Memref sig .tc .vmem S256x1024 .f32) (harg6 : arg6.IsWhole)
    (x0 : Vec F S256x2048 .bf16) (x1 : Vec F S1024x2048 .bf16) (xs : Vec F S256x1024 .f32) (f : arg5.view.ty.Contents (Elt F)) :
    arg5.view.read (Elt F) (arg5.view.writes (Elt F) f (run2_B (F := F) c i arg3 harg3 arg4 harg4 arg5 harg5 arg6 harg6 x0 x1 xs).1) = outB2 xs x0 x1 := by
  unfold run2_B; dsimp only; sl_unfold_words
  rw [read_writes_head_whole (S := S256x1024) _ _ off00]
  unfold outB2
  simp only [View.readCov_unit_zero (S := S256x1024) _ off00, View.readAt_eq_ld, harg3.read_unread, harg4.read_unread, harg6.read_unread,
    View.ld_unit_zero (S := S256x2048) off00, View.ld_unit_zero (S := S1024x2048) off00, View.ld_unit_zero (S := S256x1024) off00]

end Cert.KernelIdeal.Frame

end
-- ==== Proof.KernelIdeal.R2Dat.lean ====
/-
  Region 2, second half: the proof data of the last tiled product and the obligation its body meets.

  After the body at point t each input's staging buffer holds its block; the output's holds, at a last-half
  point, the accumulator itself; the accumulator holds the first half's product after an even point and both
  halves' after an odd one.  The invariant carries the accumulator from a point to the next.
-/
import proofs.«174496_j87144886436114_1_alg».proof.Proof.KernelIdeal.R2Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two input blocks at their literal types. -/
abbrev xb2 (c : Dev nD) (t : Fin cfg2.N) : Vec F S256x2048 .bf16 := iblk2 V c 0 t
abbrev yb2 (c : Dev nD) (t : Fin cfg2.N) : Vec F S1024x2048 .bf16 := iblk2 V c 1 t

/-- An input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator and the output block, point by point -/

/-- The point before `t` (the same block pair on the first half, when `t` is on the last). -/
def prev2 (t : Fin cfg2.N) : Fin cfg2.N := ⟨t.val - 1, Nat.lt_of_le_of_lt (Nat.sub_le _ _) t.isLt⟩

/-- The accumulator after point `t`. -/
def sAt2 (c : Dev nD) (t : Fin cfg2.N) : Vec F S256x1024 .f32 :=
  if t.val % 2 = 0 then accA2 (xb2 V c t) (yb2 V c t)
  else accB2 (accA2 (xb2 V c (prev2 t)) (yb2 V c (prev2 t))) (xb2 V c t) (yb2 V c t)

/-- The output block a last-half point `t` stores. -/
def oAt2 (c : Dev nD) (t : Fin cfg2.N) : Vec F S256x1024 .f32 :=
  outB2 (accA2 (xb2 V c (prev2 t)) (yb2 V c (prev2 t))) (xb2 V c t) (yb2 V c t)

theorem sAt2_even (c : Dev nD) (t : Fin cfg2.N) (h : t.val % 2 = 0) : sAt2 V c t = accA2 (xb2 V c t) (yb2 V c t) := by
  unfold sAt2; rw [if_pos h]
theorem sAt2_odd (c : Dev nD) (t : Fin cfg2.N) (h : ¬ t.val % 2 = 0) :
    sAt2 V c t = accB2 (accA2 (xb2 V c (prev2 t)) (yb2 V c (prev2 t))) (xb2 V c t) (yb2 V c t) := by
  unfold sAt2; rw [if_neg h]

/-! ## The invariant -/

/-- Before point `n`: at the region's entry the class invariant; afterwards the accumulator at what point `n - 1`
    left in it, the other scoped buffers unopened, the generator register at some state. -/
def PhiS2 (c : Dev nD) : (n : ℕ) → n ≤ cfg2.N → sProp 𝕄
  | 0, _ => Pipeline.ΦA spec2 c
  | n + 1, hn => iprop((owns (c : Thread nD τ) scM2 fullShare (sAt2 V c ⟨n, hn⟩)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare (sAt2 V c ⟨n, hn⟩)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop((owns (c : Thread nD τ) scM2 fullShare (sAt2 V c ⟨n - 1, by omega⟩)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of the region on core `c`: the arrays as the region finds them; after the body at point `t` each
    input's buffer at its block and the output's at `oAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => oAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = oAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point.  An even point is on the first half: whatever the accumulator held, it ends at the half's
    product over zero, and the output buffer goes back as found.  An odd point is on the last half: the invariant
    hands over the accumulator at what the even point before left, and takes it back with the second product
    added; the output buffer ends at that same sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 16 := lt_of_lt_of_eq t.isLt (show cfg2.N = 16 from N_2)
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2_A t hc0 hc1) (noFlush2_2_A t hc0 hc1)]
    rw [show sAt2 V c ⟨t.val, t.isLt⟩ = accA2 (xb2 V c t) (yb2 V c t) from sAt2_even V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩⟩
      iapply ((run2_A c (grid2.coords t) _ _ _ _ _ _ _ _ (xb2 V c t) (yb2 V c t)).2 hc0 hc1 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact sreadA2 c _ _ _ _ _ _ _ _ _ _ _ _
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, HR⟩, Hg⟩, Ho, ⟨%d0, H0⟩, ⟨%d1, H1⟩, ⟨%d2, H2⟩⟩
      iapply ((run2_A c (grid2.coords t) _ _ _ _ _ _ _ _ (xb2 V c t) (yb2 V c t)).2 hc0 hc1 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact sreadA2 c _ _ _ _ _ _ _ _ _ _ _ _
          iexact HR
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hc1 : cond2_1 (grid2.coords t) := (hcond2_1 t).mpr (by omega)
    have hz : t.val ≠ 0 := fun h => h0 (by rw [h])
    rw [show (dat2 V c).leavesExact 2 t = owns (c : Thread nD τ) (ms2_2 t) fullShare ((dat2 V c).after 2 t) from by
      unfold Dat.leavesExact; rw [liveAt2_2_B t hc0 hc1], after2_2]
    rw [show sAt2 V c ⟨t.val, t.isLt⟩ = accB2 (accA2 (xb2 V c (prev2 t)) (yb2 V c (prev2 t))) (xb2 V c t) (yb2 V c t) from sAt2_odd V c t h0]
    rw [PhiS2_castSucc V c t, PhiS2_pos V c _ _ hz]
    rw [show sAt2 V c ⟨t.val - 1, by omega⟩ = accA2 (xb2 V c (prev2 t)) (yb2 V c (prev2 t)) from
      sAt2_even V c (prev2 t) (by show (t.val - 1) % 2 = 0; omega)]
    unfold oAt2
    iintro ⟨⟨⟨HS, HR⟩, Hg⟩, Ho, ⟨%d0, H0⟩, ⟨%d1, H1⟩, ⟨%d2, H2⟩⟩
    iapply ((run2_B c (grid2.coords t) _ _ _ _ _ _ _ _ (xb2 V c t) (yb2 V c t) (accA2 (xb2 V c (prev2 t)) (yb2 V c (prev2 t)))).2.2 hc0 hc1 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS HR Hg]
    · isplitl [HS HR]
      · isplitl [HS]
        · unfold owns; iexists _; isplitr
          swap; · iexact HS
          ipureintro; exact sreadB2 c _ _ _ _ _ _ _ _ _ _ _ _ _
        iexact HR
      iexact Hg
    isplitl [Ho]; · iexact Ho
    isplitl [H0]; · iexact H0
    isplitl [H1]; · iexact H1
    unfold owns; iexists _; isplitr
    swap; · iexact H2
    ipureintro; exact oreadB2 c _ _ _ _ _ _ _ _ _ _ _ _ _

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS, HR⟩, Hg⟩
  isplitl [HS HR]
  · isplitl [HS]
    · iexists _; iexact HS
    iexact HR
  iexact Hg

end Cert.KernelIdeal.Frame

end
-- ==== Proof.KernelIdeal.Run.lean ====
/-
  The run of the whole program: the host stretches and the three tiled products in order, from the launch to the
  return, with every unscoped buffer's final contents named.

  Between two items the core holds every unscoped buffer at a known valuation: the launch memory, then each host
  stretch's operations applied, then each region's arrays replaced by what its write-backs leave.  The last
  valuation is read against the final memory, so both the argument arrays (which nothing writes) and the result
  buffers can be read off it.
-/
import proofs.«174496_j87144886436114_1_alg».proof.Proof.KernelIdeal.R0Dat
import proofs.«174496_j87144886436114_1_alg».proof.Proof.KernelIdeal.R1Dat
import proofs.«174496_j87144886436114_1_alg».proof.Proof.KernelIdeal.R2Dat
import proofs.«174496_j87144886436114_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the two conversions before the first product. -/
abbrev W1 : Dev nD → Valuation τ sig (Elt F) := fun c => StableHlo.after hostOps0 (W0 m c)
/-- The same read at the TensorCore's references: what region 0 is entered with. -/
abbrev En1 : (c : Dev nD) → (b : Ref sig .tc) → Buf (Elt F) ((c : Thread nD τ).loc b) := fun c b => W1 m c b

/-- At region 0's exit: its arrays at what the pipeline leaves (the inputs as entered, the output's write-backs folded
    in), every other buffer as entered. -/
def W2 (c : Dev nD) : Valuation τ sig (Elt F) :=
  Pipeline.withArrays spec0 c (W1 m c) fun w => (dat0 (En1 m) c).arrAt w cfg0.N
theorem W2_arr (c : Dev nD) (w : Fin cfg0.W) :
    W2 m c (Proc.devRef .tc (Pipeline.arrRef spec0 w)) = (dat0 (En1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (En1 m) c).arrAt w cfg0.N = W2 m c (Pipeline.arrRef spec0 w) :=
  (W2_arr m c w).symm
theorem hrest0 (c : Dev nD) : ∀ b, b ∉ Finset.univ.image (Pipeline.arrRef spec0) → W2 m c b = En1 m c b :=
  fun b hb => W2_of_ne m c b fun w e => hb (Finset.mem_image.mpr ⟨w, Finset.mem_univ _, e⟩)

/-- After the column mean and the conversion before the second product. -/
abbrev W3 : Dev nD → Valuation τ sig (Elt F) := fun c => StableHlo.after hostOps1 (W2 m c)
abbrev En3 : (c : Dev nD) → (b : Ref sig .tc) → Buf (Elt F) ((c : Thread nD τ).loc b) := fun c b => W3 m c b

/-- At region 1's exit: its arrays at what the pipeline leaves (the inputs as entered, the output's write-backs folded
    in), every other buffer as entered. -/
def W4 (c : Dev nD) : Valuation τ sig (Elt F) :=
  Pipeline.withArrays spec1 c (W3 m c) fun w => (dat1 (En3 m) c).arrAt w cfg1.N
theorem W4_arr (c : Dev nD) (w : Fin cfg1.W) :
    W4 m c (Proc.devRef .tc (Pipeline.arrRef spec1 w)) = (dat1 (En3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (En3 m) c).arrAt w cfg1.N = W4 m c (Pipeline.arrRef spec1 w) :=
  (W4_arr m c w).symm
theorem hrest1 (c : Dev nD) : ∀ b, b ∉ Finset.univ.image (Pipeline.arrRef spec1) → W4 m c b = En3 m c b :=
  fun b hb => W4_of_ne m c b fun w e => hb (Finset.mem_image.mpr ⟨w, Finset.mem_univ _, e⟩)

/-- After the conversion before the third product. -/
abbrev W5 : Dev nD → Valuation τ sig (Elt F) := fun c => StableHlo.after hostOps2 (W4 m c)
abbrev En5 : (c : Dev nD) → (b : Ref sig .tc) → Buf (Elt F) ((c : Thread nD τ).loc b) := fun c b => W5 m c b

/-- At region 2's exit: its arrays at what the pipeline leaves (the inputs as entered, the output's write-backs folded
    in), every other buffer as entered. -/
def W6 (c : Dev nD) : Valuation τ sig (Elt F) :=
  Pipeline.withArrays spec2 c (W5 m c) fun w => (dat2 (En5 m) c).arrAt w cfg2.N
theorem W6_arr (c : Dev nD) (w : Fin cfg2.W) :
    W6 m c (Proc.devRef .tc (Pipeline.arrRef spec2 w)) = (dat2 (En5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (En5 m) c).arrAt w cfg2.N = W6 m c (Pipeline.arrRef spec2 w) :=
  (W6_arr m c w).symm
theorem hrest2 (c : Dev nD) : ∀ b, b ∉ Finset.univ.image (Pipeline.arrRef spec2) → W6 m c b = En5 m c b :=
  fun b hb => W6_of_ne m c b fun w e => hb (Finset.mem_image.mpr ⟨w, Finset.mem_univ _, e⟩)

/-- After the loss: the last valuation. -/
abbrev W7 : Dev nD → Valuation τ sig (Elt F) := fun c => StableHlo.after hostOps3 (W6 m c)

/-! ## The proof data family and the thread state -/

/-- Every region's proof data, each at its entry contents: a literal match on the region. -/
def pdats : (p : Fin 3) → (c : Dev nD) → Dat τ (Elt F) Unit ℕ (UR sig nD τ) ℕ (Pipeline.pin (pcfgs (F := F)) adm p) c
  | ⟨0, _⟩ => fun c => dat0 (En1 m) c
  | ⟨1, _⟩ => fun c => dat1 (En3 m) c
  | ⟨2, _⟩ => fun c => dat2 (En5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`.  Its arrays are
    split out of the unscoped buffers and put back at their final contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (En1 m) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (En1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are
    split out of the unscoped buffers and put back at their final contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (En3 m) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (En3 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`.  Its arrays are
    split out of the unscoped buffers and put back at their final contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h1.trans (hin2 (En5 m) c)
  hout c := by
    rw [Pipeline.ownSems0_none]
    have h2 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (En5 m) c).trans h2
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Frame

end
-- ==== Proof.KernelIdeal.FrameThm.lean ====
/-
  The frame, and the result buffers read off the last valuation.

  Nothing writes an argument array: no host operation names one as its result, and a region only reads it
  through an input window (dg in the first product, W in the second) or not at all, so the last valuation at
  an argument walks back to the launch memory.  The first result is the first product's output array; the
  loss is the host tail applied to that array, dg and the third product's output array.
-/
import proofs.«174496_j87144886436114_1_alg».proof.Proof.KernelIdeal.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## A host stretch changes only the buffers its operations write -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-! ## The arguments end as launched -/

/-- ec is no window's array in any region's write set and no host result. -/
theorem W7_main_arg0 (c : Dev nD) : W7 m c main_arg0 = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| (W3_of m c main_arg0 (by decide)).trans <| (W2_of_ne m c main_arg0 (by decide)).trans <|
    (W1_of m c main_arg0 (by decide)).trans rfl

/-- dg is an INPUT window's array of the first product: its array is never written. -/
theorem W7_main_arg1 (c : Dev nD) : W7 m c main_arg1 = m ((c : Thread nD τ).loc main_arg1) :=
  (W7_of m c main_arg1 (by decide)).trans <| (W6_of_ne m c main_arg1 (by decide)).trans <| (W5_of m c main_arg1 (by decide)).trans <|
    (W4_of_ne m c main_arg1 (by decide)).trans <| (W3_of m c main_arg1 (by decide)).trans <|
    (W2_arr m c 2).trans <| ((dat0 (En1 m) c).arrAt_in 2 rfl _).trans <| (A_eq0 (En1 m) c 2).trans <|
    (W1_of m c main_arg1 (by decide)).trans rfl

/-- W is an INPUT window's array of the second product. -/
theorem W7_main_arg2 (c : Dev nD) : W7 m c main_arg2 = m ((c : Thread nD τ).loc main_arg2) :=
  (W7_of m c main_arg2 (by decide)).trans <| (W6_of_ne m c main_arg2 (by decide)).trans <| (W5_of m c main_arg2 (by decide)).trans <|
    (W4_arr m c 2).trans <| ((dat1 (En3 m) c).arrAt_in 2 rfl _).trans <| (A_eq1 (En3 m) c 2).trans <|
    (W3_of m c main_arg2 (by decide)).trans <| (W2_of_ne m c main_arg2 (by decide)).trans <|
    (W1_of m c main_arg2 (by decide)).trans rfl

/-- THE FRAME at any float instance: every weakly fair execution terminates, nothing faulting, and the three
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_main m ρ)

/-! ## The three regions' output arrays, and what each region is entered with -/

/-- The first product's output array after the run of region 0. -/
abbrev outP (c : Dev nD) := (dat0 (En1 m) c).arrAt 3 cfg0.N
/-- The second region's output array: the updated weights. -/
abbrev outW (c : Dev nD) := (dat1 (En3 m) c).arrAt 4 cfg1.N
/-- The third region's output array. -/
abbrev outQ (c : Dev nD) := (dat2 (En5 m) c).arrAt 2 cfg2.N

theorem W2_main_v2 (c : Dev nD) : W2 m c main_v2 = outP m c := W2_arr m c 3
theorem W4_main_v8 (c : Dev nD) : W4 m c main_v8 = outW m c := W4_arr m c 4
theorem W6_main_v10 (c : Dev nD) : W6 m c main_v10 = outQ m c := W6_arr m c 2

/-- The first product's array is still there at the end of the third region. -/
theorem W6_main_v2 (c : Dev nD) : W6 m c main_v2 = outP m c :=
  (W6_of_ne m c main_v2 (by decide)).trans <| (W5_of m c main_v2 (by decide)).trans <| (W4_of_ne m c main_v2 (by decide)).trans <|
    (W3_of m c main_v2 (by decide)).trans (W2_main_v2 m c)
theorem W6_main_arg1 (c : Dev nD) : W6 m c main_arg1 = m ((c : Thread nD τ).loc main_arg1) :=
  (W6_of_ne m c main_arg1 (by decide)).trans <| (W5_of m c main_arg1 (by decide)).trans <|
    (W4_of_ne m c main_arg1 (by decide)).trans <| (W3_of m c main_arg1 (by decide)).trans <|
    (W2_arr m c 2).trans <| ((dat0 (En1 m) c).arrAt_in 2 rfl _).trans <| (A_eq0 (En1 m) c 2).trans <|
    (W1_of m c main_arg1 (by decide)).trans rfl

/-- The first result is the first product's output array. -/
theorem W7_main_v2 (c : Dev nD) : W7 m c main_v2 = outP m c :=
  (W7_of m c main_v2 (by decide)).trans (W6_main_v2 m c)

end Cert.KernelIdeal.Frame

end
-- ==== Proof.KernelIdeal.HostVal.lean ====
/-
  What each region is entered with, and the two scalar results, at the ideal instance.

  Before the first product the host converts ec and W to the narrow format, which at the ideal instance changes
  nothing; before the second it takes the column mean of the first product's output (a sum over the batch axis
  divided by 1024, reshaped to a column) and converts that output; before the third it converts the updated
  weights.  After the third it forms (pre − dg − post)², sums it and divides by the number of entries.
-/
import proofs.«174496_j87144886436114_1_alg».proof.Proof.KernelIdeal.FrameThm
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem

variable (m : (ℓ : Loc nD τ sig) → Buf (Elt Ideal) ℓ)

/-- The three arguments on core `c`, as arrays of extended reals. -/
abbrev ecA (c : Dev nD) : S1024x4096.Idx → EReal := m ((c : Thread nD τ).loc main_arg0)
abbrev dgA (c : Dev nD) : S1024x2048.Idx → EReal := m ((c : Thread nD τ).loc main_arg1)
abbrev wA (c : Dev nD) : S2048x4096.Idx → EReal := m ((c : Thread nD τ).loc main_arg2)

/-- The column mean of an array over the batch axis, by the host's own operations. -/
def meanK (P : S1024x2048.Idx → EReal) : S2048.Idx → EReal :=
  Host.divf (F := Ideal) (Host.reduceAdd (F := Ideal) (φ := .f32) P (constant (F := Ideal) S_ .f32 0x00000000#32) reducesTo_S1024x2048_S2048_d0 h_S_)
    (broadcastInDim S2048 ![] bcast_S_S2048 (constant (F := Ideal) S_ .f32 0x44800000#32))

/-- The mean of the squares of an array's entries, by the host's own operations. -/
def lossK (d : S1024x2048.Idx → EReal) : S_.Idx → EReal :=
  Host.divf (F := Ideal) (Host.reduceAdd (F := Ideal) (φ := .f32) (mulf (F := Ideal) (φ := .f32) d d) (constant (F := Ideal) S_ .f32 0x00000000#32) reducesTo_S1024x2048_S_d0_1 h_S_)
    (constant (F := Ideal) S_ .f32 0x4A000000#32)

/-! ## Region 0 is entered with ec, W and dg -/

theorem En1_v0 (c : Dev nD) (i : S1024x4096.Idx) : (En1 m c main_v0 : S1024x4096.Idx → EReal) i = ecA m c i := by
  have e : (En1 m c main_v0 : S1024x4096.Idx → EReal)
      = truncf (F := Ideal) .bf16 (ecA m c : S1024x4096.Idx → EReal) bitsLt_bf16_f32 := by
    show StableHlo.after hostOps0 (W0 m c) (Proc.devRef .tc main_v0) = _
    after_results
  rw [e]; rfl
theorem En1_v1 (c : Dev nD) (i : S2048x4096.Idx) : (En1 m c main_v1 : S2048x4096.Idx → EReal) i = wA m c i := by
  have e : (En1 m c main_v1 : S2048x4096.Idx → EReal)
      = truncf (F := Ideal) .bf16 (wA m c : S2048x4096.Idx → EReal) bitsLt_bf16_f32 := by
    show StableHlo.after hostOps0 (W0 m c) (Proc.devRef .tc main_v1) = _
    after_results
  rw [e]; rfl
theorem En1_arg1 (c : Dev nD) (i : S1024x2048.Idx) : (En1 m c main_arg1 : S1024x2048.Idx → EReal) i = dgA m c i :=
  congrFun ((W1_of m c main_arg1 (by decide)).trans rfl) i

/-! ## Region 1 is entered with the first product's output, ec, W and the column mean -/

/-- An input window's array leaves region 0 as it entered: ec's converted copy. -/
theorem W2_main_v0 (c : Dev nD) : W2 m c main_v0 = En1 m c main_v0 :=
  (W2_arr m c 0).trans <| ((dat0 (En1 m) c).arrAt_in 0 rfl _).trans (A_eq0 (En1 m) c 0)

theorem En3_v7 (c : Dev nD) (i : S1024x2048.Idx) : (En3 m c main_v7 : S1024x2048.Idx → EReal) i = (outP m c : S1024x2048.Idx → EReal) i := by
  have e : (En3 m c main_v7 : S1024x2048.Idx → EReal)
      = truncf (F := Ideal) .bf16 (W2 m c main_v2 : S1024x2048.Idx → EReal) bitsLt_bf16_f32 := by
    show StableHlo.after hostOps1 (W2 m c) (Proc.devRef .tc main_v7) = _
    after_results
  rw [e, W2_main_v2]; rfl
theorem En3_v0_eq (c : Dev nD) : En3 m c main_v0 = En1 m c main_v0 :=
  (W3_of m c main_v0 (by decide)).trans (W2_main_v0 m c)
theorem En3_v0 (c : Dev nD) (i : S1024x4096.Idx) : (En3 m c main_v0 : S1024x4096.Idx → EReal) i = ecA m c i :=
  (congrFun (En3_v0_eq m c) i).trans (En1_v0 m c i)
theorem En3_arg2 (c : Dev nD) (i : S2048x4096.Idx) : (En3 m c main_arg2 : S2048x4096.Idx → EReal) i = wA m c i :=
  congrFun ((W3_of m c main_arg2 (by decide)).trans <| (W2_of_ne m c main_arg2 (by decide)).trans <|
    (W1_of m c main_arg2 (by decide)).trans rfl) i
theorem En3_v6 (c : Dev nD) (c' : Fin 2048) :
    (En3 m c main_v6 : S2048x1.Idx → EReal) (ix2 c' (0 : Fin 1)) = meanK (outP m c) (ix1 c') := by
  have e : (En3 m c main_v6 : S2048x1.Idx → EReal)
      = shapeCast S2048x1 (meanK (W2 m c main_v2 : S1024x2048.Idx → EReal)) shapeCasts_S2048_S2048x1 := by
    show StableHlo.after hostOps1 (W2 m c) (Proc.devRef .tc main_v6) = _
    after_results
    rfl
  rw [e, W2_main_v2]
  refine shapeCast_apply _ _ _ _ ?_
  rw [Shape.rowMajor_val_one, Shape.rowMajor_val_two]
  show c'.val = c'.val * 1 + 0
  omega

/-! ## Region 2 is entered with ec and the updated weights -/

/-- ec's converted copy is an input window's array of region 1 too. -/
theorem W4_main_v0 (c : Dev nD) : W4 m c main_v0 = En3 m c main_v0 :=
  (W4_arr m c 1).trans <| ((dat1 (En3 m) c).arrAt_in 1 rfl _).trans (A_eq1 (En3 m) c 1)

theorem En5_v0 (c : Dev nD) (i : S1024x4096.Idx) : (En5 m c main_v0 : S1024x4096.Idx → EReal) i = ecA m c i :=
  (congrFun ((W5_of m c main_v0 (by decide)).trans (W4_main_v0 m c)) i).trans (En3_v0 m c i)
theorem En5_v9 (c : Dev nD) (i : S2048x4096.Idx) : (En5 m c main_v9 : S2048x4096.Idx → EReal) i = (outW m c : S2048x4096.Idx → EReal) i := by
  have e : (En5 m c main_v9 : S2048x4096.Idx → EReal)
      = truncf (F := Ideal) .bf16 (W4 m c main_v8 : S2048x4096.Idx → EReal) bitsLt_bf16_f32 := by
    show StableHlo.after hostOps2 (W4 m c) (Proc.devRef .tc main_v9) = _
    after_results
  rw [e, W4_main_v8]; rfl

/-! ## The scalar results -/

theorem W7_main_cst_3 (c : Dev nD) : (W7 m c main_cst_3 : S_.Idx → EReal) = constant (F := Ideal) S_ .f32 0x00000000#32 := by
  show StableHlo.after hostOps3 (W6 m c) (Proc.devRef .tc main_cst_3) = _
  after_results

theorem W7_main_v15 (c : Dev nD) :
    (W7 m c main_v15 : S_.Idx → EReal)
      = lossK (subf (F := Ideal) (φ := .f32) (subf (F := Ideal) (φ := .f32) (outP m c : S1024x2048.Idx → EReal) (dgA m c)) (outQ m c : S1024x2048.Idx → EReal)) := by
  have e : (W7 m c main_v15 : S_.Idx → EReal)
      = lossK (subf (F := Ideal) (φ := .f32) (subf (F := Ideal) (φ := .f32) (W6 m c main_v2 : S1024x2048.Idx → EReal) (W6 m c main_arg1 : S1024x2048.Idx → EReal)) (W6 m c main_v10 : S1024x2048.Idx → EReal)) := by
    show StableHlo.after hostOps3 (W6 m c) (Proc.devRef .tc main_v15) = _
    after_results
    rfl
  rw [e, W6_main_v2, W6_main_arg1, W6_main_v10]

end Cert.KernelIdeal.Val

end
-- ==== Proof.Spec.lean ====
/-
  The mathematics the two programs share, stated once over plain extended-real arrays and free of either
  program's text.  ec : [1024, 4096], dg : [1024, 2048], W : [2048, 4096].

  pre   = ec · Wᵀ + dg                                  (the first result)
  mean  = column mean of pre over the batch axis        (a [2048] vector, by host operations both programs share)
  Wnew  = W + lr · (preᵀ · ec / 1024 − mean ⊗ 1 · W)
  post  = ec · Wnewᵀ
  loss  = mean over all entries of (pre − dg − post)²   (the third and fourth results)

  The kernels accumulate each contraction in two halves into a zeroed accumulator (`mmK`, `outerK`) and scale by
  the dyadic 2⁻¹⁰; the reference contracts the whole axis at once (`mm`, `outer`) and divides by 1024.
-/
import Idealize.ShloMosaic.PureOps.Ideal
import Idealize.ShloMosaic.PureOps.Ideal.Laws
import Idealize.ShloMosaic.Lib.ValueIdx
import Mathlib.Algebra.BigOperators.Fin
import Mathlib.Data.EReal.Operations

noncomputable section

namespace Cert.Spec

open Idealize.ShloMosaic Idealize.ShloMosaic.ValueIdx

/-- Index types of the three argument shapes and of the [2048, 1] column. -/
abbrev IE := (⟨2, ![1024, 4096]⟩ : Shape).Idx
abbrev ID := (⟨2, ![1024, 2048]⟩ : Shape).Idx
abbrev IW := (⟨2, ![2048, 4096]⟩ : Shape).Idx

/-- The two halves of the 4096-long contraction axis. -/
def lo (k : Fin 2048) : Fin 4096 := ⟨k.val, by omega⟩
def hi (k : Fin 2048) : Fin 4096 := ⟨2048 + k.val, by omega⟩
/-- The two halves of the 1024-long batch axis. -/
def lo' (b : Fin 512) : Fin 1024 := ⟨b.val, by omega⟩
def hi' (b : Fin 512) : Fin 1024 := ⟨512 + b.val, by omega⟩

/-- `X · Yᵀ` at `(b, c)`, the whole contraction at once. -/
def mm (X : IE → EReal) (Y : IW → EReal) (b : Fin 1024) (c : Fin 2048) : EReal :=
  ∑ k : Fin 4096, X (ix2 b k) * Y (ix2 c k)

/-- The same as a kernel accumulates it: zero, plus the first half, plus the second half. -/
def mmK (X : IE → EReal) (Y : IW → EReal) (b : Fin 1024) (c : Fin 2048) : EReal :=
  (0 + ∑ k : Fin 2048, X (ix2 b (lo k)) * Y (ix2 c (lo k))) + ∑ k : Fin 2048, X (ix2 b (hi k)) * Y (ix2 c (hi k))

/-- `Tᵀ · X` at `(c, e)`, the whole batch at once. -/
def outer (T : ID → EReal) (X : IE → EReal) (c : Fin 2048) (e : Fin 4096) : EReal :=
  ∑ b : Fin 1024, T (ix2 b c) * X (ix2 b e)

/-- The same in two halves over a zeroed accumulator. -/
def outerK (T : ID → EReal) (X : IE → EReal) (c : Fin 2048) (e : Fin 4096) : EReal :=
  (0 + ∑ b : Fin 512, T (ix2 (lo' b) c) * X (ix2 (lo' b) e)) + ∑ b : Fin 512, T (ix2 (hi' b) c) * X (ix2 (hi' b) e)

/-- The learning rate and the two scale constants, as the words the programs print. -/
abbrev lrC : EReal := Ideal.ofBits .f32 0x3C23D70A#32
abbrev invC : EReal := Ideal.ofBits .f32 0x3A800000#32     -- 2⁻¹⁰, the kernel's factor
abbrev nC : EReal := Ideal.ofBits .f32 0x44800000#32       -- 1024, the reference's divisor

/-- The updated weight at `(c, e)` as the kernel computes it, from the targets `T`, the inputs `X`, the old
    weights `Wt` and the column mean `Mc`. -/
def wnewK (T : ID → EReal) (X : IE → EReal) (Wt : IW → EReal) (Mc : Fin 2048 → EReal) (c : Fin 2048) (e : Fin 4096) : EReal :=
  Wt (ix2 c e) + lrC * (outerK T X c e * invC - Mc c * Wt (ix2 c e))

/-- The same as the reference computes it. -/
def wnewR (T : ID → EReal) (X : IE → EReal) (Wt : IW → EReal) (Mc : Fin 2048 → EReal) (c : Fin 2048) (e : Fin 4096) : EReal :=
  Wt (ix2 c e) + lrC * (Ideal.div (outer T X c e) nC - Mc c * Wt (ix2 c e))

/-! ## The laws -/

/-- A sum over 4096 = 2048 + 2048 indices is the sum over the first half plus the sum over the second half;
    a zero in front changes nothing.  Addition of extended reals is commutative and associative everywhere,
    so no finiteness is asked of f. -/
theorem sum_halves_4096 (f : Fin 4096 → EReal) :
    (0 + ∑ k : Fin 2048, f (lo k)) + ∑ k : Fin 2048, f (hi k) = ∑ k : Fin 4096, f k := by
  rw [zero_add]
  have h := Fin.sum_univ_add (a := 2048) (b := 2048) (fun i : Fin (2048 + 2048) => f i)
  have hlo : ∀ k : Fin 2048, (Fin.castAdd 2048 k : Fin (2048 + 2048)) = lo k := fun k => Fin.ext rfl
  have hhi : ∀ k : Fin 2048, (Fin.natAdd 2048 k : Fin (2048 + 2048)) = hi k := fun k => Fin.ext rfl
  simp only [hlo, hhi] at h
  exact h.symm

/-- The same for 1024 = 512 + 512. -/
theorem sum_halves_1024 (f : Fin 1024 → EReal) :
    (0 + ∑ b : Fin 512, f (lo' b)) + ∑ b : Fin 512, f (hi' b) = ∑ b : Fin 1024, f b := by
  rw [zero_add]
  have h := Fin.sum_univ_add (a := 512) (b := 512) (fun i : Fin (512 + 512) => f i)
  have hlo : ∀ k : Fin 512, (Fin.castAdd 512 k : Fin (512 + 512)) = lo' k := fun k => Fin.ext rfl
  have hhi : ∀ k : Fin 512, (Fin.natAdd 512 k : Fin (512 + 512)) = hi' k := fun k => Fin.ext rfl
  simp only [hlo, hhi] at h
  exact h.symm

theorem mmK_eq_mm (X : IE → EReal) (Y : IW → EReal) (b : Fin 1024) (c : Fin 2048) : mmK X Y b c = mm X Y b c := by
  unfold mmK mm
  exact sum_halves_4096 (fun k => X (ix2 b k) * Y (ix2 c k))

theorem outerK_eq_outer (T : ID → EReal) (X : IE → EReal) (c : Fin 2048) (e : Fin 4096) : outerK T X c e = outer T X c e := by
  unfold outerK outer
  exact sum_halves_1024 (fun b => T (ix2 b c) * X (ix2 b e))

/-- The word 0x3A800000 (sign 0, exponent field 117, mantissa 0) denotes 2⁻¹⁰ = 1/1024. -/
theorem invC_eq : invC = ((1 / 1024 : ℝ) : EReal) := by
  simp [Ideal.ofBits, Ideal.ieee, -EReal.coe_mul]; norm_num

/-- The word 0x44800000 (sign 0, exponent field 137, mantissa 0) denotes 2¹⁰ = 1024. -/
theorem nC_eq : nC = ((1024 : ℝ) : EReal) := by
  simp [Ideal.ofBits, Ideal.ieee, -EReal.coe_mul]; norm_num

/-- Scaling by 2⁻¹⁰ is dividing by 1024, for every extended real. -/
theorem mul_invC_eq_div_nC (x : EReal) : x * invC = Ideal.div x nC := by
  rw [invC_eq, nC_eq, Ideal.div_coe (by norm_num : (1024 : ℝ) ≠ 0)]

theorem wnewK_eq_wnewR (T : ID → EReal) (X : IE → EReal) (Wt : IW → EReal) (Mc : Fin 2048 → EReal) (c : Fin 2048) (e : Fin 4096) :
    wnewK T X Wt Mc c e = wnewR T X Wt Mc c e := by
  unfold wnewK wnewR
  rw [outerK_eq_outer, mul_invC_eq_div_nC]

/-- Adding a finite number and taking it away again changes nothing. -/
theorem add_sub_cancel_fin (a d : EReal) (hd : d ≠ ⊤) (hd' : d ≠ ⊥) : a + d - d = a := by
  rw [← EReal.coe_toReal hd hd']
  exact EReal.add_sub_cancel_right

/-- A finite number added to both sides of a difference cancels. -/
theorem add_sub_add_fin (a q d : EReal) (hd : d ≠ ⊤) (hd' : d ≠ ⊥) : (d + a) - (d + q) = a - q := by
  rw [← EReal.coe_toReal hd hd']
  rw [EReal.add_sub_add_comm (.inl (EReal.coe_ne_bot _)) (.inl (EReal.coe_ne_top _)),
    ← EReal.coe_sub, sub_self, EReal.coe_zero, zero_add]

end Cert.Spec

end
-- ==== Proof.KernelIdeal.V0.lean ====
/-
  Region 0, read as values at the ideal instance: the output array of the first tiled product, index by index.

  A point (i, j, k) of the grid (4, 2, 2) holds rows 256 i … of ec, rows 1024 j … of W, half k of the 4096-long
  contraction, and block (i, j) of dg and of the result.  The block written back at an odd point (k = 1) is, at
  (p, q) inside the block, zero plus the first half's dot product plus the second half's plus the dg entry; the
  blocks of the odd points tile the [1024, 2048] result, so the array ends at  ec · Wᵀ (in two halves) + dg.
-/
import proofs.«174496_j87144886436114_1_alg».proof.Proof.KernelIdeal.R0Dat
import proofs.«174496_j87144886436114_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx
open Idealize.SL.Sem

/-! ## The block product at an index -/

/-- The left operand of the block product is read at the output's row … -/
theorem lhs_mm0_0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
/-- … and at the contraction index; -/
theorem lhs_mm0_1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
/-- the right operand at the output's column, as its row, … -/
theorem rhs_mm0_0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
/-- … and at the contraction index. -/
theorem rhs_mm0_1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The block product into a zero accumulator, at (p, q): the dot product of row p of the left block with row q of
    the right block over the 2048 contraction indices of the half. -/
theorem mm0_apply (x : FVec Ideal S256x2048 .bf16) (y : FVec Ideal S1024x2048 .bf16) (p : Fin 256) (q : Fin 1024) :
    FloatOps.matmul (φ₁ := .bf16) (φ₂ := .bf16) dot_S256x2048_S1024x2048_S256x1024_1_1_0_0_n_n none x y (constant (F := Ideal) S256x1024 .f32 0x00000000#32) (ix2 p q)
      = ∑ k : Fin 2048, x (ix2 p k) * y (ix2 q k) := by
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p q) ((contrEquiv1 dot_S256x2048_S1024x2048_S256x1024_1_1_0_0_n_n 2048 rfl rfl).symm k) = ix2 p k := funext fun a => Fin.ext (by
    match a with
    | ⟨0, _⟩ => exact lhs_mm0_0 _ _
    | ⟨1, _⟩ => exact (lhs_mm0_1 _ _).trans hk)
  have er : dot_S256x2048_S1024x2048_S256x1024_1_1_0_0_n_n.rhsIdx (ix2 p q) ((contrEquiv1 dot_S256x2048_S1024x2048_S256x1024_1_1_0_0_n_n 2048 rfl rfl).symm k) = ix2 q k := funext fun a => Fin.ext (by
    match a with
    | ⟨0, _⟩ => exact rhs_mm0_0 _ _
    | ⟨1, _⟩ => exact (rhs_mm0_1 _ _).trans hk)
  rw [el, er]

/-- The accumulating step at (p, q): what the accumulator held plus the half's dot product. -/
theorem k0_pay2_apply (s : Vec Ideal S256x1024 .f32) (x : Vec Ideal S256x2048 .bf16) (y : Vec Ideal S1024x2048 .bf16) (p : Fin 256) (q : Fin 1024) :
    k0_pay2 (F := Ideal) s x y (ix2 p q) = s (ix2 p q) + ∑ k : Fin 2048, x (ix2 p k) * y (ix2 q k) := by
  unfold k0_pay2
  simp only [shapeCast_self, matmul]
  rw [addf_apply, mm0_apply]

/-- The zeroed accumulator at (p, q). -/
theorem k0_pay1_apply (p : Fin 256) (q : Fin 1024) : k0_pay1 (F := Ideal) (ix2 p q) = 0 := by
  unfold k0_pay1
  simp only [shapeCast_self]
  rw [broadcast_apply]
  exact Ideal.ofBits_zero_f32

/-- THE STORED BLOCK at (p, q): zero, plus the first half's dot product, plus the second half's, plus the dg entry. -/
theorem out_apply (xa : Vec Ideal S256x2048 .bf16) (ya : Vec Ideal S1024x2048 .bf16) (xb : Vec Ideal S256x2048 .bf16) (yb : Vec Ideal S1024x2048 .bf16)
    (db : Vec Ideal S256x1024 .f32) (p : Fin 256) (q : Fin 1024) :
    outB0 (F := Ideal) (accA0 xa ya) xb yb db (ix2 p q)
      = ((0 + ∑ k : Fin 2048, xa (ix2 p k) * ya (ix2 q k)) + ∑ k : Fin 2048, xb (ix2 p k) * yb (ix2 q k)) + db (ix2 p q) := by
  unfold outB0 accA0 k0_pay3
  rw [addf_apply, k0_pay2_apply, k0_pay2_apply, k0_pay1_apply]

/-! ## Where a point's blocks sit -/

/-- The blocks' index maps over the grid: a point t is (t / 4, t / 2 mod 2, t mod 2); the ec block is
    (row block, half), the W block (column block, half), the dg and the result block (row block, column block). -/
theorem idx_facts0 : ∀ t : Fin cfg0.N,
    win0_0.index t (0 : Fin 2) = t.val / 4 ∧ win0_0.index t (1 : Fin 2) = t.val % 2
    ∧ win0_1.index t (0 : Fin 2) = t.val / 2 % 2 ∧ win0_1.index t (1 : Fin 2) = t.val % 2
    ∧ win0_2.index t (0 : Fin 2) = t.val / 4 ∧ win0_2.index t (1 : Fin 2) = t.val / 2 % 2
    ∧ win0_3.index t (0 : Fin 2) = t.val / 4 ∧ win0_3.index t (1 : Fin 2) = t.val / 2 % 2 :=
  (by decide +kernel : ∀ t : Fin grid0.N, _)

variable (V : (c : Dev nD) → (b : Ref sig .tc) → Buf (Elt Ideal) ((c : Thread nD τ).loc b))

/-- An entry of the ec block at a point is the entry of ec at the block's offset plus the entry's own coordinates. -/
theorem xb0_apply (c : Dev nD) (t : Fin cfg0.N) (p : Fin 256) (k : Fin 2048) (i : IE)
    (h0 : (i 0).val = win0_0.index t (0 : Fin 2) * 256 + p.val) (h1 : (i 1).val = win0_0.index t (1 : Fin 2) * 2048 + k.val) :
    (xb0 (F := Ideal) V c t) (ix2 p k) = (V c main_v0 : IE → EReal) i := by
  unfold xb0 iblk0
  rw [View.read_apply]
  show (V c main_v0 : IE → EReal) _ = (V c main_v0 : IE → EReal) _
  congr 1
  funext a
  apply Fin.ext
  match a with
  | ⟨0, _⟩ => show win0_0.index t (0 : Fin 2) * 256 + 1 * p.val = (i 0).val; omega
  | ⟨1, _⟩ => show win0_0.index t (1 : Fin 2) * 2048 + 1 * k.val = (i 1).val; omega

/-- The same for the W block … -/
theorem yb0_apply (c : Dev nD) (t : Fin cfg0.N) (q : Fin 1024) (k : Fin 2048) (i : IW)
    (h0 : (i 0).val = win0_1.index t (0 : Fin 2) * 1024 + q.val) (h1 : (i 1).val = win0_1.index t (1 : Fin 2) * 2048 + k.val) :
    (yb0 (F := Ideal) V c t) (ix2 q k) = (V c main_v1 : IW → EReal) i := by
  unfold yb0 iblk0
  rw [View.read_apply]
  show (V c main_v1 : IW → EReal) _ = (V c main_v1 : IW → EReal) _
  congr 1
  funext a
  apply Fin.ext
  match a with
  | ⟨0, _⟩ => show win0_1.index t (0 : Fin 2) * 1024 + 1 * q.val = (i 0).val; omega
  | ⟨1, _⟩ => show win0_1.index t (1 : Fin 2) * 2048 + 1 * k.val = (i 1).val; omega

/-- … and for the dg block. -/
theorem db0_apply (c : Dev nD) (t : Fin cfg0.N) (p : Fin 256) (q : Fin 1024) (i : ID)
    (h0 : (i 0).val = win0_2.index t (0 : Fin 2) * 256 + p.val) (h1 : (i 1).val = win0_2.index t (1 : Fin 2) * 1024 + q.val) :
    (db0 (F := Ideal) V c t) (ix2 p q) = (V c main_arg1 : ID → EReal) i := by
  unfold db0 iblk0
  rw [View.read_apply]
  show (V c main_arg1 : ID → EReal) _ = (V c main_arg1 : ID → EReal) _
  congr 1
  funext a
  apply Fin.ext
  match a with
  | ⟨0, _⟩ => show win0_2.index t (0 : Fin 2) * 256 + 1 * p.val = (i 0).val; omega
  | ⟨1, _⟩ => show win0_2.index t (1 : Fin 2) * 1024 + 1 * q.val = (i 1).val; omega

/-! ## The block a last-half point writes back -/

/-- The row of the result an entry of point t's block sits on, and its column. -/
def rowAt (t : Fin cfg0.N) (p : Fin 256) : Fin 1024 :=
  ⟨t.val / 4 * 256 + p.val, by have hN : t.val < 16 := lt_of_lt_of_eq t.isLt (show cfg0.N = 16 from N_0); have hp := p.isLt; omega⟩
def colAt (t : Fin cfg0.N) (q : Fin 1024) : Fin 2048 :=
  ⟨t.val / 2 % 2 * 1024 + q.val, by have hq := q.isLt; omega⟩

/-- What the region leaves in the result: ec · Wᵀ accumulated in two halves, plus dg, index by index. -/
def G0 (X : IE → EReal) (Y : IW → EReal) (Dg : ID → EReal) : ID → EReal := fun i => mmK X Y (i 0) (i 1) + Dg i

/-- At a last-half point t (odd), the stored block at (p, q) is the result's entry at (rowAt t p, colAt t q): the
    point before holds the same rows of ec and of W on the first half of the contraction, t itself on the second. -/
theorem oAt0_apply (c : Dev nD) (t : Fin cfg0.N) (hodd : t.val % 2 = 1) (p : Fin 256) (q : Fin 1024) :
    oAt0 (F := Ideal) V c t (ix2 p q)
      = mmK (V c main_v0) (V c main_v1) (rowAt t p) (colAt t q) + (V c main_arg1 : ID → EReal) (ix2 (rowAt t p) (colAt t q)) := by
  have hN : t.val < 16 := lt_of_lt_of_eq t.isLt (show cfg0.N = 16 from N_0)
  obtain ⟨a0, a1, b0, b1, d0, d1, -, -⟩ := idx_facts0 t
  obtain ⟨a0', a1', b0', b1', -, -, -, -⟩ := idx_facts0 (prev0 t)
  have hp : (prev0 t).val = t.val - 1 := rfl
  have hA : ∀ k : Fin 2048, xb0 (F := Ideal) V c (prev0 t) (ix2 p k) = (V c main_v0 : IE → EReal) (ix2 (rowAt t p) (lo k)) := fun k =>
    xb0_apply V c (prev0 t) p k (ix2 (rowAt t p) (lo k))
      (by show t.val / 4 * 256 + p.val = win0_0.index (prev0 t) (0 : Fin 2) * 256 + p.val; rw [a0', hp]; omega)
      (by show k.val = win0_0.index (prev0 t) (1 : Fin 2) * 2048 + k.val; rw [a1', hp]; omega)
  have hB : ∀ k : Fin 2048, yb0 (F := Ideal) V c (prev0 t) (ix2 q k) = (V c main_v1 : IW → EReal) (ix2 (colAt t q) (lo k)) := fun k =>
    yb0_apply V c (prev0 t) q k (ix2 (colAt t q) (lo k))
      (by show t.val / 2 % 2 * 1024 + q.val = win0_1.index (prev0 t) (0 : Fin 2) * 1024 + q.val; rw [b0', hp]; omega)
      (by show k.val = win0_1.index (prev0 t) (1 : Fin 2) * 2048 + k.val; rw [b1', hp]; omega)
  have hC : ∀ k : Fin 2048, xb0 (F := Ideal) V c t (ix2 p k) = (V c main_v0 : IE → EReal) (ix2 (rowAt t p) (hi k)) := fun k =>
    xb0_apply V c t p k (ix2 (rowAt t p) (hi k))
      (by show t.val / 4 * 256 + p.val = win0_0.index t (0 : Fin 2) * 256 + p.val; rw [a0])
      (by show 2048 + k.val = win0_0.index t (1 : Fin 2) * 2048 + k.val; rw [a1]; omega)
  have hD : ∀ k : Fin 2048, yb0 (F := Ideal) V c t (ix2 q k) = (V c main_v1 : IW → EReal) (ix2 (colAt t q) (hi k)) := fun k =>
    yb0_apply V c t q k (ix2 (colAt t q) (hi k))
      (by show t.val / 2 % 2 * 1024 + q.val = win0_1.index t (0 : Fin 2) * 1024 + q.val; rw [b0])
      (by show 2048 + k.val = win0_1.index t (1 : Fin 2) * 2048 + k.val; rw [b1]; omega)
  have hE : db0 (F := Ideal) V c t (ix2 p q) = (V c main_arg1 : ID → EReal) (ix2 (rowAt t p) (colAt t q)) :=
    db0_apply V c t p q (ix2 (rowAt t p) (colAt t q))
      (by show t.val / 4 * 256 + p.val = win0_2.index t (0 : Fin 2) * 256 + p.val; rw [d0])
      (by show t.val / 2 % 2 * 1024 + q.val = win0_2.index t (1 : Fin 2) * 1024 + q.val; rw [d1])
  unfold oAt0
  rw [out_apply]
  unfold mmK
  simp only [hA, hB, hC, hD, hE]

/-- WHAT A LAST-HALF POINT WRITES BACK is its block of the result. -/
theorem flushed3_eq (c : Dev nD) (t : Fin cfg0.N) (hf : (cfg0.win 3).flush t = true) :
    (dat0 (F := Ideal) V c).flushed 3 t
      = ((cfg0.win 3).blk t).view.read (Elt Ideal) (G0 (V c main_v0) (V c main_v1) (V c main_arg1)) := by
  have hodd : t.val % 2 = 1 := (flush0_3 t).mp hf
  obtain ⟨-, -, -, -, -, -, o0, o1⟩ := idx_facts0 t
  show (cfg0.win 3).cut (grid0.coords t) ((dat0 V c).after 3 t) = _
  rw [after0_3]
  refine funext fun (j : S256x1024.Idx) => ?_
  obtain ⟨p, q, rfl⟩ : ∃ (p : Fin 256) (q : Fin 1024), j = ix2 p q := ⟨j 0, j 1, eq_ix2 j⟩
  have he : ((cfg0.win 3).blk t).view.emb (ix2 p q) = (ix2 (rowAt t p) (colAt t q) : ID) := by
    funext a
    apply Fin.ext
    match a with
    | ⟨0, _⟩ => show win0_3.index t (0 : Fin 2) * 256 + 1 * p.val = t.val / 4 * 256 + p.val; rw [o0]; omega
    | ⟨1, _⟩ => show win0_3.index t (1 : Fin 2) * 1024 + 1 * q.val = t.val / 2 % 2 * 1024 + q.val; rw [o1]; omega
  show oAt0 (F := Ideal) V c t (ix2 p q) = G0 (V c main_v0) (V c main_v1) (V c main_arg1) (((cfg0.win 3).blk t).view.emb (ix2 p q))
  rw [he, oAt0_apply V c t hodd p q]
  rfl

/-! ## The blocks of the last-half points tile the result -/

/-- THE RESULT ARRAY after the region. -/
theorem final0 (c : Dev nD) :
    (dat0 (F := Ideal) V c).arrAt 3 cfg0.N = G0 (V c main_v0) (V c main_v1) (V c main_arg1) :=
  (dat0 (F := Ideal) V c).arrAt_eq_of_cover 3 (G0 (V c main_v0) (V c main_v1) (V c main_arg1)) (fun t hf => flushed3_eq V c t hf) fun i => by
    have h0 : (i 0).val < 1024 := (i 0).isLt
    have h1 : (i 1).val < 2048 := (i 1).isLt
    have hN : cfg0.N = 16 := N_0
    obtain ⟨t, htv⟩ : ∃ t : Fin cfg0.N, t.val = (i 0).val / 256 * 4 + (i 1).val / 1024 * 2 + 1 :=
      ⟨⟨(i 0).val / 256 * 4 + (i 1).val / 1024 * 2 + 1, by rw [hN]; omega⟩, rfl⟩
    obtain ⟨-, -, -, -, -, -, o0, o1⟩ := idx_facts0 t
    refine ⟨t, (flush0_3 t).mpr (by rw [htv]; omega), ?_⟩
    show i ∈ ((View.whole main_v2).slice (win0_3.rect t)).set
    rw [View.set_slice_whole, Rect.mem_set_unit]
    intro a
    match a with
    | ⟨0, _⟩ =>
      show win0_3.index t (0 : Fin 2) * 256 ≤ (i 0).val ∧ (i 0).val < win0_3.index t (0 : Fin 2) * 256 + 256
      rw [o0, htv]; omega
    | ⟨1, _⟩ =>
      show win0_3.index t (1 : Fin 2) * 1024 ≤ (i 1).val ∧ (i 1).val < win0_3.index t (1 : Fin 2) * 1024 + 1024
      rw [o1, htv]; omega

/-- The result of the first tiled product at (b, cc): the two-half dot product of row b of ec with row cc of W,
    plus the dg entry. -/
theorem out0_apply (V : (c : Dev nD) → (b : Ref sig .tc) → Buf (Elt Ideal) ((c : Thread nD τ).loc b)) (c : Dev nD) (b : Fin 1024) (cc : Fin 2048) :
    ((dat0 (F := Ideal) V c).arrAt 3 cfg0.N : S1024x2048.Idx → EReal) (ix2 b cc)
      = mmK (V c main_v0) (V c main_v1) b cc + (V c main_arg1 : S1024x2048.Idx → EReal) (ix2 b cc) := by
  rw [final0 V c]
  rfl

end Cert.KernelIdeal.Val

end
-- ==== Proof.KernelIdeal.V1.lean ====
/-
  The value of region 1's output array at the ideal instance, index by index.

  Region 1 is the weight update on the grid (4, 4, 2): the point with coordinates (ci, ei, k) works on columns
  512 ci … of the targets [1024, 2048], columns 1024 ei … of the inputs [1024, 4096] and rows 512 k … of both.
  The accumulator contracts the row axis of both blocks, half k = 0 first and half k = 1 on top of it; the block
  stored at k = 1 is old + lr · (accumulator · 2⁻¹⁰ − mean ⊗ 1 · old).  The stored blocks tile the [2048, 4096]
  array, so it ends holding that update at every index, the contraction over the 1024 rows in its two halves.
-/
import proofs.«174496_j87144886436114_1_alg».proof.Proof.KernelIdeal.R1Dat
import proofs.«174496_j87144886436114_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.ValueIdx
open Idealize.SL Idealize.SL.Sem
open Idealize.ShloMosaic.Pipeline (Dat)

/-! ## The body's arithmetic at a block index -/

/-- The product's left operand is read at (contraction coordinate, row of the result). -/
theorem lhs1_0 (i : S512x1024.Idx) (q : dot_S512x512_S512x1024_S512x1024_0_0_1_1_n_n.contr.Idx) :
    (dot_S512x512_S512x1024_S512x1024_0_0_1_1_n_n.lhsIdx i q 0).val = (q ⟨0, by decide⟩).val :=
  dot_S512x512_S512x1024_S512x1024_0_0_1_1_n_n.lhsIdx_val_of_single rfl i q
theorem lhs1_1 (i : S512x1024.Idx) (q : dot_S512x512_S512x1024_S512x1024_0_0_1_1_n_n.contr.Idx) :
    (dot_S512x512_S512x1024_S512x1024_0_0_1_1_n_n.lhsIdx i q 1).val = (i 0).val := by
  unfold DotDims.lhsIdx
  rw [dif_neg (show ¬(1 : Fin S512x512.rank) ∈ dot_S512x512_S512x1024_S512x1024_0_0_1_1_n_n.lhsBatch by decide), dif_pos (show (1 : Fin S512x512.rank) ∈ dot_S512x512_S512x1024_S512x1024_0_0_1_1_n_n.lhsNonContracting by decide)]
  rfl
/-- The right operand at (contraction coordinate, column of the result). -/
theorem rhs1_0 (i : S512x1024.Idx) (q : dot_S512x512_S512x1024_S512x1024_0_0_1_1_n_n.contr.Idx) :
    (dot_S512x512_S512x1024_S512x1024_0_0_1_1_n_n.rhsIdx i q 0).val = (q ⟨0, by decide⟩).val :=
  dot_S512x512_S512x1024_S512x1024_0_0_1_1_n_n.rhsIdx_val_of_single rfl i q
theorem rhs1_1 (i : S512x1024.Idx) (q : dot_S512x512_S512x1024_S512x1024_0_0_1_1_n_n.contr.Idx) :
    (dot_S512x512_S512x1024_S512x1024_0_0_1_1_n_n.rhsIdx i q 1).val = (i 1).val := by
  unfold DotDims.rhsIdx
  rw [dif_neg (show ¬(1 : Fin S512x1024.rank) ∈ dot_S512x512_S512x1024_S512x1024_0_0_1_1_n_n.rhsBatch by decide), dif_pos (show (1 : Fin S512x1024.rank) ∈ dot_S512x512_S512x1024_S512x1024_0_0_1_1_n_n.rhsNonContracting by decide)]
  rfl

/-- The product into a zero accumulator, at (p, q): the sum over the 512 rows of left (r, p) times right (r, q). -/
theorem matmul1_apply (l : FVec Ideal S512x512 .bf16) (r : FVec Ideal S512x1024 .bf16) (p : Fin 512) (q : Fin 1024) :
    matmul dot_S512x512_S512x1024_S512x1024_0_0_1_1_n_n none l r (constant (F := Ideal) S512x1024 .f32 0x00000000#32) (ix2 p q)
      = ∑ k : Fin 512, l (ix2 k p) * r (ix2 k q) := by
  simp only [matmul]
  rw [Ideal.matmul_constant_zero_apply, ← Equiv.sum_comp (contrEquiv1 dot_S512x512_S512x1024_S512x1024_0_0_1_1_n_n 512 rfl rfl).symm]
  refine Finset.sum_congr rfl fun k _ => ?_
  have hk := contrEquiv1_symm_val dot_S512x512_S512x1024_S512x1024_0_0_1_1_n_n 512 rfl rfl k
  have el : dot_S512x512_S512x1024_S512x1024_0_0_1_1_n_n.lhsIdx (ix2 p q) ((contrEquiv1 dot_S512x512_S512x1024_S512x1024_0_0_1_1_n_n 512 rfl rfl).symm k) = ix2 k p := funext fun a => Fin.ext (by
    match a with
    | ⟨0, _⟩ => exact (lhs1_0 _ _).trans hk
    | ⟨1, _⟩ => exact lhs1_1 _ _)
  have er : dot_S512x512_S512x1024_S512x1024_0_0_1_1_n_n.rhsIdx (ix2 p q) ((contrEquiv1 dot_S512x512_S512x1024_S512x1024_0_0_1_1_n_n 512 rfl rfl).symm k) = ix2 k q := funext fun a => Fin.ext (by
    match a with
    | ⟨0, _⟩ => exact (rhs1_0 _ _).trans hk
    | ⟨1, _⟩ => exact rhs1_1 _ _)
  rw [el, er]

/-- The mean column spread along the rows, at (p, q): the column's entry at row p. -/
theorem column1_apply (m : FVec Ideal S512x1 .f32) (p : Fin 512) (q : Fin 1024) :
    broadcastTo S512x1024 m broadcasts_S512x1_S512x1024 (ix2 p q) = m (ix2 p (0 : Fin 1)) := by
  refine broadcastTo_apply m broadcasts_S512x1_S512x1024 (ix2 p q) (ix2 p (0 : Fin 1)) fun a => ?_
  match a with
  | ⟨0, _⟩ => rfl
  | ⟨1, _⟩ => rfl

/-- One accumulation step at (p, q): what the accumulator held plus the half's product. -/
theorem pay2_apply1 (acc : Vec Ideal S512x1024 .f32) (t : Vec Ideal S512x512 .bf16) (x : Vec Ideal S512x1024 .bf16) (p : Fin 512) (q : Fin 1024) :
    k1_pay2 (F := Ideal) acc t x (ix2 p q) = acc (ix2 p q) + ∑ r : Fin 512, (t (ix2 r p) : EReal) * (x (ix2 r q) : EReal) := by
  unfold k1_pay2
  simp only [shapeCast_self]
  rw [addf_apply, matmul1_apply]

/-- The zeroed accumulator at any index. -/
theorem pay1_apply1 (j : S512x1024.Idx) : k1_pay1 (F := Ideal) j = 0 := by
  unfold k1_pay1
  simp only [shapeCast_self]
  rw [broadcast_apply]
  exact Ideal.ofBits_zero_f32

/-- The stored block at (p, q), from the two halves' blocks (ta, ea at k = 0; tb, eb at k = 1), the old weights
    block wb and the mean column block mb. -/
theorem outB1_apply (ta : Vec Ideal S512x512 .bf16) (ea : Vec Ideal S512x1024 .bf16) (tb : Vec Ideal S512x512 .bf16) (eb : Vec Ideal S512x1024 .bf16)
    (wb : Vec Ideal S512x1024 .f32) (mb : Vec Ideal S512x1 .f32) (p : Fin 512) (q : Fin 1024) :
    outB1 (F := Ideal) (accA1 ta ea) tb eb wb mb (ix2 p q)
      = (wb (ix2 p q) : EReal) + lrC * (((0 + ∑ r : Fin 512, (ta (ix2 r p) : EReal) * (ea (ix2 r q) : EReal)) + ∑ r : Fin 512, (tb (ix2 r p) : EReal) * (eb (ix2 r q) : EReal)) * invC
          - (mb (ix2 p (0 : Fin 1)) : EReal) * (wb (ix2 p q) : EReal)) := by
  unfold outB1 accA1 k1_pay3
  simp only [shapeCast_self]
  rw [addf_apply, mulf_apply, subf_apply, mulf_apply, mulf_apply, broadcast_apply, broadcast_apply, column1_apply,
    pay2_apply1, pay2_apply1, pay1_apply1]
  rfl

/-! ## The windows' blocks as parts of their arrays -/

/-- The printed index maps, decided over the grid: the point t has coordinates (t / 8, t / 2 mod 4, t mod 2). -/
theorem idx_facts1 : ∀ t : Fin cfg1.N,
    win1_0.index t (0 : Fin 2) = t.val % 2 ∧ win1_0.index t (1 : Fin 2) = t.val / 8
    ∧ win1_1.index t (0 : Fin 2) = t.val % 2 ∧ win1_1.index t (1 : Fin 2) = t.val / 2 % 4
    ∧ win1_2.index t (0 : Fin 2) = t.val / 8 ∧ win1_2.index t (1 : Fin 2) = t.val / 2 % 4
    ∧ win1_3.index t (0 : Fin 2) = t.val / 8 ∧ win1_3.index t (1 : Fin 2) = 0
    ∧ win1_4.index t (0 : Fin 2) = t.val / 8 ∧ win1_4.index t (1 : Fin 2) = t.val / 2 % 4 :=
  (by decide +kernel : ∀ t : Fin grid1.N, _)

-- the core's buffer contents when the region is entered
variable (V : (c : Dev nD) → (b : Ref sig .tc) → Buf (Elt Ideal) ((c : Thread nD τ).loc b))

/-- The four arrays the region reads, at their literal types: targets, inputs, old weights, mean column. -/
abbrev T1 (c : Dev nD) : S1024x2048.Idx → EReal := V c main_v7
abbrev X1 (c : Dev nD) : S1024x4096.Idx → EReal := V c main_v0
abbrev W1 (c : Dev nD) : S2048x4096.Idx → EReal := V c main_arg2
abbrev M1 (c : Dev nD) : S2048x1.Idx → EReal := V c main_v6

/-- The targets block at point t is rows 512 (t mod 2) … and columns 512 (t / 8) … of the targets. -/
theorem tblk1_apply (c : Dev nD) (t : Fin cfg1.N) (a : Fin 512) (b : Fin 512) (k : S1024x2048.Idx)
    (h0 : (k 0).val = (t.val % 2) * 512 + a.val) (h1 : (k 1).val = (t.val / 8) * 512 + b.val) :
    (tb1 V c t (ix2 a b) : EReal) = T1 V c k := by
  have hf := idx_facts1 t
  unfold tb1 iblk1 T1
  rw [View.read_apply]
  show (V c main_v7 : S1024x2048.Idx → EReal) _ = (V c main_v7 : S1024x2048.Idx → EReal) k
  congr 1
  funext x
  apply Fin.ext
  match x with
  | ⟨0, _⟩ => show win1_0.index t (0 : Fin 2) * 512 + 1 * a.val = (k 0).val; rw [hf.1, h0]; omega
  | ⟨1, _⟩ => show win1_0.index t (1 : Fin 2) * 512 + 1 * b.val = (k 1).val; rw [hf.2.1, h1]; omega
/-- The inputs block: rows 512 (t mod 2) …, columns 1024 (t / 2 mod 4) … of the inputs. -/
theorem eblk1_apply (c : Dev nD) (t : Fin cfg1.N) (a : Fin 512) (b : Fin 1024) (k : S1024x4096.Idx)
    (h0 : (k 0).val = (t.val % 2) * 512 + a.val) (h1 : (k 1).val = (t.val / 2 % 4) * 1024 + b.val) :
    (eb1 V c t (ix2 a b) : EReal) = X1 V c k := by
  have hf := idx_facts1 t
  unfold eb1 iblk1 X1
  rw [View.read_apply]
  show (V c main_v0 : S1024x4096.Idx → EReal) _ = (V c main_v0 : S1024x4096.Idx → EReal) k
  congr 1
  funext x
  apply Fin.ext
  match x with
  | ⟨0, _⟩ => show win1_1.index t (0 : Fin 2) * 512 + 1 * a.val = (k 0).val; rw [hf.2.2.1, h0]; omega
  | ⟨1, _⟩ => show win1_1.index t (1 : Fin 2) * 1024 + 1 * b.val = (k 1).val; rw [hf.2.2.2.1, h1]; omega
/-- The old-weights block: rows 512 (t / 8) …, columns 1024 (t / 2 mod 4) … of the old weights. -/
theorem wblk1_apply (c : Dev nD) (t : Fin cfg1.N) (a : Fin 512) (b : Fin 1024) (k : S2048x4096.Idx)
    (h0 : (k 0).val = (t.val / 8) * 512 + a.val) (h1 : (k 1).val = (t.val / 2 % 4) * 1024 + b.val) :
    (wb1 V c t (ix2 a b) : EReal) = W1 V c k := by
  have hf := idx_facts1 t
  unfold wb1 iblk1 W1
  rw [View.read_apply]
  show (V c main_arg2 : S2048x4096.Idx → EReal) _ = (V c main_arg2 : S2048x4096.Idx → EReal) k
  congr 1
  funext x
  apply Fin.ext
  match x with
  | ⟨0, _⟩ => show win1_2.index t (0 : Fin 2) * 512 + 1 * a.val = (k 0).val; rw [hf.2.2.2.2.1, h0]; omega
  | ⟨1, _⟩ => show win1_2.index t (1 : Fin 2) * 1024 + 1 * b.val = (k 1).val; rw [hf.2.2.2.2.2.1, h1]; omega
/-- The mean column block: rows 512 (t / 8) … of the mean column. -/
theorem mblk1_apply (c : Dev nD) (t : Fin cfg1.N) (a : Fin 512) (b : Fin 1) (k : S2048x1.Idx)
    (h0 : (k 0).val = (t.val / 8) * 512 + a.val) (h1 : (k 1).val = 0 * 1 + b.val) :
    (mb1 V c t (ix2 a b) : EReal) = M1 V c k := by
  have hf := idx_facts1 t
  unfold mb1 iblk1 M1
  rw [View.read_apply]
  show (V c main_v6 : S2048x1.Idx → EReal) _ = (V c main_v6 : S2048x1.Idx → EReal) k
  congr 1
  funext x
  apply Fin.ext
  match x with
  | ⟨0, _⟩ => show win1_3.index t (0 : Fin 2) * 512 + 1 * a.val = (k 0).val; rw [hf.2.2.2.2.2.2.1, h0]; omega
  | ⟨1, _⟩ => show win1_3.index t (1 : Fin 2) * 1 + 1 * b.val = (k 1).val; rw [hf.2.2.2.2.2.2.2.1, h1]; omega

/-! ## What the array ends holding -/

/-- The updated weights, index by index: the specification's kernel-side form at the arrays the region finds. -/
def G1 (c : Dev nD) : S2048x4096.Idx → EReal := fun i =>
  wnewK (T1 V c) (X1 V c) (W1 V c) (fun c' => M1 V c (ix2 c' (0 : Fin 1))) (i 0) (i 1)

/-- The block an odd point t stores, at (p, q), is the update at the array index that block coordinate sits at:
    the point before t brings the first 512 rows of the batch axis, t itself the last 512. -/
theorem stored1_eq (c : Dev nD) (t : Fin cfg1.N) (hodd : t.val % 2 = 1) (p : Fin 512) (q : Fin 1024) (i : S2048x4096.Idx)
    (hi0 : (i 0).val = (t.val / 8) * 512 + p.val) (hi1 : (i 1).val = (t.val / 2 % 4) * 1024 + q.val) :
    oAt1 V c t (ix2 p q) = G1 V c i := by
  have hs : (prev1 t).val = t.val - 1 := rfl
  have ea : ∀ r : Fin 512, (tb1 V c (prev1 t) (ix2 r p) : EReal) = T1 V c (ix2 (lo' r) (i 0)) := fun r =>
    tblk1_apply V c (prev1 t) r p _ (by show r.val = _; rw [hs]; omega) (by show (i 0).val = _; rw [hs, hi0]; omega)
  have eb : ∀ r : Fin 512, (eb1 V c (prev1 t) (ix2 r q) : EReal) = X1 V c (ix2 (lo' r) (i 1)) := fun r =>
    eblk1_apply V c (prev1 t) r q _ (by show r.val = _; rw [hs]; omega) (by show (i 1).val = _; rw [hs, hi1]; omega)
  have ec : ∀ r : Fin 512, (tb1 V c t (ix2 r p) : EReal) = T1 V c (ix2 (hi' r) (i 0)) := fun r =>
    tblk1_apply V c t r p _ (by show 512 + r.val = _; omega) (by show (i 0).val = _; rw [hi0])
  have ed : ∀ r : Fin 512, (eb1 V c t (ix2 r q) : EReal) = X1 V c (ix2 (hi' r) (i 1)) := fun r =>
    eblk1_apply V c t r q _ (by show 512 + r.val = _; omega) (by show (i 1).val = _; rw [hi1])
  have ew : (wb1 V c t (ix2 p q) : EReal) = W1 V c (ix2 (i 0) (i 1)) :=
    wblk1_apply V c t p q _ (by show (i 0).val = _; rw [hi0]) (by show (i 1).val = _; rw [hi1])
  have em : (mb1 V c t (ix2 p (0 : Fin 1)) : EReal) = M1 V c (ix2 (i 0) (0 : Fin 1)) :=
    mblk1_apply V c t p 0 _ (by show (i 0).val = _; rw [hi0]) (by show (0 : ℕ) = _; omega)
  have hA : (∑ r : Fin 512, (tb1 V c (prev1 t) (ix2 r p) : EReal) * (eb1 V c (prev1 t) (ix2 r q) : EReal))
      = ∑ r : Fin 512, T1 V c (ix2 (lo' r) (i 0)) * X1 V c (ix2 (lo' r) (i 1)) :=
    Finset.sum_congr rfl fun r _ => by rw [ea r, eb r]
  have hB : (∑ r : Fin 512, (tb1 V c t (ix2 r p) : EReal) * (eb1 V c t (ix2 r q) : EReal))
      = ∑ r : Fin 512, T1 V c (ix2 (hi' r) (i 0)) * X1 V c (ix2 (hi' r) (i 1)) :=
    Finset.sum_congr rfl fun r _ => by rw [ec r, ed r]
  unfold oAt1
  rw [outB1_apply, hA, hB, ew, em]
  rfl

/-- What an odd point writes back is its block of the update. -/
theorem flushed1_eq (c : Dev nD) (t : Fin cfg1.N) (hf : (cfg1.win 4).flush t = true) :
    (dat1 (F := Ideal) V c).flushed 4 t = ((cfg1.win 4).blk t).view.read (Elt Ideal) (G1 V c) := by
  have hodd : t.val % 2 = 1 := (flush1_4 t).mp hf
  have hx := idx_facts1 t
  show (cfg1.win 4).cut (grid1.coords t) ((dat1 (F := Ideal) V c).after 4 t) = _
  rw [after1_4]
  funext j
  obtain ⟨p, q, rfl⟩ : ∃ (p : Fin 512) (q : Fin 1024), j = ix2 p q := ⟨j 0, j 1, eq_ix2 j⟩
  show oAt1 V c t (ix2 p q) = G1 V c (((cfg1.win 4).blk t).view.emb (ix2 p q))
  refine stored1_eq V c t hodd p q _ ?_ ?_
  · show win1_4.index t (0 : Fin 2) * 512 + 1 * p.val = t.val / 8 * 512 + p.val
    rw [hx.2.2.2.2.2.2.2.2.1]; omega
  · show win1_4.index t (1 : Fin 2) * 1024 + 1 * q.val = t.val / 2 % 4 * 1024 + q.val
    rw [hx.2.2.2.2.2.2.2.2.2]; omega

/-- An index of the array is in point t's block iff each coordinate is in the block's range on its axis. -/
theorem mem_blk1 (t : Fin cfg1.N) (i : S2048x4096.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v8).slice (win1_4.rect t)).set ↔ _
  rw [View.set_slice_whole, Rect.mem_set_unit]
  exact Iff.rfl

/-- Every index (i0, i1) of the array is in the block of the odd point 8 (i0 / 512) + 2 (i1 / 1024) + 1. -/
theorem cover1 (i : S2048x4096.Idx) : ∃ t : Fin cfg1.N, (cfg1.win 4).flush t = true ∧ i ∈ ((cfg1.win 4).blk t).view.set := by
  have h0 : (i 0).val < 2048 := idx2_lt0 i
  have h1 : (i 1).val < 4096 := idx2_lt1 i
  have hN : cfg1.N = 32 := N_1
  obtain ⟨t, ht⟩ : ∃ t : Fin cfg1.N, t.val = 8 * ((i 0).val / 512) + 2 * ((i 1).val / 1024) + 1 :=
    ⟨⟨8 * ((i 0).val / 512) + 2 * ((i 1).val / 1024) + 1, by rw [hN]; omega⟩, rfl⟩
  have hx := idx_facts1 t
  refine ⟨t, (flush1_4 t).mpr (by omega), ?_⟩
  rw [mem_blk1]
  intro a
  match a with
  | ⟨0, _⟩ =>
    show win1_4.index t (0 : Fin 2) * 512 ≤ (i 0).val ∧ (i 0).val < win1_4.index t (0 : Fin 2) * 512 + 512
    rw [hx.2.2.2.2.2.2.2.2.1]; omega
  | ⟨1, _⟩ =>
    show win1_4.index t (1 : Fin 2) * 1024 ≤ (i 1).val ∧ (i 1).val < win1_4.index t (1 : Fin 2) * 1024 + 1024
    rw [hx.2.2.2.2.2.2.2.2.2]; omega

/-- The output array after the region: the update, everywhere. -/
theorem final1 (c : Dev nD) : (dat1 (F := Ideal) V c).arrAt 4 cfg1.N = G1 V c :=
  (dat1 (F := Ideal) V c).arrAt_eq_of_cover 4 (G1 V c) (fun t hf => flushed1_eq V c t hf) cover1

/-- The output array after the region at (cc, e): the specification's kernel-side update of the arrays the region
    finds. -/
theorem out1_apply (V : (c : Dev nD) → (b : Ref sig .tc) → Buf (Elt Ideal) ((c : Thread nD τ).loc b)) (c : Dev nD) (cc : Fin 2048) (e : Fin 4096) :
    ((dat1 (F := Ideal) V c).arrAt 4 cfg1.N : S2048x4096.Idx → EReal) (ix2 cc e)
      = wnewK (V c main_v7) (V c main_v0) (V c main_arg2) (fun c' => (V c main_v6 : S2048x1.Idx → EReal) (ix2 c' (0 : Fin 1))) cc e := by
  rw [final1]
  rfl

end Cert.KernelIdeal.Val

end
-- ==== Proof.KernelIdeal.V2.lean ====
/-
  Region 2's output array at the ideal values, index by index.

  The region is the tiled product post = ec · Wnewᵀ on the grid (4, 2, 2): point (i, j, k) holds rows 256 i … of
  the left array, rows 1024 j … of the right one and half k of the 4096-long contraction.  A last-half point
  stores (0 + first half's sum) + second half's sum into block (i, j) of the output, and these blocks tile it.
  So every entry (b, c) of the output ends at the two-halves contraction mmK of the two arrays.
-/
import proofs.«174496_j87144886436114_1_alg».proof.Proof.KernelIdeal.R2Dat
import proofs.«174496_j87144886436114_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame Cert.Spec Idealize.ShloMosaic Idealize.ShloMosaic.ValueIdx
open Idealize.ShloMosaic.TcCoe Idealize.SL.Sem
open Idealize.ShloMosaic.Pipeline (Dat)

/-! ## The body's arithmetic at a block index -/

/-- The operand indices of the product's dimension numbers: the left operand's row is the output's row, -/
theorem lhs2_0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
/-- its column the contraction index, -/
theorem lhs2_1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
/-- the right operand's row is the output's column, -/
theorem rhs2_0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
/-- and its column the contraction index. -/
theorem rhs2_1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The zeroed accumulator reads 0 everywhere. -/
theorem zero2_apply (p : Fin 256) (q : Fin 1024) : k2_pay1 (F := Ideal) (ix2 p q) = 0 := by
  unfold k2_pay1
  simp only [shapeCast_self]
  show Ideal.ofBits .f32 0x00000000#32 = 0
  exact Ideal.ofBits_zero_f32

/-- One accumulation step at (p, q): what the accumulator held plus the half's row-by-row product. -/
theorem step2_apply (v3 : Vec Ideal S256x1024 .f32) (v4 : Vec Ideal S256x2048 .bf16) (v6 : Vec Ideal S1024x2048 .bf16) (p : Fin 256) (q : Fin 1024) :
    k2_pay2 (F := Ideal) v3 v4 v6 (ix2 p q) = v3 (ix2 p q) + ∑ k : Fin 2048, v4 (ix2 p k) * v6 (ix2 q k) := by
  unfold k2_pay2
  simp only [shapeCast_self]
  rw [addf_apply]
  refine congrArg (v3 (ix2 p q) + ·) ?_
  simp only [matmul]
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p q) ((contrEquiv1 dot_S256x2048_S1024x2048_S256x1024_1_1_0_0_n_n 2048 rfl rfl).symm k) = ix2 p k := funext fun a => Fin.ext (by
    match a with
    | ⟨0, _⟩ => exact lhs2_0 _ _
    | ⟨1, _⟩ => exact (lhs2_1 _ _).trans hk)
  have er : dot_S256x2048_S1024x2048_S256x1024_1_1_0_0_n_n.rhsIdx (ix2 p q) ((contrEquiv1 dot_S256x2048_S1024x2048_S256x1024_1_1_0_0_n_n 2048 rfl rfl).symm k) = ix2 q k := funext fun a => Fin.ext (by
    match a with
    | ⟨0, _⟩ => exact rhs2_0 _ _
    | ⟨1, _⟩ => exact (rhs2_1 _ _).trans hk)
  rw [el, er]

/-- What a last-half point stores at (p, q) of its block: zero, plus the first half's product over the blocks of the
    point before, plus the second half's over its own. -/
theorem pay2_apply (xa xb : Vec Ideal S256x2048 .bf16) (ya yb : Vec Ideal S1024x2048 .bf16) (p : Fin 256) (q : Fin 1024) :
    outB2 (F := Ideal) (accA2 (F := Ideal) xa ya) xb yb (ix2 p q)
      = (0 + ∑ k : Fin 2048, xa (ix2 p k) * ya (ix2 q k)) + ∑ k : Fin 2048, xb (ix2 p k) * yb (ix2 q k) := by
  unfold outB2 accA2
  rw [step2_apply, step2_apply, zero2_apply]

/-! ## From blocks to the array -/

variable (V : (c : Dev nD) → (b : Ref sig .tc) → Buf (Elt Ideal) ((c : Thread nD τ).loc b))

/-- The printed index maps over the grid: point t = 4 i + 2 j + k reads block (i, k) of the left array and block
    (j, k) of the right one, and owns block (i, j) of the output. -/
theorem idx_facts2 : ∀ t : Fin cfg2.N,
    win2_0.index t (0 : Fin 2) = t.val / 4 ∧ win2_0.index t (1 : Fin 2) = t.val % 2
    ∧ win2_1.index t (0 : Fin 2) = t.val / 2 % 2 ∧ win2_1.index t (1 : Fin 2) = t.val % 2
    ∧ win2_2.index t (0 : Fin 2) = t.val / 4 ∧ win2_2.index t (1 : Fin 2) = t.val / 2 % 2 :=
  (by decide +kernel : ∀ t : Fin grid2.N,
    win2_0.index t (0 : Fin 2) = t.val / 4 ∧ win2_0.index t (1 : Fin 2) = t.val % 2
    ∧ win2_1.index t (0 : Fin 2) = t.val / 2 % 2 ∧ win2_1.index t (1 : Fin 2) = t.val % 2
    ∧ win2_2.index t (0 : Fin 2) = t.val / 4 ∧ win2_2.index t (1 : Fin 2) = t.val / 2 % 2)

/-- The left block at point t, entry (p, k), is the left array at row 256 i + p, column 2048 k' + k. -/
theorem xb2_apply (c : Dev nD) (t : Fin cfg2.N) (p : Fin 256) (k : Fin 2048) (r : Fin 1024) (e : Fin 4096)
    (hr : r.val = win2_0.index t (0 : Fin 2) * 256 + p.val) (he : e.val = win2_0.index t (1 : Fin 2) * 2048 + k.val) :
    xb2 V c t (ix2 p k) = (V c main_v0 : S1024x4096.Idx → EReal) (ix2 r e) := by
  unfold xb2 iblk2
  rw [View.read_apply]
  show (V c main_v0 : S1024x4096.Idx → EReal) _ = (V c main_v0 : S1024x4096.Idx → EReal) _
  refine congrArg _ (funext fun a => Fin.ext ?_)
  match a with
  | ⟨0, _⟩ => show win2_0.index t (0 : Fin 2) * 256 + 1 * p.val = r.val; omega
  | ⟨1, _⟩ => show win2_0.index t (1 : Fin 2) * 2048 + 1 * k.val = e.val; omega

/-- The right block at point t, entry (q, k), is the right array at row 1024 j + q, column 2048 k' + k. -/
theorem yb2_apply (c : Dev nD) (t : Fin cfg2.N) (q : Fin 1024) (k : Fin 2048) (r : Fin 2048) (e : Fin 4096)
    (hr : r.val = win2_1.index t (0 : Fin 2) * 1024 + q.val) (he : e.val = win2_1.index t (1 : Fin 2) * 2048 + k.val) :
    yb2 V c t (ix2 q k) = (V c main_v9 : S2048x4096.Idx → EReal) (ix2 r e) := by
  unfold yb2 iblk2
  rw [View.read_apply]
  show (V c main_v9 : S2048x4096.Idx → EReal) _ = (V c main_v9 : S2048x4096.Idx → EReal) _
  refine congrArg _ (funext fun a => Fin.ext ?_)
  match a with
  | ⟨0, _⟩ => show win2_1.index t (0 : Fin 2) * 1024 + 1 * q.val = r.val; omega
  | ⟨1, _⟩ => show win2_1.index t (1 : Fin 2) * 2048 + 1 * k.val = e.val; omega

/-- What the whole output ends holding: the two-halves contraction of the two arrays as the region finds them. -/
def G2 (c : Dev nD) : S1024x2048.Idx → EReal := fun i => mmK (V c main_v0) (V c main_v9) (i 0) (i 1)

/-- What a last-half point stores at (p, q) of its block is the contraction at the entry of the output the block
    puts there: the first half comes from the point before (same rows, half 0), the second from the point itself. -/
theorem block2_eq (c : Dev nD) (t : Fin cfg2.N) (hodd : t.val % 2 = 1) (p : Fin 256) (q : Fin 1024) (B : Fin 1024) (C : Fin 2048)
    (hB : B.val = win2_2.index t (0 : Fin 2) * 256 + 1 * p.val) (hC : C.val = win2_2.index t (1 : Fin 2) * 1024 + 1 * q.val) :
    oAt2 (F := Ideal) V c t (ix2 p q) = mmK (V c main_v0) (V c main_v9) B C := by
  have hN : t.val < 16 := lt_of_lt_of_eq t.isLt (show cfg2.N = 16 from N_2)
  obtain ⟨a0, a1, a2, a3, a4, a5⟩ := idx_facts2 t
  obtain ⟨b0, b1, b2, b3, b4, b5⟩ := idx_facts2 (prev2 t)
  have hpv : (prev2 t).val = t.val - 1 := rfl
  unfold oAt2
  rw [pay2_apply]
  unfold mmK
  refine congrArg₂ (· + ·) (congrArg (0 + ·) (Finset.sum_congr rfl fun k _ => ?_)) (Finset.sum_congr rfl fun k _ => ?_)
  · exact congrArg₂ (· * ·)
      (xb2_apply V c (prev2 t) p k B (lo k) (by rw [b0, hpv, hB, a4]; omega) (by rw [b1, hpv]; show k.val = _; omega))
      (yb2_apply V c (prev2 t) q k C (lo k) (by rw [b2, hpv, hC, a5]; omega) (by rw [b3, hpv]; show k.val = _; omega))
  · exact congrArg₂ (· * ·)
      (xb2_apply V c t p k B (hi k) (by rw [a0, hB, a4]; omega) (by rw [a1]; show 2048 + k.val = _; omega))
      (yb2_apply V c t q k C (hi k) (by rw [a2, hC, a5]; omega) (by rw [a3]; show 2048 + k.val = _; omega))

/-- What a flushing point writes back is its block of G2. -/
theorem flushed2_eq (c : Dev nD) (t : Fin cfg2.N) (hf : (cfg2.win 2).flush t = true) :
    (dat2 (F := Ideal) V c).flushed 2 t = ((cfg2.win 2).blk t).view.read (Elt Ideal) (G2 V c) := by
  have hodd : t.val % 2 = 1 := (flush2_2 t).mp hf
  show (cfg2.win 2).cut (grid2.coords t) ((dat2 (F := Ideal) V c).after 2 t) = _
  rw [after2_2]
  funext j
  obtain ⟨p, q, rfl⟩ : ∃ (p : Fin 256) (q : Fin 1024), j = ix2 p q := ⟨j 0, j 1, eq_ix2 j⟩
  show oAt2 (F := Ideal) V c t (ix2 p q) = mmK (V c main_v0) (V c main_v9) ((((cfg2.win 2).blk t).view.emb (ix2 p q)) 0) ((((cfg2.win 2).blk t).view.emb (ix2 p q)) 1)
  exact block2_eq V c t hodd p q _ _ rfl rfl

/-- An entry of the output is in point t's block iff each coordinate is in the block's range on its axis. -/
theorem mem_blk2 (t : Fin cfg2.N) (i : S1024x2048.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v10).slice (win2_2.rect t)).set ↔ _
  rw [View.set_slice_whole, Rect.mem_set_unit]
  exact Iff.rfl

/-- Every entry of the output is in the block of a last-half point: row b, column c is in block (b / 256, c / 1024). -/
theorem cover2 (i : S1024x2048.Idx) : ∃ t : Fin cfg2.N, (cfg2.win 2).flush t = true ∧ i ∈ ((cfg2.win 2).blk t).view.set := by
  have h0 : (i 0).val < 1024 := (i 0).isLt
  have h1 : (i 1).val < 2048 := (i 1).isLt
  have hN : cfg2.N = 16 := N_2
  let t : Fin cfg2.N := ⟨(i 0).val / 256 * 4 + (i 1).val / 1024 * 2 + 1, by rw [hN]; omega⟩
  have ht : t.val = (i 0).val / 256 * 4 + (i 1).val / 1024 * 2 + 1 := rfl
  obtain ⟨a0, a1, a2, a3, a4, a5⟩ := idx_facts2 t
  refine ⟨t, (flush2_2 t).mpr (by rw [ht]; omega), ?_⟩
  rw [mem_blk2]
  intro a
  match a with
  | ⟨0, _⟩ => show win2_2.index t (0 : Fin 2) * 256 ≤ (i 0).val ∧ (i 0).val < win2_2.index t (0 : Fin 2) * 256 + 256; rw [a4, ht]; omega
  | ⟨1, _⟩ => show win2_2.index t (1 : Fin 2) * 1024 ≤ (i 1).val ∧ (i 1).val < win2_2.index t (1 : Fin 2) * 1024 + 1024; rw [a5, ht]; omega

/-- The output array after the region is G2 of the two arrays. -/
theorem final2 (c : Dev nD) : (dat2 (F := Ideal) V c).arrAt 2 cfg2.N = G2 V c :=
  (dat2 (F := Ideal) V c).arrAt_eq_of_cover 2 (G2 V c) (fun t hf => flushed2_eq V c t hf) cover2

/-- Entry (b, cc) of the output after the region: the two-halves contraction of row b of the left array with row cc
    of the right one. -/
theorem out2_apply (V : (c : Dev nD) → (b : Ref sig .tc) → Buf (Elt Ideal) ((c : Thread nD τ).loc b)) (c : Dev nD) (b : Fin 1024) (cc : Fin 2048) :
    ((dat2 (F := Ideal) V c).arrAt 2 cfg2.N : S1024x2048.Idx → EReal) (ix2 b cc) = mmK (V c main_v0) (V c main_v9) b cc := by
  rw [final2]
  rfl

end Cert.KernelIdeal.Val

end
-- ==== Proof.RefSide.lean ====
/-
  The reference program read index by index.  Each stage of the reference is brought to the shared vocabulary of
  the specification: the first product E · Wᵀ is the contraction mm, the first result adds D to it, the updated
  weight is wnewR of the first result, the inputs, the old weights and the column mean, the second product is mm
  against the updated weight, and the two losses are the total sum of a squared difference divided by the
  number of entries.
-/
import proofs.«174496_j87144886436114_1_alg».proof.Defs
import proofs.«174496_j87144886436114_1_alg».proof.Proof.Gen.ReferenceIdeal.Run
import proofs.«174496_j87144886436114_1_alg».proof.Proof.Gen.ReferenceIdeal.Read
import proofs.«174496_j87144886436114_1_alg».proof.Proof.Spec

noncomputable section

namespace Cert.ReferenceIdeal.RefValue

open Cert.ReferenceIdeal Cert.ReferenceIdeal.Gen Cert.ReferenceIdeal.Read Cert.Spec Idealize.ShloMosaic Idealize.ShloMosaic.ValueIdx

variable (E : (⟨S1024x4096, .f32⟩ : BufTy).Contents (Elt Ideal)) (D : (⟨S1024x2048, .f32⟩ : BufTy).Contents (Elt Ideal))
  (W : (⟨S2048x4096, .f32⟩ : BufTy).Contents (Elt Ideal))

/-! ## The composed index functions, by coordinates -/

/-- Transposing: entry (k, c) of Wᵀ is entry (c, k) of W. -/
theorem idx0_ix (k : Fin 4096) (c : Fin 2048) : idx_main_v0 (ix2 k c) = ix2 c k :=
  funext fun a => match a with | ⟨0, _⟩ => rfl | ⟨1, _⟩ => rfl

/-- The left operand of the first product at (b, c), term k, is read at (b, k). -/
theorem lidx1_ix (b : Fin 1024) (c : Fin 2048) (k : Fin 4096) : lidx_main_v1 (ix2 b c) k = ix2 b k :=
  funext fun a => match a with | ⟨0, _⟩ => rfl | ⟨1, _⟩ => rfl

/-- The right operand of the first product at (b, c), term k, is read at (k, c). -/
theorem ridx1_ix (b : Fin 1024) (c : Fin 2048) (k : Fin 4096) : ridx_main_v1 (ix2 b c) k = ix2 k c :=
  funext fun a => match a with | ⟨0, _⟩ => rfl | ⟨1, _⟩ => rfl

/-- The left operand of the batch contraction at (c, e), term k, is read at (k, c). -/
theorem lidx3_ix (c : Fin 2048) (e : Fin 4096) (k : Fin 1024) : lidx_main_v3 (ix2 c e) k = ix2 k c :=
  funext fun a => match a with | ⟨0, _⟩ => rfl | ⟨1, _⟩ => rfl

/-- The right operand of the batch contraction at (c, e), term k, is read at (k, e). -/
theorem ridx3_ix (c : Fin 2048) (e : Fin 4096) (k : Fin 1024) : ridx_main_v3 (ix2 c e) k = ix2 k e :=
  funext fun a => match a with | ⟨0, _⟩ => rfl | ⟨1, _⟩ => rfl

/-- The column mean spread along the rows: entry (c, e) reads the mean at c. -/
theorem idx9_10_ix (c : Fin 2048) (e : Fin 4096) : idx_main_v9 (idx_main_v10 (ix2 c e)) = ix1 c :=
  funext fun a => match a with | ⟨0, _⟩ => rfl

/-- Transposing the updated weight. -/
theorem idx16_ix (k : Fin 4096) (c : Fin 2048) : idx_main_v16 (ix2 k c) = ix2 c k :=
  funext fun a => match a with | ⟨0, _⟩ => rfl | ⟨1, _⟩ => rfl

/-- The left operand of the second product at (b, c), term k, is read at (b, k). -/
theorem lidx17_ix (b : Fin 1024) (c : Fin 2048) (k : Fin 4096) : lidx_main_v17 (ix2 b c) k = ix2 b k :=
  funext fun a => match a with | ⟨0, _⟩ => rfl | ⟨1, _⟩ => rfl

/-- The right operand of the second product at (b, c), term k, is read at (k, c). -/
theorem ridx17_ix (b : Fin 1024) (c : Fin 2048) (k : Fin 4096) : ridx_main_v17 (ix2 b c) k = ix2 k c :=
  funext fun a => match a with | ⟨0, _⟩ => rfl | ⟨1, _⟩ => rfl

/-! ## The stages -/

/-- E · Wᵀ at (b, c) is the whole contraction. -/
theorem v1_apply (b : Fin 1024) (c : Fin 2048) : val_main_v1 (F := Ideal) E W (ix2 b c) = mm E W b c := by
  rw [val_main_v1_apply]
  unfold mm
  refine Finset.sum_congr rfl fun k _ => ?_
  rw [val_main_v0_apply, lidx1_ix, ridx1_ix, idx0_ix]

/-- The first result: D plus the product. -/
theorem v2_apply (b : Fin 1024) (c : Fin 2048) :
    val_main_v2 (F := Ideal) E D W (ix2 b c) = D (ix2 b c) + mm E W b c := by
  rw [val_main_v2_apply, Ideal.addf_def, v1_apply]

/-- The updated weight at (c, e): W + lr · (preᵀ · E / 1024 − mean · W). -/
theorem v15_apply (c : Fin 2048) (e : Fin 4096) :
    val_main_v15 (F := Ideal) E D W (ix2 c e)
      = wnewR (val_main_v2 (F := Ideal) E D W) E W (fun c' => val_main_v8 (F := Ideal) E D W (ix1 c')) c e := by
  rw [val_main_v15_apply, val_main_v14_apply, val_main_v13_apply, val_main_cst_2_apply, val_main_v12_apply,
    val_main_v5_apply, val_main_v4_apply, val_main_cst_apply, val_main_v11_apply, val_main_v10_apply,
    val_main_v9_apply, val_main_v3_apply, idx9_10_ix]
  unfold wnewR outer
  simp only [Ideal.addf_def, Ideal.mulf_def, Ideal.subf_def, Ideal.hostDivf_def, Ideal.ofBits_def, lidx3_ix, ridx3_ix]

/-- E · Wnewᵀ at (b, c) is the whole contraction against the updated weight. -/
theorem v17_apply (b : Fin 1024) (c : Fin 2048) :
    val_main_v17 (F := Ideal) E D W (ix2 b c) = mm E (val_main_v15 (F := Ideal) E D W) b c := by
  rw [val_main_v17_apply]
  unfold mm
  refine Finset.sum_congr rfl fun k _ => ?_
  rw [val_main_v16_apply, lidx17_ix, ridx17_ix, idx16_ix]

/-- D plus the second product. -/
theorem v18_apply (b : Fin 1024) (c : Fin 2048) :
    val_main_v18 (F := Ideal) E D W (ix2 b c) = D (ix2 b c) + mm E (val_main_v15 (F := Ideal) E D W) b c := by
  rw [val_main_v18_apply, Ideal.addf_def, v17_apply]

/-- The column mean of the first result: its sum along the batch axis divided by 1024. -/
theorem v8_eq :
    val_main_v8 (F := Ideal) E D W
      = Host.divf (Host.reduceAdd (val_main_v2 (F := Ideal) E D W) (constant (F := Ideal) S_ .f32 0x00000000#32)
          reducesTo_S1024x2048_S2048_d0 h_S_)
        (broadcastInDim S2048 ![] bcast_S_S2048 (constant (F := Ideal) S_ .f32 0x44800000#32)) := by
  unfold val_main_v8 val_main_v6 val_main_v7 val_main_cst_0 val_main_cst_1
  rfl

/-- The third result: the mean of the squared difference of the two products. -/
theorem v22_eq :
    val_main_v22 (F := Ideal) E D W
      = Host.divf (Host.reduceAdd
          (mulf (subf (val_main_v1 (F := Ideal) E W) (val_main_v17 (F := Ideal) E D W))
            (subf (val_main_v1 (F := Ideal) E W) (val_main_v17 (F := Ideal) E D W)))
          (constant (F := Ideal) S_ .f32 0x00000000#32) reducesTo_S1024x2048_S_d0_1 h_S_)
        (constant (F := Ideal) S_ .f32 0x4A000000#32) := by
  unfold val_main_v22 val_main_v21 val_main_v20 val_main_v19 val_main_cst_3 val_main_cst_4
  rfl

/-- The fourth result: the mean of the squared difference of the two sums with D. -/
theorem v26_eq :
    val_main_v26 (F := Ideal) E D W
      = Host.divf (Host.reduceAdd
          (mulf (subf (val_main_v2 (F := Ideal) E D W) (val_main_v18 (F := Ideal) E D W))
            (subf (val_main_v2 (F := Ideal) E D W) (val_main_v18 (F := Ideal) E D W)))
          (constant (F := Ideal) S_ .f32 0x00000000#32) reducesTo_S1024x2048_S_d0_1 h_S_)
        (constant (F := Ideal) S_ .f32 0x4A000000#32) := by
  unfold val_main_v26 val_main_v25 val_main_v24 val_main_v23 val_main_cst_5 val_main_cst_6
  rfl

end Cert.ReferenceIdeal.RefValue

end
-- ==== Proof.Finite.lean ====
import proofs.«174496_j87144886436114_1_alg».proof.Pre_finite_inputs
import proofs.«174496_j87144886436114_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx

/-- The f32 pattern with exponent field all ones and fraction zero denotes `+∞`. -/
theorem ofBits_inf_f32 : Ideal.ofBits .f32 0x7F800000#32 = (⊤ : EReal) := by
  simp [Ideal.ofBits, Ideal.ieee]

/-- An extended real whose absolute value `max x (-x)` lies strictly below `+∞` is a real:
    at `⊤` the maximum is `⊤`, at `⊥` it is `-⊥ = ⊤`. -/
theorem finite_of_abs_lt_top (x : EReal) (h : max x (-x) < ⊤) : x ≠ ⊤ ∧ x ≠ ⊥ := by
  induction x using EReal.rec with
  | bot => simp at h
  | coe r => exact ⟨EReal.coe_ne_top r, EReal.coe_ne_bot r⟩
  | top => simp at h

/-- The ordered "less than" comparison of extended reals returns the bit 1 only where the strict inequality holds. -/
theorem lt_of_cmp_olt (x y : EReal) (h : Ideal.cmp .olt x y = 1#1) : x < y := by
  by_contra hn
  have h0 : Ideal.cmp .olt x y = 0#1 := by simp [Ideal.cmp, hn]
  rw [h0] at h
  exact absurd h (by decide)

/-- The rank-0 shape has one index. -/
instance : Subsingleton Cert.Pre_finite_inputs.S_.Idx := ⟨fun a b => funext fun d => d.elim0⟩

/-- Under the precondition every entry of the second argument is a finite real. -/
theorem arg1_finite [Cert.Pre_finite_inputs.Facts] (a0 : FVec Ideal Cert.Pre_finite_inputs.S1024x4096 .f32) (a1 : FVec Ideal Cert.Pre_finite_inputs.S1024x2048 .f32) (a2 : FVec Ideal Cert.Pre_finite_inputs.S2048x4096 .f32)
    (h : Cert.Pre_finite_inputs.fn (F := Ideal) a0 a1 a2 = fun _ => 1#1) (i : Cert.Pre_finite_inputs.S1024x2048.Idx) : (a1 i : EReal) ≠ ⊤ ∧ (a1 i : EReal) ≠ ⊥ := by
  have h0 := congrFun h ValueIdx.ix0
  dsimp only [Cert.Pre_finite_inputs.fn] at h0
  obtain ⟨h1, _⟩ := IntOp.andi_eq_one.1 h0
  obtain ⟨_, h2⟩ := IntOp.andi_eq_one.1 h1
  have h3 := Host.reduce_andi_all _ _ _ _ _ h2 i
  have h4 : Ideal.cmp .olt (max (a1 i) (-(a1 i))) (Ideal.ofBits .f32 0x7F800000#32) = 1#1 := h3
  rw [ofBits_inf_f32] at h4
  exact finite_of_abs_lt_top (a1 i) (lt_of_cmp_olt _ _ h4)

end Cert.Finite

end
-- ==== Proof.Bridge.lean ====
/-
  The bridge: at the ideal instance, under the precondition, the kernel program's results are the reference's.

  pre:   both are ec · Wᵀ + dg, the kernel summing the contraction in two halves and adding dg last.
  mean:  the same host operations applied to equal arrays.
  Wnew:  the kernel scales the two-half outer product by 2⁻¹⁰, the reference divides the whole one by 1024.
  post:  both are ec · Wnewᵀ.
  loss:  the kernel forms (pre − dg) − post; the reference forms ec·Wᵀ − post, and (dg + ec·Wᵀ) − (dg + post);
         the three agree entry by entry because every entry of dg is finite.
-/
import proofs.«174496_j87144886436114_1_alg».proof.Defs
import proofs.«174496_j87144886436114_1_alg».proof.Proof.KernelIdeal.HostVal
import proofs.«174496_j87144886436114_1_alg».proof.Proof.KernelIdeal.V0
import proofs.«174496_j87144886436114_1_alg».proof.Proof.KernelIdeal.V1
import proofs.«174496_j87144886436114_1_alg».proof.Proof.KernelIdeal.V2
import proofs.«174496_j87144886436114_1_alg».proof.Proof.RefSide
import proofs.«174496_j87144886436114_1_alg».proof.Proof.Spec
import proofs.«174496_j87144886436114_1_alg».proof.Proof.Finite

set_option maxRecDepth 16384

noncomputable section

namespace Cert.Bridge

open Cert.KernelIdeal Cert.KernelIdeal.Gen Cert.KernelIdeal.Frame Cert.KernelIdeal.Val
open Cert.ReferenceIdeal.Read Cert.ReferenceIdeal.RefValue Cert.Spec
open Idealize.ShloMosaic Idealize.ShloMosaic.TcCoe Idealize.ShloMosaic.ValueIdx Idealize.SL.Sem

variable (m : (ℓ : Loc nD τ sig) → Buf (Elt Ideal) ℓ) (c : Dev nD)

/-- The first result. -/
theorem pre_eq (i : S1024x2048.Idx) :
    (outP m c : S1024x2048.Idx → EReal) i = val_main_v2 (F := Ideal) (ecA m c) (dgA m c) (wA m c) i := by
  obtain ⟨b, cc, rfl⟩ : ∃ (b : Fin 1024) (cc : Fin 2048), i = ix2 b cc := ⟨i 0, i 1, eq_ix2 i⟩
  have hX : (En1 m c main_v0 : S1024x4096.Idx → EReal) = ecA m c := funext (En1_v0 m c)
  have hY : (En1 m c main_v1 : S2048x4096.Idx → EReal) = wA m c := funext (En1_v1 m c)
  have hD : (En1 m c main_arg1 : S1024x2048.Idx → EReal) = dgA m c := funext (En1_arg1 m c)
  rw [v2_apply, ← mmK_eq_mm, add_comm]
  refine (out0_apply (En1 m) c b cc).trans ?_
  rw [hX, hY, hD]

/-- The updated weights. -/
theorem wnew_eq (i : S2048x4096.Idx) :
    (outW m c : S2048x4096.Idx → EReal) i = val_main_v15 (F := Ideal) (ecA m c) (dgA m c) (wA m c) i := by
  obtain ⟨cc, e, rfl⟩ : ∃ (cc : Fin 2048) (e : Fin 4096), i = ix2 cc e := ⟨i 0, i 1, eq_ix2 i⟩
  have hP : (outP m c : S1024x2048.Idx → EReal) = val_main_v2 (F := Ideal) (ecA m c) (dgA m c) (wA m c) := funext (pre_eq m c)
  have hT : (En3 m c main_v7 : S1024x2048.Idx → EReal) = val_main_v2 (F := Ideal) (ecA m c) (dgA m c) (wA m c) :=
    funext fun j => (En3_v7 m c j).trans (pre_eq m c j)
  have hX : (En3 m c main_v0 : S1024x4096.Idx → EReal) = ecA m c := funext (En3_v0 m c)
  have hW : (En3 m c main_arg2 : S2048x4096.Idx → EReal) = wA m c := funext (En3_arg2 m c)
  -- the column mean: the same host operations on equal arrays
  have hM : (fun c' : Fin 2048 => (En3 m c main_v6 : S2048x1.Idx → EReal) (ix2 c' (0 : Fin 1)))
      = fun c' => val_main_v8 (F := Ideal) (ecA m c) (dgA m c) (wA m c) (ix1 c') := by
    funext c'
    rw [En3_v6, hP, v8_eq]
    generalize val_main_v2 (F := Ideal) (ecA m c) (dgA m c) (wA m c) = P
    rfl
  rw [v15_apply, ← wnewK_eq_wnewR]
  refine (out1_apply (En3 m) c cc e).trans ?_
  rw [hT, hX, hW, hM]

/-- The third product. -/
theorem post_eq (i : S1024x2048.Idx) :
    (outQ m c : S1024x2048.Idx → EReal) i = val_main_v17 (F := Ideal) (ecA m c) (dgA m c) (wA m c) i := by
  obtain ⟨b, cc, rfl⟩ : ∃ (b : Fin 1024) (cc : Fin 2048), i = ix2 b cc := ⟨i 0, i 1, eq_ix2 i⟩
  have hX : (En5 m c main_v0 : S1024x4096.Idx → EReal) = ecA m c := funext (En5_v0 m c)
  have hW : (En5 m c main_v9 : S2048x4096.Idx → EReal) = val_main_v15 (F := Ideal) (ecA m c) (dgA m c) (wA m c) :=
    funext fun j => (En5_v9 m c j).trans (wnew_eq m c j)
  rw [v17_apply, ← mmK_eq_mm]
  refine (out2_apply (En5 m) c b cc).trans ?_
  rw [hX, hW]

/-- The kernel's loss is the reference's third result, given that dg is finite. -/
theorem loss2_eq (hfin : ∀ i, dgA m c i ≠ ⊤ ∧ dgA m c i ≠ ⊥) :
    lossK (subf (F := Ideal) (φ := .f32) (subf (F := Ideal) (φ := .f32) (outP m c : S1024x2048.Idx → EReal) (dgA m c)) (outQ m c : S1024x2048.Idx → EReal))
      = val_main_v22 (F := Ideal) (ecA m c) (dgA m c) (wA m c) := by
  -- entry by entry: ((dg + a) − dg) − q = a − q, dg finite
  have hd : subf (F := Ideal) (φ := .f32) (subf (F := Ideal) (φ := .f32) (outP m c : S1024x2048.Idx → EReal) (dgA m c)) (outQ m c : S1024x2048.Idx → EReal)
      = subf (F := Ideal) (φ := .f32) (val_main_v1 (F := Ideal) (ecA m c) (wA m c)) (val_main_v17 (F := Ideal) (ecA m c) (dgA m c) (wA m c)) := by
    funext i
    obtain ⟨b, cc, rfl⟩ : ∃ (b : Fin 1024) (cc : Fin 2048), i = ix2 b cc := ⟨i 0, i 1, eq_ix2 i⟩
    rw [subf_apply, subf_apply, subf_apply, pre_eq m c, post_eq m c, v2_apply, v1_apply, add_comm (dgA m c (ix2 b cc)) _,
      add_sub_cancel_fin _ _ (hfin (ix2 b cc)).1 (hfin (ix2 b cc)).2]
  rw [v22_eq, hd]
  generalize subf (F := Ideal) (φ := .f32) (val_main_v1 (F := Ideal) (ecA m c) (wA m c)) (val_main_v17 (F := Ideal) (ecA m c) (dgA m c) (wA m c)) = d
  rfl

/-- And its fourth. -/
theorem loss3_eq (hfin : ∀ i, dgA m c i ≠ ⊤ ∧ dgA m c i ≠ ⊥) :
    lossK (subf (F := Ideal) (φ := .f32) (subf (F := Ideal) (φ := .f32) (outP m c : S1024x2048.Idx → EReal) (dgA m c)) (outQ m c : S1024x2048.Idx → EReal))
      = val_main_v26 (F := Ideal) (ecA m c) (dgA m c) (wA m c) := by
  -- entry by entry: ((dg + a) − dg) − q = (dg + a) − (dg + q), dg finite
  have hd : subf (F := Ideal) (φ := .f32) (subf (F := Ideal) (φ := .f32) (outP m c : S1024x2048.Idx → EReal) (dgA m c)) (outQ m c : S1024x2048.Idx → EReal)
      = subf (F := Ideal) (φ := .f32) (val_main_v2 (F := Ideal) (ecA m c) (dgA m c) (wA m c)) (val_main_v18 (F := Ideal) (ecA m c) (dgA m c) (wA m c)) := by
    funext i
    obtain ⟨b, cc, rfl⟩ : ∃ (b : Fin 1024) (cc : Fin 2048), i = ix2 b cc := ⟨i 0, i 1, eq_ix2 i⟩
    rw [subf_apply, subf_apply, subf_apply, pre_eq m c, post_eq m c, v2_apply, v18_apply, v17_apply,
      add_sub_add_fin _ _ _ (hfin (ix2 b cc)).1 (hfin (ix2 b cc)).2, add_comm (dgA m c (ix2 b cc)) _,
      add_sub_cancel_fin _ _ (hfin (ix2 b cc)).1 (hfin (ix2 b cc)).2]
  rw [v26_eq, hd]
  generalize subf (F := Ideal) (φ := .f32) (val_main_v2 (F := Ideal) (ecA m c) (dgA m c) (wA m c)) (val_main_v18 (F := Ideal) (ecA m c) (dgA m c) (wA m c)) = d
  rfl

end Cert.Bridge

end
-- ==== Proof.lean ====
/-
  The certificate of the Hebbian weight-update kernel against its reference.

  The program computes, in three tiled products with a bf16 narrowing in front of each (the identity at the
  ideal instance), pre = ec · Wᵀ + dg, the column mean of pre, Wnew = W + lr · (preᵀ · ec · 2⁻¹⁰ − mean ⊗ W),
  post = ec · Wnewᵀ, and the loss mean((pre − dg − post)²), returned twice beside pre and a zero.

  Frames.  Each product accumulates its contraction in two grid steps into a scratch accumulator that is zeroed
  at the first and read at the second; the accumulator's contents are carried through the region's invariant, and
  the three regions and four host stretches are composed in order, every unscoped buffer's contents named at each
  boundary.  No argument array is ever written, which is the frame; the same text serves the word-level program
  and the idealized one.  The reference is a straight line of host operations.

  Values.  At the ideal instance each region's output array is read index by index: the two half-contractions
  add up to the whole one, the dyadic scale is the reference's division by 1024, and (pre − dg) − post equals the
  reference's ec·Wᵀ − post and (dg + ec·Wᵀ) − (dg + post) because every entry of dg is a finite real, which is
  the one place the precondition is used.  The idealization rewrote nothing, so `preserves` is trivial.
-/
import proofs.«174496_j87144886436114_1_alg».proof.Defs
import proofs.«174496_j87144886436114_1_alg».proof.Proof.Gen.Kernel
import proofs.«174496_j87144886436114_1_alg».proof.Proof.Gen.KernelIdeal
import proofs.«174496_j87144886436114_1_alg».proof.Proof.Gen.ReferenceIdeal
import proofs.«174496_j87144886436114_1_alg».proof.Proof.Gen.Pre_finite_inputs
import proofs.«174496_j87144886436114_1_alg».proof.Proof.Gen.ReferenceIdeal.Run
import proofs.«174496_j87144886436114_1_alg».proof.Proof.Gen.ReferenceIdeal.Read
import proofs.«174496_j87144886436114_1_alg».proof.Proof.Kernel.FrameThm
import proofs.«174496_j87144886436114_1_alg».proof.Proof.KernelIdeal.FrameThm
import proofs.«174496_j87144886436114_1_alg».proof.Proof.KernelIdeal.HostVal
import proofs.«174496_j87144886436114_1_alg».proof.Proof.Bridge
import proofs.«174496_j87144886436114_1_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end, faults nowhere, and leaves its arguments as launched. -/
theorem frame_k : Cert.frame_Kernel := fun m ρ _ => Cert.Kernel.Frame.frame m ρ

/-- So does the idealized program. -/
theorem frame_ki : Cert.frame_KernelIdeal := fun m ρ _ => Cert.KernelIdeal.Frame.frame m ρ

/-- The reference is a straight line of host operations: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

open Cert.KernelIdeal Cert.KernelIdeal.Frame Cert.KernelIdeal.Val in
/-- At the ideal instance, from memories agreeing on the arguments, both programs end with the same four results:
    the kernel's are read off its last valuation, the reference's off its run, and the bridge identifies them. -/
theorem algebraic : Cert.algebraic_KernelIdeal_ReferenceIdeal := by
  intro m ρ m' ρ' hpre hagree
  have hfin : ∀ (c : Dev Cert.KernelIdeal.nD) (i : Cert.KernelIdeal.S1024x2048.Idx), dgA m c i ≠ ⊤ ∧ dgA m c i ≠ ⊥ :=
    fun c i => Cert.Finite.arg1_finite _ _ _ (hpre c) i
  refine ⟨fun c => outP m c, fun c => W7 m c main_cst_3, fun c => W7 m c main_v15, fun c => W7 m c main_v15, ?_, ?_⟩
  · refine (θ_run Cert.KernelIdeal.defs _ _).mono (fun r h c => ?_) (run_main m ρ)
    exact ⟨(h c _ (mem_uc main_v2 (by decide))).trans (W7_main_v2 m c),
      h c _ (mem_uc main_cst_3 (by decide)),
      h c _ (mem_uc main_v15 (by decide)),
      h c _ (mem_uc main_v15 (by decide)),
      (h c _ (mem_uc main_arg0 (by decide))).trans (W7_main_arg0 m c),
      (h c _ (mem_uc main_arg1 (by decide))).trans (W7_main_arg1 m c),
      (h c _ (mem_uc main_arg2 (by decide))).trans (W7_main_arg2 m c)⟩
  · refine (θ_run Cert.ReferenceIdeal.defs _ _).mono (fun r h c => ?_) (Cert.ReferenceIdeal.Value.run (F := Ideal) m' ρ')
    obtain ⟨h0, h1, h2, h3, ha⟩ := h c
    refine ⟨h0.trans ?_, h1.trans ?_, h2.trans ?_, h3.trans ?_, ha⟩
    · rw [(hagree c).1, (hagree c).2.1, (hagree c).2.2]
      exact (Cert.ReferenceIdeal.Read.val_main_v2_eq (F := Ideal) _ _ _).trans (funext fun i => (Cert.Bridge.pre_eq m c i).symm)
    · exact (W7_main_cst_3 m c).symm
    · rw [(hagree c).1, (hagree c).2.1, (hagree c).2.2]
      exact (Cert.ReferenceIdeal.Read.val_main_v22_eq (F := Ideal) _ _ _).trans
        ((Cert.Bridge.loss2_eq m c (hfin c)).symm.trans (W7_main_v15 m c).symm)
    · rw [(hagree c).1, (hagree c).2.1, (hagree c).2.2]
      exact (Cert.ReferenceIdeal.Read.val_main_v26_eq (F := Ideal) _ _ _).trans
        ((Cert.Bridge.loss3_eq m c (hfin c)).symm.trans (W7_main_v15 m c).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
